-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v343)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v343) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v531) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x400000 : Shape := ⟨2, ![2, 400000]⟩
abbrev S100000 : Shape := ⟨1, ![100000]⟩
abbrev S5x1x128 : Shape := ⟨3, ![5, 1, 128]⟩
abbrev S128 : Shape := ⟨1, ![128]⟩
abbrev S5x128x512 : Shape := ⟨3, ![5, 128, 512]⟩
abbrev S512 : Shape := ⟨1, ![512]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S5x1x128 : S_.BroadcastsInDim S5x1x128 (![] : Fin 0 → Fin S5x1x128.rank)
  reducesTo_S5x1x128_S_d0_1_2 : S5x1x128.ReducesTo [0, 1, 2] S_
  bcast_S_S128 : S_.BroadcastsInDim S128 (![] : Fin 0 → Fin S128.rank)
  reducesTo_S128_S_d0 : S128.ReducesTo [0] S_
  bcast_S_S5x128x512 : S_.BroadcastsInDim S5x128x512 (![] : Fin 0 → Fin S5x128x512.rank)
  reducesTo_S5x128x512_S_d0_1_2 : S5x128x512.ReducesTo [0, 1, 2] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S5x128x512 .f32) (main_arg10 : FVec F S512 .f32) (main_v33 : IVec S_ 1) : IVec S_ 1 :=
  let main_v34 : FVec F S5x128x512 .f32 := Host.absf main_arg9
  let main_cst_12 : FVec F S_ .f32 := constant S_ .f32 0x7F800000#32
  let main_v35 : FVec F S5x128x512 .f32 := broadcastInDim S5x128x512 ![] bcast_S_S5x128x512 main_cst_12
  let main_v36 : IVec S5x128x512 1 := cmpf .olt main_v34 main_v35
  let main_c_13 : IVec S_ 1 := constantI S_ 1 1#1
  let main_v37 : IVec S_ 1 := (fun x v => Host.reduce IntOp.andi x v reducesTo_S5x128x512_S_d0_1_2 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg6 : FVec F S128 .f32) (main_arg7 : FVec F S5x128x512 .f32) (main_arg8 : FVec F S512 .f32) (main_arg9 : FVec F S5x128x512 .f32) (main_arg10 : FVec F S512 .f32) (main_v13 : IVec S_ 1) (main_v16 : IVec S5x1x128 1) : IVec S_ 1 :=
  let main_c_5 : IVec S_ 1 := constantI S_ 1 1#1
  let main_v17 : IVec S_ 1 := (fun x v => Host.reduce IntOp.andi x v reducesTo_S5x1x128_S_d0_1_2 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S5x128x512 .f32 := Host.absf main_arg7
  let main_cst_8 : FVec F S_ .f32 := constant S_ .f32 0x7F800000#32
  let main_v25 : FVec F S5x128x512 .f32 := broadcastInDim S5x128x512 ![] bcast_S_S5x128x512 main_cst_8
  let main_v26 : IVec S5x128x512 1 := cmpf .olt main_v24 main_v25
  let main_c_9 : IVec S_ 1 := constantI S_ 1 1#1
  let main_v27 : IVec S_ 1 := (fun x v => Host.reduce IntOp.andi x v reducesTo_S5x128x512_S_d0_1_2 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S100000x1 .f32) (main_arg1 : IVec S2x400000 32) (main_arg2 : IVec S100000 32) (main_arg3 : FVec F S5x1x128 .f32) (main_arg4 : FVec F S128 .f32) (main_arg5 : FVec F S5x1x128 .f32) (main_arg6 : FVec F S128 .f32) (main_arg7 : FVec F S5x128x512 .f32) (main_arg8 : FVec F S512 .f32) (main_arg9 : FVec F S5x128x512 .f32) (main_arg10 : FVec F S512 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S5x1x128 .f32 := Host.absf main_arg3
  let main_cst_0 : FVec F S_ .f32 := constant S_ .f32 0x7F800000#32
  let main_v5 : FVec F S5x1x128 .f32 := broadcastInDim S5x1x128 ![] bcast_S_S5x1x128 main_cst_0
  let main_v6 : IVec S5x1x128 1 := cmpf .olt main_v4 main_v5
  let main_c_1 : IVec S_ 1 := constantI S_ 1 1#1
  let main_v7 : IVec S_ 1 := (fun x v => Host.reduce IntOp.andi x v reducesTo_S5x1x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S5x1x128 .f32 := Host.absf main_arg5
  let main_cst_4 : FVec F S_ .f32 := constant S_ .f32 0x7F800000#32
  let main_v15 : FVec F S5x1x128 .f32 := broadcastInDim S5x1x128 ![] bcast_S_S5x1x128 main_cst_4
  let main_v16 : IVec S5x1x128 1 := cmpf .olt main_v14 main_v15
  fn_part1 (F := F) main_arg6 main_arg7 main_arg8 main_arg9 main_arg10 main_v13 main_v16
-- ==== Kernel.lean ====
abbrev S100000x1 : Shape := ⟨2, ![100000, 1]⟩
abbrev S2x400000 : Shape := ⟨2, ![2, 400000]⟩
abbrev S100000 : Shape := ⟨1, ![100000]⟩
abbrev S5x1x128 : Shape := ⟨3, ![5, 1, 128]⟩
abbrev S128 : Shape := ⟨1, ![128]⟩
abbrev S5x128x512 : Shape := ⟨3, ![5, 128, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S100000x10 : Shape := ⟨2, ![100000, 10]⟩
abbrev S5x128 : Shape := ⟨2, ![5, 128]⟩
abbrev S10x128 : Shape := ⟨2, ![10, 128]⟩
abbrev S1x128 : Shape := ⟨2, ![1, 128]⟩
abbrev S100000x128 : Shape := ⟨2, ![100000, 128]⟩
abbrev S10000x10 : Shape := ⟨2, ![10000, 10]⟩
abbrev S10000x128 : Shape := ⟨2, ![10000, 128]⟩
abbrev S400000x128 : Shape := ⟨2, ![400000, 128]⟩
abbrev S100000x1280 : Shape := ⟨2, ![100000, 1280]⟩
abbrev S640x512 : Shape := ⟨2, ![640, 512]⟩
abbrev S1280x512 : Shape := ⟨2, ![1280, 512]⟩
abbrev S1x512 : Shape := ⟨2, ![1, 512]⟩
abbrev S64x512 : Shape := ⟨2, ![64, 512]⟩
abbrev S2000x1280 : Shape := ⟨2, ![2000, 1280]⟩
abbrev S2000x1 : Shape := ⟨2, ![2000, 1]⟩
abbrev S2000x512 : Shape := ⟨2, ![2000, 512]⟩
abbrev S2000x64 : Shape := ⟨2, ![2000, 64]⟩
abbrev S64 : Shape := ⟨1, ![64]⟩
abbrev S64x1 : Shape := ⟨2, ![64, 1]⟩

abbrev nBuf : Space → Nat
  | .hbm => 446
  | .vmem => 14
  | .smem => 0
  | _ => 0

abbrev hbmTy0_0 (i : Nat) : BufTy := match i % 128 with
  | 0 => ⟨S100000x1, .f32⟩
  | 1 => ⟨S2x400000, .i32⟩
  | 2 => ⟨S100000, .i32⟩
  | 3 => ⟨S5x1x128, .f32⟩
  | 4 => ⟨S128, .f32⟩
  | 5 => ⟨S5x1x128, .f32⟩
  | 6 => ⟨S128, .f32⟩
  | 7 => ⟨S5x128x512, .f32⟩
  | 8 => ⟨S512, .f32⟩
  | 9 => ⟨S5x128x512, .f32⟩
  | 10 => ⟨S512, .f32⟩
  | 11 => ⟨S1x400000, .i32⟩
  | 12 => ⟨S400000, .i32⟩
  | 13 => ⟨S1x400000, .i32⟩
  | 14 => ⟨S400000, .i32⟩
  | 15 => ⟨S_, .f32⟩
  | 16 => ⟨S400000, .f32⟩
  | 17 => ⟨S_, .f32⟩
  | 18 => ⟨S100000, .f32⟩
  | 19 => ⟨S400000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000, .f32⟩
  | 50 => ⟨S400000, .f32⟩
  | 51 => ⟨S400000, .f32⟩
  | 52 => ⟨S_, .f32⟩
  | 53 => ⟨S400000, .f32⟩
  | 54 => ⟨S400000, .f32⟩
  | 55 => ⟨S400000x1, .f32⟩
  | 56 => ⟨S_, .i32⟩
  | 57 => ⟨S400000, .i32⟩
  | 58 => ⟨S400000, .i1⟩
  | 59 => ⟨S_, .i32⟩
  | 60 => ⟨S400000, .i32⟩
  | 61 => ⟨S400000, .i32⟩
  | 62 => ⟨S400000, .i32⟩
  | 63 => ⟨S400000x1, .i32⟩
  | 64 => ⟨S400000x1, .f32⟩
  | 65 => ⟨S400000x1, .f32⟩
  | 66 => ⟨S_, .f32⟩
  | 67 => ⟨S100000x1, .f32⟩
  | 68 => ⟨S400000x1, .i32⟩
  | 69 => ⟨S100000x1, .f32⟩
  | 70 => ⟨S_, .f32⟩
  | 71 => ⟨S100000x1, .f32⟩
  | 72 => ⟨S100000x1, .f32⟩
  | 73 => ⟨S100000x1, .f32⟩
  | 74 => ⟨S400000x1, .f32⟩
  | 75 => ⟨S_, .i32⟩
  | 76 => ⟨S400000, .i32⟩
  | 77 => ⟨S400000, .i1⟩
  | 78 => ⟨S_, .i32⟩
  | 79 => ⟨S400000, .i32⟩
  | 80 => ⟨S400000, .i32⟩
  | 81 => ⟨S400000, .i32⟩
  | 82 => ⟨S400000x1, .i32⟩
  | 83 => ⟨S400000x1, .f32⟩
  | 84 => ⟨S400000x1, .f32⟩
  | 85 => ⟨S_, .f32⟩
  | 86 => ⟨S100000x1, .f32⟩
  | 87 => ⟨S400000x1, .i32⟩
  | 88 => ⟨S100000x1, .f32⟩
  | 89 => ⟨S_, .f32⟩
  | 90 => ⟨S100000x1, .f32⟩
  | 91 => ⟨S100000x1, .f32⟩
  | 92 => ⟨S100000x1, .f32⟩
  | 93 => ⟨S_, .f32⟩
  | 94 => ⟨S100000x1, .f32⟩
  | 95 => ⟨S100000x1, .f32⟩
  | 96 => ⟨S100000x1, .f32⟩
  | 97 => ⟨S400000x1, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x1, .f32⟩
  | 107 => ⟨S400000x1, .f32⟩
  | 108 => ⟨S_, .f32⟩
  | 109 => ⟨S100000x1, .f32⟩
  | 110 => ⟨S400000x1, .i32⟩
  | 111 => ⟨S100000x1, .f32⟩
  | 112 => ⟨S_, .f32⟩
  | 113 => ⟨S100000x1, .f32⟩
  | 114 => ⟨S100000x1, .f32⟩
  | 115 => ⟨S100000x1, .f32⟩
  | 116 => ⟨S_, .f32⟩
  | 117 => ⟨S100000x1, .f32⟩
  | 118 => ⟨S100000x1, .f32⟩
  | 119 => ⟨S100000x1, .f32⟩
  | 120 => ⟨S400000x1, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S100000x1, .f32⟩

abbrev hbmTy0_1 (i : Nat) : BufTy := match i % 128 with
  | 0 => ⟨S400000x1, .i32⟩
  | 1 => ⟨S400000x1, .f32⟩
  | 2 => ⟨S400000x1, .f32⟩
  | 3 => ⟨S_, .f32⟩
  | 4 => ⟨S100000x1, .f32⟩
  | 5 => ⟨S400000x1, .i32⟩
  | 6 => ⟨S100000x1, .f32⟩
  | 7 => ⟨S_, .f32⟩
  | 8 => ⟨S100000x1, .f32⟩
  | 9 => ⟨S100000x1, .f32⟩
  | 10 => ⟨S100000x1, .f32⟩
  | 11 => ⟨S_, .f32⟩
  | 12 => ⟨S100000x1, .f32⟩
  | 13 => ⟨S100000x1, .f32⟩
  | 14 => ⟨S100000x1, .f32⟩
  | 15 => ⟨S400000x1, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x1, .f32⟩
  | 25 => ⟨S400000x1, .f32⟩
  | 26 => ⟨S_, .f32⟩
  | 27 => ⟨S100000x1, .f32⟩
  | 28 => ⟨S400000x1, .i32⟩
  | 29 => ⟨S100000x1, .f32⟩
  | 30 => ⟨S_, .f32⟩
  | 31 => ⟨S100000x1, .f32⟩
  | 32 => ⟨S100000x1, .f32⟩
  | 33 => ⟨S100000x1, .f32⟩
  | 34 => ⟨S400000x1, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x1, .f32⟩
  | 44 => ⟨S400000x1, .f32⟩
  | 45 => ⟨S_, .f32⟩
  | 46 => ⟨S100000x1, .f32⟩
  | 47 => ⟨S400000x1, .i32⟩
  | 48 => ⟨S100000x1, .f32⟩
  | 49 => ⟨S_, .f32⟩
  | 50 => ⟨S100000x1, .f32⟩
  | 51 => ⟨S100000x1, .f32⟩
  | 52 => ⟨S100000x1, .f32⟩
  | 53 => ⟨S_, .f32⟩
  | 54 => ⟨S100000x1, .f32⟩
  | 55 => ⟨S100000x1, .f32⟩
  | 56 => ⟨S100000x1, .f32⟩
  | 57 => ⟨S400000x1, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x1, .f32⟩
  | 67 => ⟨S400000x1, .f32⟩
  | 68 => ⟨S_, .f32⟩
  | 69 => ⟨S100000x1, .f32⟩
  | 70 => ⟨S400000x1, .i32⟩
  | 71 => ⟨S100000x1, .f32⟩
  | 72 => ⟨S_, .f32⟩
  | 73 => ⟨S100000x1, .f32⟩
  | 74 => ⟨S100000x1, .f32⟩
  | 75 => ⟨S100000x1, .f32⟩
  | 76 => ⟨S_, .f32⟩
  | 77 => ⟨S100000x1, .f32⟩
  | 78 => ⟨S100000x1, .f32⟩
  | 79 => ⟨S100000x1, .f32⟩
  | 80 => ⟨S400000x1, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x1, .f32⟩
  | 90 => ⟨S400000x1, .f32⟩
  | 91 => ⟨S_, .f32⟩
  | 92 => ⟨S100000x1, .f32⟩
  | 93 => ⟨S400000x1, .i32⟩
  | 94 => ⟨S100000x1, .f32⟩
  | 95 => ⟨S_, .f32⟩
  | 96 => ⟨S100000x1, .f32⟩
  | 97 => ⟨S100000x1, .f32⟩
  | 98 => ⟨S100000x1, .f32⟩
  | 99 => ⟨S_, .f32⟩
  | 100 => ⟨S100000x1, .f32⟩
  | 101 => ⟨S100000x1, .f32⟩
  | 102 => ⟨S100000x1, .f32⟩
  | 103 => ⟨S100000x10, .f32⟩
  | 104 => ⟨S100000x10, .bf16⟩
  | 105 => ⟨S5x128, .f32⟩
  | 106 => ⟨S5x128, .f32⟩
  | 107 => ⟨S10x128, .f32⟩
  | 108 => ⟨S10x128, .bf16⟩
  | 109 => ⟨S128, .f32⟩
  | 110 => ⟨S1x128, .f32⟩
  | 111 => ⟨S100000x128, .f32⟩
  | 112 => ⟨S400000x1, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x128, .f32⟩
  | 122 => ⟨S400000x128, .f32⟩
  | 123 => ⟨S400000x128, .f32⟩
  | 124 => ⟨S_, .f32⟩
  | 125 => ⟨S100000x128, .f32⟩
  | 126 => ⟨S400000x1, .i32⟩
  | 127 => ⟨S100000x128, .f32⟩
  | _ => ⟨S100000x1, .f32⟩

abbrev hbmTy0_2 (i : Nat) : BufTy := match i % 128 with
  | 0 => ⟨S_, .f32⟩
  | 1 => ⟨S100000x128, .f32⟩
  | 2 => ⟨S100000x128, .f32⟩
  | 3 => ⟨S100000x128, .f32⟩
  | 4 => ⟨S400000x1, .f32⟩
  | 5 => ⟨S_, .i32⟩
  | 6 => ⟨S400000, .i32⟩
  | 7 => ⟨S400000, .i1⟩
  | 8 => ⟨S_, .i32⟩
  | 9 => ⟨S400000, .i32⟩
  | 10 => ⟨S400000, .i32⟩
  | 11 => ⟨S400000, .i32⟩
  | 12 => ⟨S400000x1, .i32⟩
  | 13 => ⟨S400000x128, .f32⟩
  | 14 => ⟨S400000x128, .f32⟩
  | 15 => ⟨S400000x128, .f32⟩
  | 16 => ⟨S_, .f32⟩
  | 17 => ⟨S100000x128, .f32⟩
  | 18 => ⟨S400000x1, .i32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S100000x128, .f32⟩
  | 28 => ⟨S400000x1, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S400000x128, .f32⟩
  | 39 => ⟨S400000x128, .f32⟩
  | 40 => ⟨S_, .f32⟩
  | 41 => ⟨S100000x128, .f32⟩
  | 42 => ⟨S400000x1, .i32⟩
  | 43 => ⟨S100000x128, .f32⟩
  | 44 => ⟨S_, .f32⟩
  | 45 => ⟨S100000x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S400000x1, .f32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x128, .f32⟩
  | 62 => ⟨S400000x128, .f32⟩
  | 63 => ⟨S400000x128, .f32⟩
  | 64 => ⟨S_, .f32⟩
  | 65 => ⟨S100000x128, .f32⟩
  | 66 => ⟨S400000x1, .i32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S400000x1, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x128, .f32⟩
  | 86 => ⟨S400000x128, .f32⟩
  | 87 => ⟨S400000x128, .f32⟩
  | 88 => ⟨S_, .f32⟩
  | 89 => ⟨S100000x128, .f32⟩
  | 90 => ⟨S400000x1, .i32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S400000x1, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x128, .f32⟩
  | 106 => ⟨S400000x128, .f32⟩
  | 107 => ⟨S400000x128, .f32⟩
  | 108 => ⟨S_, .f32⟩
  | 109 => ⟨S100000x128, .f32⟩
  | 110 => ⟨S400000x1, .i32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S400000x1, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S100000x1, .f32⟩

abbrev hbmTy0_3 (i : Nat) : BufTy := match i % 128 with
  | 0 => ⟨S400000x1, .i32⟩
  | 1 => ⟨S400000x128, .f32⟩
  | 2 => ⟨S400000x128, .f32⟩
  | 3 => ⟨S400000x128, .f32⟩
  | 4 => ⟨S_, .f32⟩
  | 5 => ⟨S100000x128, .f32⟩
  | 6 => ⟨S400000x1, .i32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S400000x1, .f32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x128, .f32⟩
  | 26 => ⟨S400000x128, .f32⟩
  | 27 => ⟨S400000x128, .f32⟩
  | 28 => ⟨S_, .f32⟩
  | 29 => ⟨S100000x128, .f32⟩
  | 30 => ⟨S400000x1, .i32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S100000x1280, .f32⟩
  | 41 => ⟨S100000x1280, .bf16⟩
  | 42 => ⟨S640x512, .f32⟩
  | 43 => ⟨S640x512, .f32⟩
  | 44 => ⟨S1280x512, .f32⟩
  | 45 => ⟨S1280x512, .bf16⟩
  | 46 => ⟨S512, .f32⟩
  | 47 => ⟨S1x512, .f32⟩
  | 48 => ⟨S100000x1, .i32⟩
  | 49 => ⟨S64x512, .f32⟩
  | 50 => ⟨S_, .f32⟩
  | 51 => ⟨S100000, .f32⟩
  | 52 => ⟨S_, .f32⟩
  | 53 => ⟨S64, .f32⟩
  | 54 => ⟨S100000x1, .i32⟩
  | 55 => ⟨S64, .f32⟩
  | 56 => ⟨S_, .f32⟩
  | 57 => ⟨S64, .f32⟩
  | 58 => ⟨S64, .f32⟩
  | 59 => ⟨S64x1, .f32⟩
  | 60 => ⟨S64x512, .f32⟩
  | 61 => ⟨S64x512, .f32⟩
  | _ => ⟨S100000x1, .f32⟩

abbrev hbmTy (i : Nat) : BufTy := match i / 128 with
  | 0 => hbmTy0_0 i
  | 1 => hbmTy0_1 i
  | 2 => hbmTy0_2 i
  | 3 => hbmTy0_3 i
  | _ => ⟨S100000x1, .f32⟩

abbrev bufTy : (tb : Table) → Fin (tcTables nBuf tb) → BufTy
  | .hbm, ⟨i, _⟩ => hbmTy i
  | .local _ .vmem, ⟨0, _⟩ => ⟨S10000x10, .bf16⟩
  | .local _ .vmem, ⟨1, _⟩ => ⟨S10000x10, .bf16⟩
  | .local _ .vmem, ⟨2, _⟩ => ⟨S10x128, .bf16⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S2000x1280, .bf16⟩
  | .local _ .vmem, ⟨7, _⟩ => ⟨S2000x1280, .bf16⟩
  | .local _ .vmem, ⟨8, _⟩ => ⟨S1280x512, .bf16⟩
  | .local _ .vmem, ⟨9, _⟩ => ⟨S1x512, .f32⟩
  | .local _ .vmem, ⟨10, _⟩ => ⟨S2000x1, .i32⟩
  | .local _ .vmem, ⟨11, _⟩ => ⟨S2000x1, .i32⟩
  | .local _ .vmem, ⟨12, _⟩ => ⟨S64x512, .f32⟩
  | .local _ .vmem, ⟨13, _⟩ => ⟨S64x512, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_v48 : Ref sig .tc := ⟨.hbm, 76, rfl⟩
abbrev main_v49 : Ref sig .tc := ⟨.hbm, 77, rfl⟩
abbrev main_c_13 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_14 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_16 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_17 : Ref sig .tc := ⟨.hbm, 98, rfl⟩
abbrev main_v66 : Ref sig .tc := ⟨.hbm, 99, rfl⟩
abbrev main_v67 : Ref sig .tc := ⟨.hbm, 100, rfl⟩
abbrev main_c_18 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_20 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_21 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_22 : Ref sig .tc := ⟨.hbm, 121, rfl⟩
abbrev main_v84 : Ref sig .tc := ⟨.hbm, 122, rfl⟩
abbrev main_v85 : Ref sig .tc := ⟨.hbm, 123, rfl⟩
abbrev main_c_23 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_24 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_25 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_26 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_27 : Ref sig .tc := ⟨.hbm, 144, rfl⟩
abbrev main_v102 : Ref sig .tc := ⟨.hbm, 145, rfl⟩
abbrev main_v103 : Ref sig .tc := ⟨.hbm, 146, rfl⟩
abbrev main_c_28 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_29 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_30 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_c_31 : Ref sig .tc := ⟨.hbm, 163, rfl⟩
abbrev main_v117 : Ref sig .tc := ⟨.hbm, 164, rfl⟩
abbrev main_v118 : Ref sig .tc := ⟨.hbm, 165, rfl⟩
abbrev main_c_32 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_33 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_34 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_35 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_36 : Ref sig .tc := ⟨.hbm, 186, rfl⟩
abbrev main_v135 : Ref sig .tc := ⟨.hbm, 187, rfl⟩
abbrev main_v136 : Ref sig .tc := ⟨.hbm, 188, rfl⟩
abbrev main_c_37 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_38 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_39 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_40 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_c_41 : Ref sig .tc := ⟨.hbm, 209, rfl⟩
abbrev main_v153 : Ref sig .tc := ⟨.hbm, 210, rfl⟩
abbrev main_v154 : Ref sig .tc := ⟨.hbm, 211, rfl⟩
abbrev main_c_42 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_cst_43 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_44 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_cst_45 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_c_46 : Ref sig .tc := ⟨.hbm, 241, rfl⟩
abbrev main_v180 : Ref sig .tc := ⟨.hbm, 242, rfl⟩
abbrev main_v181 : Ref sig .tc := ⟨.hbm, 243, rfl⟩
abbrev main_c_47 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_cst_48 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_cst_49 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_c_50 : Ref sig .tc := ⟨.hbm, 261, rfl⟩
abbrev main_v196 : Ref sig .tc := ⟨.hbm, 262, rfl⟩
abbrev main_v197 : Ref sig .tc := ⟨.hbm, 263, rfl⟩
abbrev main_c_51 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_cst_52 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_cst_53 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_cst_54 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_c_55 : Ref sig .tc := ⟨.hbm, 285, rfl⟩
abbrev main_v215 : Ref sig .tc := ⟨.hbm, 286, rfl⟩
abbrev main_v216 : Ref sig .tc := ⟨.hbm, 287, rfl⟩
abbrev main_c_56 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_cst_57 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_cst_58 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_cst_59 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_c_60 : Ref sig .tc := ⟨.hbm, 309, rfl⟩
abbrev main_v234 : Ref sig .tc := ⟨.hbm, 310, rfl⟩
abbrev main_v235 : Ref sig .tc := ⟨.hbm, 311, rfl⟩
abbrev main_c_61 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_cst_62 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_cst_63 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_cst_64 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_c_65 : Ref sig .tc := ⟨.hbm, 333, rfl⟩
abbrev main_v253 : Ref sig .tc := ⟨.hbm, 334, rfl⟩
abbrev main_v254 : Ref sig .tc := ⟨.hbm, 335, rfl⟩
abbrev main_c_66 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_67 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_cst_68 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_c_69 : Ref sig .tc := ⟨.hbm, 353, rfl⟩
abbrev main_v269 : Ref sig .tc := ⟨.hbm, 354, rfl⟩
abbrev main_v270 : Ref sig .tc := ⟨.hbm, 355, rfl⟩
abbrev main_c_70 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_cst_71 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_cst_72 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_cst_73 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_c_74 : Ref sig .tc := ⟨.hbm, 377, rfl⟩
abbrev main_v288 : Ref sig .tc := ⟨.hbm, 378, rfl⟩
abbrev main_v289 : Ref sig .tc := ⟨.hbm, 379, rfl⟩
abbrev main_c_75 : Ref sig .tc := ⟨.hbm, 380, rfl⟩
abbrev main_v290 : Ref sig .tc := ⟨.hbm, 381, rfl⟩
abbrev main_v291 : Ref sig .tc := ⟨.hbm, 382, rfl⟩
abbrev main_v292 : Ref sig .tc := ⟨.hbm, 383, rfl⟩
abbrev main_v293 : Ref sig .tc := ⟨.hbm, 384, rfl⟩
abbrev main_v294 : Ref sig .tc := ⟨.hbm, 385, rfl⟩
abbrev main_v295 : Ref sig .tc := ⟨.hbm, 386, rfl⟩
abbrev main_v296 : Ref sig .tc := ⟨.hbm, 387, rfl⟩
abbrev main_cst_76 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_cst_77 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_cst_78 : Ref sig .tc := ⟨.hbm, 396, rfl⟩
abbrev main_v303 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_c_79 : Ref sig .tc := ⟨.hbm, 401, rfl⟩
abbrev main_v307 : Ref sig .tc := ⟨.hbm, 402, rfl⟩
abbrev main_v308 : Ref sig .tc := ⟨.hbm, 403, rfl⟩
abbrev main_c_80 : Ref sig .tc := ⟨.hbm, 404, rfl⟩
abbrev main_v309 : Ref sig .tc := ⟨.hbm, 405, rfl⟩
abbrev main_v310 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_cst_81 : Ref sig .tc := ⟨.hbm, 412, rfl⟩
abbrev main_v316 : Ref sig .tc := ⟨.hbm, 413, rfl⟩
abbrev main_v317 : Ref sig .tc := ⟨.hbm, 414, rfl⟩
abbrev main_v318 : Ref sig .tc := ⟨.hbm, 415, rfl⟩
abbrev main_cst_82 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_cst_83 : Ref sig .tc := ⟨.hbm, 420, rfl⟩
abbrev main_v322 : Ref sig .tc := ⟨.hbm, 421, rfl⟩
abbrev main_v323 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_v334 : Ref sig .tc := ⟨.hbm, 433, rfl⟩
abbrev main_cst_84 : Ref sig .tc := ⟨.hbm, 434, rfl⟩
abbrev main_v335 : Ref sig .tc := ⟨.hbm, 435, rfl⟩
abbrev main_cst_85 : Ref sig .tc := ⟨.hbm, 436, rfl⟩
abbrev main_v336 : Ref sig .tc := ⟨.hbm, 437, rfl⟩
abbrev main_v337 : Ref sig .tc := ⟨.hbm, 438, rfl⟩
abbrev main_v338 : Ref sig .tc := ⟨.hbm, 439, rfl⟩
abbrev main_cst_86 : Ref sig .tc := ⟨.hbm, 440, rfl⟩
abbrev main_v339 : Ref sig .tc := ⟨.hbm, 441, rfl⟩
abbrev main_v340 : Ref sig .tc := ⟨.hbm, 442, rfl⟩
abbrev main_v341 : Ref sig .tc := ⟨.hbm, 443, rfl⟩
abbrev main_v342 : Ref sig .tc := ⟨.hbm, 444, rfl⟩
abbrev main_v343 : Ref sig .tc := ⟨.hbm, 445, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v29 : BitVec 1 := Scalar.cmpi .eq arg0 c49_i32
  let v30 : BitVec 32 := Scalar.extui v29
  let c0_i32_14 : BitVec 32 := 0#32
  let v31 : BitVec 1 := Scalar.cmpi .ne v30 c0_i32_14
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1280x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S_S100000x1 : S_.BroadcastsInDim S100000x1 (![] : Fin 0 → Fin S100000x1.rank)
  concatenates_S100000x1_S100000x1_S100000x1_S100000x1_S100000x1_S100000x1_S100000x1_S100000x1_S100000x1_S100000x1_S100000x10_d1 : Shape.Concatenates [S100000x1, S100000x1, S100000x1, S100000x1, S100000x1, S100000x1, S100000x1, S100000x1, S100000x1, S100000x1] S100000x10 1
  bitsLt_bf16_f32 : FTy.bits .bf16 < FTy.bits .f32
  shapeCasts_S5x1x128_S5x128 : S5x1x128.ShapeCasts S5x128
  concatenates_S5x128_S5x128_S10x128_d0 : Shape.Concatenates [S5x128, S5x128] S10x128 0
  shapeCasts_S128_S1x128 : S128.ShapeCasts S1x128
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  concatenates_S100000x128_S100000x128_S100000x128_S100000x128_S100000x128_S100000x128_S100000x128_S100000x128_S100000x128_S100000x128_S100000x1280_d1 : Shape.Concatenates [S100000x128, S100000x128, S100000x128, S100000x128, S100000x128, S100000x128, S100000x128, S100000x128, S100000x128, S100000x128] S100000x1280 1
  shapeCasts_S5x128x512_S640x512 : S5x128x512.ShapeCasts S640x512
  concatenates_S640x512_S640x512_S1280x512_d0 : Shape.Concatenates [S640x512, S640x512] S1280x512 0
  shapeCasts_S512_S1x512 : S512.ShapeCasts S1x512
  shapeCasts_S100000_S100000x1 : S100000.ShapeCasts S100000x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S2000x1280_S2000x1280_0_0 : ∀ a, (![0, 0] : Fin 2 → Nat) a + S2000x1280.size a ≤ S2000x1280.size a
  h_S2000x1280 : 0 < S2000x1280.numel
  shapeCasts_S2000x1280_S2000x1280 : S2000x1280.ShapeCasts S2000x1280
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  iota_S2000x64_d1_w32 : S2000x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  natLt_1_32 : 1 < 32
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x1_S400000x1_S400000x1_1_0_n_n_0_1_11_wf : GatherDims.WF S100000x1 S400000x1 S400000x1 [1] [0] [] [0] [] 1 ![1, 1]
  scatter_S100000x1_S400000x1_S400000x1_1_0_0_1_wf : ScatterDims.WF S100000x1 S400000x1 S400000x1 [1] [0] [0] 1
  dot_S10000x10_S10x128_S10000x128_1_0_0_1_n_n_wf : DotDims.WF S10000x10 S10x128 S10000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S2000x1280_S1280x512_S2000x512_1_0_0_1_n_n_wf : DotDims.WF S2000x1280 S1280x512 S2000x512 [1] [0] [0] [1] [] []
  dot_S2000x64_S2000x512_S64x512_0_0_1_1_n_n_wf : DotDims.WF S2000x64 S2000x512 S64x512 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S100000x10.size a
  hwx0_0 : ∀ i : grid0.Coords, EltTy.bits .bf16 = 32 ∨ (Rect.block (s := S100000x10) S10000x10.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x128.size a ≤ S10x128.size a
  hwx0_1 : ∀ i : grid0.Coords, EltTy.bits .bf16 = 32 ∨ (Rect.block (s := S10x128) S10x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1280.size a ≤ S100000x1280.size a
  hwx1_0 : ∀ i : grid1.Coords, EltTy.bits .bf16 = 32 ∨ (Rect.block (s := S100000x1280) S2000x1280.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S1280x512.size a
  hwx1_1 : ∀ i : grid1.Coords, EltTy.bits .bf16 = 32 ∨ (Rect.block (s := S1280x512) S1280x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .i32 = 32 ∨ (Rect.block (s := S100000x1) S2000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x512.size a ≤ S64x512.size a
  hwx1_4 : ∀ i : grid1.Coords, EltTy.bits .f32 = 32 ∨ (Rect.block (s := S64x512) S64x512.size (cc1_transform_4 i) (hinb1_4 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x1_S400000x1_S400000x1_1_0_n_n_0_1_11 : GatherDims S100000x1 S400000x1 S400000x1 where
  offsetDims := [1]
  collapsedSliceDims := [0]
  operandBatchingDims := []
  startIndicesBatchingDims := []
  startIndexMap := [0]
  indexVectorDim := 1
  sliceSizes := ![1, 1]
  wf := gather_S100000x1_S400000x1_S400000x1_1_0_n_n_0_1_11_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S10000x10_S10x128_S10000x128_1_0_0_1_n_n : DotDims S10000x10 S10x128 S10000x128 where
  lhsContracting := [1]
  rhsContracting := [0]
  lhsNonContracting := [0]
  rhsNonContracting := [1]
  lhsBatch := []
  rhsBatch := []
  wf := dot_S10000x10_S10x128_S10000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S2000x1280_S1280x512_S2000x512_1_0_0_1_n_n : DotDims S2000x1280 S1280x512 S2000x512 where
  lhsContracting := [1]
  rhsContracting := [0]
  lhsNonContracting := [0]
  rhsNonContracting := [1]
  lhsBatch := []
  rhsBatch := []
  wf := dot_S2000x1280_S1280x512_S2000x512_1_0_0_1_n_n_wf
def dot_S2000x64_S2000x512_S64x512_0_0_1_1_n_n : DotDims S2000x64 S2000x512 S64x512 where
  lhsContracting := [0]
  rhsContracting := [0]
  lhsNonContracting := [1]
  rhsNonContracting := [1]
  lhsBatch := []
  rhsBatch := []
  wf := dot_S2000x64_S2000x512_S64x512_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_v171) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v175) S10x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v177) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v178) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v326) S2000x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v330) S1280x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v332) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v333) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v334) S64x512.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S100000x1 : Shape := ⟨2, ![100000, 1]⟩
abbrev S2x400000 : Shape := ⟨2, ![2, 400000]⟩
abbrev S100000 : Shape := ⟨1, ![100000]⟩
abbrev S5x1x128 : Shape := ⟨3, ![5, 1, 128]⟩
abbrev S128 : Shape := ⟨1, ![128]⟩
abbrev S5x128x512 : Shape := ⟨3, ![5, 128, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1x1x128 : Shape := ⟨3, ![1, 1, 128]⟩
abbrev S1x128 : Shape := ⟨2, ![1, 128]⟩
abbrev S100000x128 : Shape := ⟨2, ![100000, 128]⟩
abbrev S1x128x512 : Shape := ⟨3, ![1, 128, 512]⟩
abbrev S128x512 : Shape := ⟨2, ![128, 512]⟩
abbrev S100000x512 : Shape := ⟨2, ![100000, 512]⟩
abbrev S400000x128 : Shape := ⟨2, ![400000, 128]⟩
abbrev S1x512 : Shape := ⟨2, ![1, 512]⟩
abbrev S64x512 : Shape := ⟨2, ![64, 512]⟩
abbrev S64 : Shape := ⟨1, ![64]⟩
abbrev S64x1 : Shape := ⟨2, ![64, 1]⟩

abbrev nBuf : Space → Nat
  | .hbm => 675
  | .vmem => 0
  | .smem => 0
  | _ => 0

abbrev hbmTy0_0 (i : Nat) : BufTy := match i % 128 with
  | 0 => ⟨S100000x1, .f32⟩
  | 1 => ⟨S2x400000, .i32⟩
  | 2 => ⟨S100000, .i32⟩
  | 3 => ⟨S5x1x128, .f32⟩
  | 4 => ⟨S128, .f32⟩
  | 5 => ⟨S5x1x128, .f32⟩
  | 6 => ⟨S128, .f32⟩
  | 7 => ⟨S5x128x512, .f32⟩
  | 8 => ⟨S512, .f32⟩
  | 9 => ⟨S5x128x512, .f32⟩
  | 10 => ⟨S512, .f32⟩
  | 11 => ⟨S1x400000, .i32⟩
  | 12 => ⟨S400000, .i32⟩
  | 13 => ⟨S1x400000, .i32⟩
  | 14 => ⟨S400000, .i32⟩
  | 15 => ⟨S_, .f32⟩
  | 16 => ⟨S400000, .f32⟩
  | 17 => ⟨S_, .f32⟩
  | 18 => ⟨S100000, .f32⟩
  | 19 => ⟨S400000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S400000, .f32⟩
  | 50 => ⟨S400000, .f32⟩
  | 51 => ⟨S400000, .f32⟩
  | 52 => ⟨S_, .f32⟩
  | 53 => ⟨S400000, .f32⟩
  | 54 => ⟨S400000, .f32⟩
  | 55 => ⟨S1x400000, .i32⟩
  | 56 => ⟨S400000, .i32⟩
  | 57 => ⟨S1x400000, .i32⟩
  | 58 => ⟨S400000, .i32⟩
  | 59 => ⟨S1x1x128, .f32⟩
  | 60 => ⟨S1x128, .f32⟩
  | 61 => ⟨S100000x128, .f32⟩
  | 62 => ⟨S400000x1, .f32⟩
  | 63 => ⟨S_, .i32⟩
  | 64 => ⟨S400000, .i32⟩
  | 65 => ⟨S400000, .i1⟩
  | 66 => ⟨S_, .i32⟩
  | 67 => ⟨S400000, .i32⟩
  | 68 => ⟨S400000, .i32⟩
  | 69 => ⟨S400000, .i32⟩
  | 70 => ⟨S400000x1, .i32⟩
  | 71 => ⟨S400000x1, .f32⟩
  | 72 => ⟨S400000x1, .f32⟩
  | 73 => ⟨S_, .f32⟩
  | 74 => ⟨S100000x1, .f32⟩
  | 75 => ⟨S400000x1, .i32⟩
  | 76 => ⟨S100000x1, .f32⟩
  | 77 => ⟨S_, .f32⟩
  | 78 => ⟨S100000x1, .f32⟩
  | 79 => ⟨S100000x1, .f32⟩
  | 80 => ⟨S100000x1, .f32⟩
  | 81 => ⟨S1x1x128, .f32⟩
  | 82 => ⟨S1x128, .f32⟩
  | 83 => ⟨S100000x128, .f32⟩
  | 84 => ⟨S100000x128, .f32⟩
  | 85 => ⟨S400000x1, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x1, .f32⟩
  | 95 => ⟨S400000x1, .f32⟩
  | 96 => ⟨S_, .f32⟩
  | 97 => ⟨S100000x1, .f32⟩
  | 98 => ⟨S400000x1, .i32⟩
  | 99 => ⟨S100000x1, .f32⟩
  | 100 => ⟨S_, .f32⟩
  | 101 => ⟨S100000x1, .f32⟩
  | 102 => ⟨S100000x1, .f32⟩
  | 103 => ⟨S100000x1, .f32⟩
  | 104 => ⟨S_, .f32⟩
  | 105 => ⟨S100000x1, .f32⟩
  | 106 => ⟨S100000x1, .f32⟩
  | 107 => ⟨S100000x1, .f32⟩
  | 108 => ⟨S1x1x128, .f32⟩
  | 109 => ⟨S1x128, .f32⟩
  | 110 => ⟨S100000x128, .f32⟩
  | 111 => ⟨S100000x128, .f32⟩
  | 112 => ⟨S400000x1, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x1, .f32⟩
  | 122 => ⟨S400000x1, .f32⟩
  | 123 => ⟨S_, .f32⟩
  | 124 => ⟨S100000x1, .f32⟩
  | 125 => ⟨S400000x1, .i32⟩
  | 126 => ⟨S100000x1, .f32⟩
  | 127 => ⟨S_, .f32⟩
  | _ => ⟨S100000x1, .f32⟩

abbrev hbmTy0_1 (i : Nat) : BufTy := match i % 128 with
  | 0 => ⟨S100000x1, .f32⟩
  | 1 => ⟨S100000x1, .f32⟩
  | 2 => ⟨S100000x1, .f32⟩
  | 3 => ⟨S_, .f32⟩
  | 4 => ⟨S100000x1, .f32⟩
  | 5 => ⟨S100000x1, .f32⟩
  | 6 => ⟨S100000x1, .f32⟩
  | 7 => ⟨S1x1x128, .f32⟩
  | 8 => ⟨S1x128, .f32⟩
  | 9 => ⟨S100000x128, .f32⟩
  | 10 => ⟨S100000x128, .f32⟩
  | 11 => ⟨S400000x1, .f32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000x1, .f32⟩
  | 21 => ⟨S400000x1, .f32⟩
  | 22 => ⟨S_, .f32⟩
  | 23 => ⟨S100000x1, .f32⟩
  | 24 => ⟨S400000x1, .i32⟩
  | 25 => ⟨S100000x1, .f32⟩
  | 26 => ⟨S_, .f32⟩
  | 27 => ⟨S100000x1, .f32⟩
  | 28 => ⟨S100000x1, .f32⟩
  | 29 => ⟨S100000x1, .f32⟩
  | 30 => ⟨S_, .f32⟩
  | 31 => ⟨S100000x1, .f32⟩
  | 32 => ⟨S100000x1, .f32⟩
  | 33 => ⟨S100000x1, .f32⟩
  | 34 => ⟨S1x1x128, .f32⟩
  | 35 => ⟨S1x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x400000, .i32⟩
  | 42 => ⟨S400000, .i32⟩
  | 43 => ⟨S1x400000, .i32⟩
  | 44 => ⟨S400000, .i32⟩
  | 45 => ⟨S_, .f32⟩
  | 46 => ⟨S400000, .f32⟩
  | 47 => ⟨S_, .f32⟩
  | 48 => ⟨S100000, .f32⟩
  | 49 => ⟨S400000x1, .i32⟩
  | 50 => ⟨S100000, .f32⟩
  | 51 => ⟨S_, .f32⟩
  | 52 => ⟨S100000, .f32⟩
  | 53 => ⟨S100000, .i1⟩
  | 54 => ⟨S_, .f32⟩
  | 55 => ⟨S100000, .f32⟩
  | 56 => ⟨S100000, .f32⟩
  | 57 => ⟨S100000, .f32⟩
  | 58 => ⟨S_, .f32⟩
  | 59 => ⟨S_, .f32⟩
  | 60 => ⟨S100000, .f32⟩
  | 61 => ⟨S100000, .f32⟩
  | 62 => ⟨S_, .i32⟩
  | 63 => ⟨S400000, .i32⟩
  | 64 => ⟨S400000, .i1⟩
  | 65 => ⟨S_, .i32⟩
  | 66 => ⟨S400000, .i32⟩
  | 67 => ⟨S400000, .i32⟩
  | 68 => ⟨S400000, .i32⟩
  | 69 => ⟨S400000x1, .i32⟩
  | 70 => ⟨S400000, .f32⟩
  | 71 => ⟨S_, .i32⟩
  | 72 => ⟨S400000, .i32⟩
  | 73 => ⟨S400000, .i1⟩
  | 74 => ⟨S_, .i32⟩
  | 75 => ⟨S400000, .i32⟩
  | 76 => ⟨S400000, .i32⟩
  | 77 => ⟨S400000, .i32⟩
  | 78 => ⟨S400000x1, .i32⟩
  | 79 => ⟨S400000, .f32⟩
  | 80 => ⟨S400000, .f32⟩
  | 81 => ⟨S400000, .f32⟩
  | 82 => ⟨S_, .f32⟩
  | 83 => ⟨S400000, .f32⟩
  | 84 => ⟨S400000, .f32⟩
  | 85 => ⟨S1x400000, .i32⟩
  | 86 => ⟨S400000, .i32⟩
  | 87 => ⟨S1x400000, .i32⟩
  | 88 => ⟨S400000, .i32⟩
  | 89 => ⟨S1x1x128, .f32⟩
  | 90 => ⟨S1x128, .f32⟩
  | 91 => ⟨S100000x128, .f32⟩
  | 92 => ⟨S400000x1, .f32⟩
  | 93 => ⟨S_, .i32⟩
  | 94 => ⟨S400000, .i32⟩
  | 95 => ⟨S400000, .i1⟩
  | 96 => ⟨S_, .i32⟩
  | 97 => ⟨S400000, .i32⟩
  | 98 => ⟨S400000, .i32⟩
  | 99 => ⟨S400000, .i32⟩
  | 100 => ⟨S400000x1, .i32⟩
  | 101 => ⟨S400000x1, .f32⟩
  | 102 => ⟨S400000x1, .f32⟩
  | 103 => ⟨S_, .f32⟩
  | 104 => ⟨S100000x1, .f32⟩
  | 105 => ⟨S400000x1, .i32⟩
  | 106 => ⟨S100000x1, .f32⟩
  | 107 => ⟨S_, .f32⟩
  | 108 => ⟨S100000x1, .f32⟩
  | 109 => ⟨S100000x1, .f32⟩
  | 110 => ⟨S100000x1, .f32⟩
  | 111 => ⟨S1x1x128, .f32⟩
  | 112 => ⟨S1x128, .f32⟩
  | 113 => ⟨S100000x128, .f32⟩
  | 114 => ⟨S100000x128, .f32⟩
  | 115 => ⟨S400000x1, .f32⟩
  | 116 => ⟨S_, .i32⟩
  | 117 => ⟨S400000, .i32⟩
  | 118 => ⟨S400000, .i1⟩
  | 119 => ⟨S_, .i32⟩
  | 120 => ⟨S400000, .i32⟩
  | 121 => ⟨S400000, .i32⟩
  | 122 => ⟨S400000, .i32⟩
  | 123 => ⟨S400000x1, .i32⟩
  | 124 => ⟨S400000x1, .f32⟩
  | 125 => ⟨S400000x1, .f32⟩
  | 126 => ⟨S_, .f32⟩
  | 127 => ⟨S100000x1, .f32⟩
  | _ => ⟨S100000x1, .f32⟩

abbrev hbmTy0_2 (i : Nat) : BufTy := match i % 128 with
  | 0 => ⟨S400000x1, .i32⟩
  | 1 => ⟨S100000x1, .f32⟩
  | 2 => ⟨S_, .f32⟩
  | 3 => ⟨S100000x1, .f32⟩
  | 4 => ⟨S100000x1, .f32⟩
  | 5 => ⟨S100000x1, .f32⟩
  | 6 => ⟨S_, .f32⟩
  | 7 => ⟨S100000x1, .f32⟩
  | 8 => ⟨S100000x1, .f32⟩
  | 9 => ⟨S100000x1, .f32⟩
  | 10 => ⟨S1x1x128, .f32⟩
  | 11 => ⟨S1x128, .f32⟩
  | 12 => ⟨S100000x128, .f32⟩
  | 13 => ⟨S100000x128, .f32⟩
  | 14 => ⟨S400000x1, .f32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x1, .f32⟩
  | 24 => ⟨S400000x1, .f32⟩
  | 25 => ⟨S_, .f32⟩
  | 26 => ⟨S100000x1, .f32⟩
  | 27 => ⟨S400000x1, .i32⟩
  | 28 => ⟨S100000x1, .f32⟩
  | 29 => ⟨S_, .f32⟩
  | 30 => ⟨S100000x1, .f32⟩
  | 31 => ⟨S100000x1, .f32⟩
  | 32 => ⟨S100000x1, .f32⟩
  | 33 => ⟨S_, .f32⟩
  | 34 => ⟨S100000x1, .f32⟩
  | 35 => ⟨S100000x1, .f32⟩
  | 36 => ⟨S100000x1, .f32⟩
  | 37 => ⟨S1x1x128, .f32⟩
  | 38 => ⟨S1x128, .f32⟩
  | 39 => ⟨S100000x128, .f32⟩
  | 40 => ⟨S100000x128, .f32⟩
  | 41 => ⟨S400000x1, .f32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x1, .f32⟩
  | 51 => ⟨S400000x1, .f32⟩
  | 52 => ⟨S_, .f32⟩
  | 53 => ⟨S100000x1, .f32⟩
  | 54 => ⟨S400000x1, .i32⟩
  | 55 => ⟨S100000x1, .f32⟩
  | 56 => ⟨S_, .f32⟩
  | 57 => ⟨S100000x1, .f32⟩
  | 58 => ⟨S100000x1, .f32⟩
  | 59 => ⟨S100000x1, .f32⟩
  | 60 => ⟨S_, .f32⟩
  | 61 => ⟨S100000x1, .f32⟩
  | 62 => ⟨S100000x1, .f32⟩
  | 63 => ⟨S100000x1, .f32⟩
  | 64 => ⟨S1x1x128, .f32⟩
  | 65 => ⟨S1x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S1x400000, .i32⟩
  | 76 => ⟨S400000, .i32⟩
  | 77 => ⟨S1x400000, .i32⟩
  | 78 => ⟨S400000, .i32⟩
  | 79 => ⟨S_, .f32⟩
  | 80 => ⟨S400000, .f32⟩
  | 81 => ⟨S_, .f32⟩
  | 82 => ⟨S100000, .f32⟩
  | 83 => ⟨S400000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S400000, .f32⟩
  | 105 => ⟨S_, .i32⟩
  | 106 => ⟨S400000, .i32⟩
  | 107 => ⟨S400000, .i1⟩
  | 108 => ⟨S_, .i32⟩
  | 109 => ⟨S400000, .i32⟩
  | 110 => ⟨S400000, .i32⟩
  | 111 => ⟨S400000, .i32⟩
  | 112 => ⟨S400000x1, .i32⟩
  | 113 => ⟨S400000, .f32⟩
  | 114 => ⟨S400000, .f32⟩
  | 115 => ⟨S400000, .f32⟩
  | 116 => ⟨S_, .f32⟩
  | 117 => ⟨S400000, .f32⟩
  | 118 => ⟨S400000, .f32⟩
  | 119 => ⟨S1x400000, .i32⟩
  | 120 => ⟨S400000, .i32⟩
  | 121 => ⟨S1x400000, .i32⟩
  | 122 => ⟨S400000, .i32⟩
  | 123 => ⟨S1x128x512, .f32⟩
  | 124 => ⟨S128x512, .f32⟩
  | 125 => ⟨S100000x512, .f32⟩
  | 126 => ⟨S400000x1, .f32⟩
  | 127 => ⟨S_, .i32⟩
  | _ => ⟨S100000x1, .f32⟩

abbrev hbmTy0_3 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000x128, .f32⟩
  | 8 => ⟨S400000x128, .f32⟩
  | 9 => ⟨S400000x128, .f32⟩
  | 10 => ⟨S_, .f32⟩
  | 11 => ⟨S100000x128, .f32⟩
  | 12 => ⟨S400000x1, .i32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S1x128x512, .f32⟩
  | 19 => ⟨S128x512, .f32⟩
  | 20 => ⟨S100000x512, .f32⟩
  | 21 => ⟨S100000x512, .f32⟩
  | 22 => ⟨S400000x1, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S400000x128, .f32⟩
  | 32 => ⟨S400000x128, .f32⟩
  | 33 => ⟨S400000x128, .f32⟩
  | 34 => ⟨S_, .f32⟩
  | 35 => ⟨S100000x128, .f32⟩
  | 36 => ⟨S400000x1, .i32⟩
  | 37 => ⟨S100000x128, .f32⟩
  | 38 => ⟨S_, .f32⟩
  | 39 => ⟨S100000x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S100000x128, .f32⟩
  | 46 => ⟨S1x128x512, .f32⟩
  | 47 => ⟨S128x512, .f32⟩
  | 48 => ⟨S100000x512, .f32⟩
  | 49 => ⟨S100000x512, .f32⟩
  | 50 => ⟨S400000x1, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x128, .f32⟩
  | 60 => ⟨S400000x128, .f32⟩
  | 61 => ⟨S400000x128, .f32⟩
  | 62 => ⟨S_, .f32⟩
  | 63 => ⟨S100000x128, .f32⟩
  | 64 => ⟨S400000x1, .i32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S1x128x512, .f32⟩
  | 75 => ⟨S128x512, .f32⟩
  | 76 => ⟨S100000x512, .f32⟩
  | 77 => ⟨S100000x512, .f32⟩
  | 78 => ⟨S400000x1, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x128, .f32⟩
  | 88 => ⟨S400000x128, .f32⟩
  | 89 => ⟨S400000x128, .f32⟩
  | 90 => ⟨S_, .f32⟩
  | 91 => ⟨S100000x128, .f32⟩
  | 92 => ⟨S400000x1, .i32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S1x128x512, .f32⟩
  | 103 => ⟨S128x512, .f32⟩
  | 104 => ⟨S100000x512, .f32⟩
  | 105 => ⟨S100000x512, .f32⟩
  | 106 => ⟨S1x512, .f32⟩
  | 107 => ⟨S100000x512, .f32⟩
  | 108 => ⟨S100000x512, .f32⟩
  | 109 => ⟨S1x400000, .i32⟩
  | 110 => ⟨S400000, .i32⟩
  | 111 => ⟨S1x400000, .i32⟩
  | 112 => ⟨S400000, .i32⟩
  | 113 => ⟨S_, .f32⟩
  | 114 => ⟨S400000, .f32⟩
  | 115 => ⟨S_, .f32⟩
  | 116 => ⟨S100000, .f32⟩
  | 117 => ⟨S400000x1, .i32⟩
  | 118 => ⟨S100000, .f32⟩
  | 119 => ⟨S_, .f32⟩
  | 120 => ⟨S100000, .f32⟩
  | 121 => ⟨S100000, .i1⟩
  | 122 => ⟨S_, .f32⟩
  | 123 => ⟨S100000, .f32⟩
  | 124 => ⟨S100000, .f32⟩
  | 125 => ⟨S100000, .f32⟩
  | 126 => ⟨S_, .f32⟩
  | 127 => ⟨S_, .f32⟩
  | _ => ⟨S100000x1, .f32⟩

abbrev hbmTy0_4 (i : Nat) : BufTy := match i % 128 with
  | 0 => ⟨S100000, .f32⟩
  | 1 => ⟨S100000, .f32⟩
  | 2 => ⟨S_, .i32⟩
  | 3 => ⟨S400000, .i32⟩
  | 4 => ⟨S400000, .i1⟩
  | 5 => ⟨S_, .i32⟩
  | 6 => ⟨S400000, .i32⟩
  | 7 => ⟨S400000, .i32⟩
  | 8 => ⟨S400000, .i32⟩
  | 9 => ⟨S400000x1, .i32⟩
  | 10 => ⟨S400000, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S400000, .f32⟩
  | 20 => ⟨S400000, .f32⟩
  | 21 => ⟨S400000, .f32⟩
  | 22 => ⟨S_, .f32⟩
  | 23 => ⟨S400000, .f32⟩
  | 24 => ⟨S400000, .f32⟩
  | 25 => ⟨S1x400000, .i32⟩
  | 26 => ⟨S400000, .i32⟩
  | 27 => ⟨S1x400000, .i32⟩
  | 28 => ⟨S400000, .i32⟩
  | 29 => ⟨S1x128x512, .f32⟩
  | 30 => ⟨S128x512, .f32⟩
  | 31 => ⟨S100000x512, .f32⟩
  | 32 => ⟨S400000x1, .f32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000x128, .f32⟩
  | 42 => ⟨S400000x128, .f32⟩
  | 43 => ⟨S400000x128, .f32⟩
  | 44 => ⟨S_, .f32⟩
  | 45 => ⟨S100000x128, .f32⟩
  | 46 => ⟨S400000x1, .i32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S1x128x512, .f32⟩
  | 53 => ⟨S128x512, .f32⟩
  | 54 => ⟨S100000x512, .f32⟩
  | 55 => ⟨S100000x512, .f32⟩
  | 56 => ⟨S400000x1, .f32⟩
  | 57 => ⟨S_, .i32⟩
  | 58 => ⟨S400000, .i32⟩
  | 59 => ⟨S400000, .i1⟩
  | 60 => ⟨S_, .i32⟩
  | 61 => ⟨S400000, .i32⟩
  | 62 => ⟨S400000, .i32⟩
  | 63 => ⟨S400000, .i32⟩
  | 64 => ⟨S400000x1, .i32⟩
  | 65 => ⟨S400000x128, .f32⟩
  | 66 => ⟨S400000x128, .f32⟩
  | 67 => ⟨S400000x128, .f32⟩
  | 68 => ⟨S_, .f32⟩
  | 69 => ⟨S100000x128, .f32⟩
  | 70 => ⟨S400000x1, .i32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S1x128x512, .f32⟩
  | 81 => ⟨S128x512, .f32⟩
  | 82 => ⟨S100000x512, .f32⟩
  | 83 => ⟨S100000x512, .f32⟩
  | 84 => ⟨S400000x1, .f32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x128, .f32⟩
  | 94 => ⟨S400000x128, .f32⟩
  | 95 => ⟨S400000x128, .f32⟩
  | 96 => ⟨S_, .f32⟩
  | 97 => ⟨S100000x128, .f32⟩
  | 98 => ⟨S400000x1, .i32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S1x128x512, .f32⟩
  | 109 => ⟨S128x512, .f32⟩
  | 110 => ⟨S100000x512, .f32⟩
  | 111 => ⟨S100000x512, .f32⟩
  | 112 => ⟨S400000x1, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x128, .f32⟩
  | 122 => ⟨S400000x128, .f32⟩
  | 123 => ⟨S400000x128, .f32⟩
  | 124 => ⟨S_, .f32⟩
  | 125 => ⟨S100000x128, .f32⟩
  | 126 => ⟨S400000x1, .i32⟩
  | 127 => ⟨S100000x128, .f32⟩
  | _ => ⟨S100000x1, .f32⟩

abbrev hbmTy0_5 (i : Nat) : BufTy := match i % 128 with
  | 0 => ⟨S_, .f32⟩
  | 1 => ⟨S100000x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x128, .f32⟩
  | 8 => ⟨S1x128x512, .f32⟩
  | 9 => ⟨S128x512, .f32⟩
  | 10 => ⟨S100000x512, .f32⟩
  | 11 => ⟨S100000x512, .f32⟩
  | 12 => ⟨S1x512, .f32⟩
  | 13 => ⟨S100000x512, .f32⟩
  | 14 => ⟨S100000x512, .f32⟩
  | 15 => ⟨S100000x512, .f32⟩
  | 16 => ⟨S_, .f32⟩
  | 17 => ⟨S100000x512, .f32⟩
  | 18 => ⟨S100000x512, .f32⟩
  | 19 => ⟨S_, .f32⟩
  | 20 => ⟨S64x512, .f32⟩
  | 21 => ⟨S100000x1, .i32⟩
  | 22 => ⟨S64x512, .f32⟩
  | 23 => ⟨S_, .f32⟩
  | 24 => ⟨S100000, .f32⟩
  | 25 => ⟨S_, .f32⟩
  | 26 => ⟨S64, .f32⟩
  | 27 => ⟨S100000x1, .i32⟩
  | 28 => ⟨S64, .f32⟩
  | 29 => ⟨S_, .f32⟩
  | 30 => ⟨S64, .f32⟩
  | 31 => ⟨S64, .f32⟩
  | 32 => ⟨S64x1, .f32⟩
  | 33 => ⟨S64x512, .f32⟩
  | 34 => ⟨S64x512, .f32⟩
  | _ => ⟨S100000x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_15 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_c_22 : Ref sig .tc := ⟨.hbm, 140, rfl⟩
abbrev main_v103 : Ref sig .tc := ⟨.hbm, 141, rfl⟩
abbrev main_v104 : Ref sig .tc := ⟨.hbm, 142, rfl⟩
abbrev main_c_23 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_25 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_26 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_27 : Ref sig .tc := ⟨.hbm, 173, rfl⟩
abbrev main_v131 : Ref sig .tc := ⟨.hbm, 174, rfl⟩
abbrev main_cst_28 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_29 : Ref sig .tc := ⟨.hbm, 179, rfl⟩
abbrev main_v135 : Ref sig .tc := ⟨.hbm, 180, rfl⟩
abbrev main_v136 : Ref sig .tc := ⟨.hbm, 181, rfl⟩
abbrev main_cst_30 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_cst_31 : Ref sig .tc := ⟨.hbm, 186, rfl⟩
abbrev main_call1_v0 : Ref sig .tc := ⟨.hbm, 187, rfl⟩
abbrev main_call1_v1 : Ref sig .tc := ⟨.hbm, 188, rfl⟩
abbrev main_v140 : Ref sig .tc := ⟨.hbm, 189, rfl⟩
abbrev main_c_32 : Ref sig .tc := ⟨.hbm, 190, rfl⟩
abbrev main_v141 : Ref sig .tc := ⟨.hbm, 191, rfl⟩
abbrev main_v142 : Ref sig .tc := ⟨.hbm, 192, rfl⟩
abbrev main_c_33 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_c_34 : Ref sig .tc := ⟨.hbm, 199, rfl⟩
abbrev main_v148 : Ref sig .tc := ⟨.hbm, 200, rfl⟩
abbrev main_v149 : Ref sig .tc := ⟨.hbm, 201, rfl⟩
abbrev main_c_35 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_36 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_c_37 : Ref sig .tc := ⟨.hbm, 221, rfl⟩
abbrev main_v167 : Ref sig .tc := ⟨.hbm, 222, rfl⟩
abbrev main_v168 : Ref sig .tc := ⟨.hbm, 223, rfl⟩
abbrev main_c_38 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_cst_39 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_cst_40 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_c_41 : Ref sig .tc := ⟨.hbm, 244, rfl⟩
abbrev main_v186 : Ref sig .tc := ⟨.hbm, 245, rfl⟩
abbrev main_v187 : Ref sig .tc := ⟨.hbm, 246, rfl⟩
abbrev main_c_42 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_cst_43 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_cst_44 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_45 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_c_46 : Ref sig .tc := ⟨.hbm, 271, rfl⟩
abbrev main_v208 : Ref sig .tc := ⟨.hbm, 272, rfl⟩
abbrev main_v209 : Ref sig .tc := ⟨.hbm, 273, rfl⟩
abbrev main_c_47 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_cst_48 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_cst_49 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_cst_50 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_c_51 : Ref sig .tc := ⟨.hbm, 298, rfl⟩
abbrev main_v230 : Ref sig .tc := ⟨.hbm, 299, rfl⟩
abbrev main_v231 : Ref sig .tc := ⟨.hbm, 300, rfl⟩
abbrev main_c_52 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_cst_53 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_cst_54 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_cst_55 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_call2_cst : Ref sig .tc := ⟨.hbm, 328, rfl⟩
abbrev main_call2_v0 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_cst_56 : Ref sig .tc := ⟨.hbm, 335, rfl⟩
abbrev main_v260 : Ref sig .tc := ⟨.hbm, 336, rfl⟩
abbrev main_cst_57 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_cst_58 : Ref sig .tc := ⟨.hbm, 341, rfl⟩
abbrev main_v264 : Ref sig .tc := ⟨.hbm, 342, rfl⟩
abbrev main_v265 : Ref sig .tc := ⟨.hbm, 343, rfl⟩
abbrev main_cst_59 : Ref sig .tc := ⟨.hbm, 344, rfl⟩
abbrev main_v266 : Ref sig .tc := ⟨.hbm, 345, rfl⟩
abbrev main_v267 : Ref sig .tc := ⟨.hbm, 346, rfl⟩
abbrev main_v268 : Ref sig .tc := ⟨.hbm, 347, rfl⟩
abbrev main_cst_60 : Ref sig .tc := ⟨.hbm, 348, rfl⟩
abbrev main_call3_v0 : Ref sig .tc := ⟨.hbm, 349, rfl⟩
abbrev main_call3_v1 : Ref sig .tc := ⟨.hbm, 350, rfl⟩
abbrev main_v269 : Ref sig .tc := ⟨.hbm, 351, rfl⟩
abbrev main_c_61 : Ref sig .tc := ⟨.hbm, 352, rfl⟩
abbrev main_v270 : Ref sig .tc := ⟨.hbm, 353, rfl⟩
abbrev main_v271 : Ref sig .tc := ⟨.hbm, 354, rfl⟩
abbrev main_c_62 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_c_63 : Ref sig .tc := ⟨.hbm, 361, rfl⟩
abbrev main_v277 : Ref sig .tc := ⟨.hbm, 362, rfl⟩
abbrev main_v278 : Ref sig .tc := ⟨.hbm, 363, rfl⟩
abbrev main_c_64 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_cst_65 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_c_66 : Ref sig .tc := ⟨.hbm, 383, rfl⟩
abbrev main_v296 : Ref sig .tc := ⟨.hbm, 384, rfl⟩
abbrev main_v297 : Ref sig .tc := ⟨.hbm, 385, rfl⟩
abbrev main_c_67 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_cst_68 : Ref sig .tc := ⟨.hbm, 394, rfl⟩
abbrev main_v305 : Ref sig .tc := ⟨.hbm, 395, rfl⟩
abbrev main_v306 : Ref sig .tc := ⟨.hbm, 396, rfl⟩
abbrev main_v307 : Ref sig .tc := ⟨.hbm, 397, rfl⟩
abbrev main_cst_69 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_c_70 : Ref sig .tc := ⟨.hbm, 407, rfl⟩
abbrev main_v316 : Ref sig .tc := ⟨.hbm, 408, rfl⟩
abbrev main_v317 : Ref sig .tc := ⟨.hbm, 409, rfl⟩
abbrev main_c_71 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_cst_72 : Ref sig .tc := ⟨.hbm, 418, rfl⟩
abbrev main_v325 : Ref sig .tc := ⟨.hbm, 419, rfl⟩
abbrev main_v326 : Ref sig .tc := ⟨.hbm, 420, rfl⟩
abbrev main_v327 : Ref sig .tc := ⟨.hbm, 421, rfl⟩
abbrev main_cst_73 : Ref sig .tc := ⟨.hbm, 422, rfl⟩
abbrev main_v328 : Ref sig .tc := ⟨.hbm, 423, rfl⟩
abbrev main_v329 : Ref sig .tc := ⟨.hbm, 424, rfl⟩
abbrev main_v330 : Ref sig .tc := ⟨.hbm, 425, rfl⟩
abbrev main_cst_74 : Ref sig .tc := ⟨.hbm, 426, rfl⟩
abbrev main_v331 : Ref sig .tc := ⟨.hbm, 427, rfl⟩
abbrev main_v332 : Ref sig .tc := ⟨.hbm, 428, rfl⟩
abbrev main_v333 : Ref sig .tc := ⟨.hbm, 429, rfl⟩
abbrev main_v334 : Ref sig .tc := ⟨.hbm, 430, rfl⟩
abbrev main_v335 : Ref sig .tc := ⟨.hbm, 431, rfl⟩
abbrev main_v336 : Ref sig .tc := ⟨.hbm, 432, rfl⟩
abbrev main_v337 : Ref sig .tc := ⟨.hbm, 433, rfl⟩
abbrev main_v338 : Ref sig .tc := ⟨.hbm, 434, rfl⟩
abbrev main_c_75 : Ref sig .tc := ⟨.hbm, 435, rfl⟩
abbrev main_v339 : Ref sig .tc := ⟨.hbm, 436, rfl⟩
abbrev main_v340 : Ref sig .tc := ⟨.hbm, 437, rfl⟩
abbrev main_c_76 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_cst_77 : Ref sig .tc := ⟨.hbm, 446, rfl⟩
abbrev main_v348 : Ref sig .tc := ⟨.hbm, 447, rfl⟩
abbrev main_v349 : Ref sig .tc := ⟨.hbm, 448, rfl⟩
abbrev main_v350 : Ref sig .tc := ⟨.hbm, 449, rfl⟩
abbrev main_cst_78 : Ref sig .tc := ⟨.hbm, 450, rfl⟩
abbrev main_v351 : Ref sig .tc := ⟨.hbm, 451, rfl⟩
abbrev main_v352 : Ref sig .tc := ⟨.hbm, 452, rfl⟩
abbrev main_v353 : Ref sig .tc := ⟨.hbm, 453, rfl⟩
abbrev main_cst_79 : Ref sig .tc := ⟨.hbm, 454, rfl⟩
abbrev main_v354 : Ref sig .tc := ⟨.hbm, 455, rfl⟩
abbrev main_v355 : Ref sig .tc := ⟨.hbm, 456, rfl⟩
abbrev main_v356 : Ref sig .tc := ⟨.hbm, 457, rfl⟩
abbrev main_v357 : Ref sig .tc := ⟨.hbm, 458, rfl⟩
abbrev main_v358 : Ref sig .tc := ⟨.hbm, 459, rfl⟩
abbrev main_v359 : Ref sig .tc := ⟨.hbm, 460, rfl⟩
abbrev main_v360 : Ref sig .tc := ⟨.hbm, 461, rfl⟩
abbrev main_v361 : Ref sig .tc := ⟨.hbm, 462, rfl⟩
abbrev main_c_80 : Ref sig .tc := ⟨.hbm, 463, rfl⟩
abbrev main_v362 : Ref sig .tc := ⟨.hbm, 464, rfl⟩
abbrev main_v363 : Ref sig .tc := ⟨.hbm, 465, rfl⟩
abbrev main_c_81 : Ref sig .tc := ⟨.hbm, 466, rfl⟩
abbrev main_v364 : Ref sig .tc := ⟨.hbm, 467, rfl⟩
abbrev main_v365 : Ref sig .tc := ⟨.hbm, 468, rfl⟩
abbrev main_v366 : Ref sig .tc := ⟨.hbm, 469, rfl⟩
abbrev main_v367 : Ref sig .tc := ⟨.hbm, 470, rfl⟩
abbrev main_v368 : Ref sig .tc := ⟨.hbm, 471, rfl⟩
abbrev main_v369 : Ref sig .tc := ⟨.hbm, 472, rfl⟩
abbrev main_v370 : Ref sig .tc := ⟨.hbm, 473, rfl⟩
abbrev main_cst_82 : Ref sig .tc := ⟨.hbm, 474, rfl⟩
abbrev main_v371 : Ref sig .tc := ⟨.hbm, 475, rfl⟩
abbrev main_v372 : Ref sig .tc := ⟨.hbm, 476, rfl⟩
abbrev main_v373 : Ref sig .tc := ⟨.hbm, 477, rfl⟩
abbrev main_cst_83 : Ref sig .tc := ⟨.hbm, 478, rfl⟩
abbrev main_v374 : Ref sig .tc := ⟨.hbm, 479, rfl⟩
abbrev main_v375 : Ref sig .tc := ⟨.hbm, 480, rfl⟩
abbrev main_v376 : Ref sig .tc := ⟨.hbm, 481, rfl⟩
abbrev main_cst_84 : Ref sig .tc := ⟨.hbm, 482, rfl⟩
abbrev main_v377 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_v381 : Ref sig .tc := ⟨.hbm, 487, rfl⟩
abbrev main_v382 : Ref sig .tc := ⟨.hbm, 488, rfl⟩
abbrev main_v383 : Ref sig .tc := ⟨.hbm, 489, rfl⟩
abbrev main_v384 : Ref sig .tc := ⟨.hbm, 490, rfl⟩
abbrev main_v385 : Ref sig .tc := ⟨.hbm, 491, rfl⟩
abbrev main_v386 : Ref sig .tc := ⟨.hbm, 492, rfl⟩
abbrev main_v387 : Ref sig .tc := ⟨.hbm, 493, rfl⟩
abbrev main_v388 : Ref sig .tc := ⟨.hbm, 494, rfl⟩
abbrev main_v389 : Ref sig .tc := ⟨.hbm, 495, rfl⟩
abbrev main_v390 : Ref sig .tc := ⟨.hbm, 496, rfl⟩
abbrev main_cst_85 : Ref sig .tc := ⟨.hbm, 497, rfl⟩
abbrev main_v391 : Ref sig .tc := ⟨.hbm, 498, rfl⟩
abbrev main_cst_86 : Ref sig .tc := ⟨.hbm, 499, rfl⟩
abbrev main_v392 : Ref sig .tc := ⟨.hbm, 500, rfl⟩
abbrev main_v393 : Ref sig .tc := ⟨.hbm, 501, rfl⟩
abbrev main_v394 : Ref sig .tc := ⟨.hbm, 502, rfl⟩
abbrev main_cst_87 : Ref sig .tc := ⟨.hbm, 503, rfl⟩
abbrev main_v395 : Ref sig .tc := ⟨.hbm, 504, rfl⟩
abbrev main_v396 : Ref sig .tc := ⟨.hbm, 505, rfl⟩
abbrev main_cst_88 : Ref sig .tc := ⟨.hbm, 506, rfl⟩
abbrev main_v397 : Ref sig .tc := ⟨.hbm, 507, rfl⟩
abbrev main_v398 : Ref sig .tc := ⟨.hbm, 508, rfl⟩
abbrev main_v399 : Ref sig .tc := ⟨.hbm, 509, rfl⟩
abbrev main_cst_89 : Ref sig .tc := ⟨.hbm, 510, rfl⟩
abbrev main_call4_v0 : Ref sig .tc := ⟨.hbm, 511, rfl⟩
abbrev main_call4_v1 : Ref sig .tc := ⟨.hbm, 512, rfl⟩
abbrev main_v400 : Ref sig .tc := ⟨.hbm, 513, rfl⟩
abbrev main_c_90 : Ref sig .tc := ⟨.hbm, 514, rfl⟩
abbrev main_v401 : Ref sig .tc := ⟨.hbm, 515, rfl⟩
abbrev main_v402 : Ref sig .tc := ⟨.hbm, 516, rfl⟩
abbrev main_c_91 : Ref sig .tc := ⟨.hbm, 517, rfl⟩
abbrev main_v403 : Ref sig .tc := ⟨.hbm, 518, rfl⟩
abbrev main_v404 : Ref sig .tc := ⟨.hbm, 519, rfl⟩
abbrev main_v405 : Ref sig .tc := ⟨.hbm, 520, rfl⟩
abbrev main_v406 : Ref sig .tc := ⟨.hbm, 521, rfl⟩
abbrev main_v407 : Ref sig .tc := ⟨.hbm, 522, rfl⟩
abbrev main_c_92 : Ref sig .tc := ⟨.hbm, 523, rfl⟩
abbrev main_v408 : Ref sig .tc := ⟨.hbm, 524, rfl⟩
abbrev main_v409 : Ref sig .tc := ⟨.hbm, 525, rfl⟩
abbrev main_c_93 : Ref sig .tc := ⟨.hbm, 526, rfl⟩
abbrev main_v410 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_v415 : Ref sig .tc := ⟨.hbm, 532, rfl⟩
abbrev main_v416 : Ref sig .tc := ⟨.hbm, 533, rfl⟩
abbrev main_cst_94 : Ref sig .tc := ⟨.hbm, 534, rfl⟩
abbrev main_v417 : Ref sig .tc := ⟨.hbm, 535, rfl⟩
abbrev main_v418 : Ref sig .tc := ⟨.hbm, 536, rfl⟩
abbrev main_v419 : Ref sig .tc := ⟨.hbm, 537, rfl⟩
abbrev main_v420 : Ref sig .tc := ⟨.hbm, 538, rfl⟩
abbrev main_v421 : Ref sig .tc := ⟨.hbm, 539, rfl⟩
abbrev main_v422 : Ref sig .tc := ⟨.hbm, 540, rfl⟩
abbrev main_v423 : Ref sig .tc := ⟨.hbm, 541, rfl⟩
abbrev main_v424 : Ref sig .tc := ⟨.hbm, 542, rfl⟩
abbrev main_v425 : Ref sig .tc := ⟨.hbm, 543, rfl⟩
abbrev main_v426 : Ref sig .tc := ⟨.hbm, 544, rfl⟩
abbrev main_c_95 : Ref sig .tc := ⟨.hbm, 545, rfl⟩
abbrev main_v427 : Ref sig .tc := ⟨.hbm, 546, rfl⟩
abbrev main_v428 : Ref sig .tc := ⟨.hbm, 547, rfl⟩
abbrev main_c_96 : Ref sig .tc := ⟨.hbm, 548, rfl⟩
abbrev main_v429 : Ref sig .tc := ⟨.hbm, 549, rfl⟩
abbrev main_v430 : Ref sig .tc := ⟨.hbm, 550, rfl⟩
abbrev main_v431 : Ref sig .tc := ⟨.hbm, 551, rfl⟩
abbrev main_v432 : Ref sig .tc := ⟨.hbm, 552, rfl⟩
abbrev main_v433 : Ref sig .tc := ⟨.hbm, 553, rfl⟩
abbrev main_v434 : Ref sig .tc := ⟨.hbm, 554, rfl⟩
abbrev main_v435 : Ref sig .tc := ⟨.hbm, 555, rfl⟩
abbrev main_cst_97 : Ref sig .tc := ⟨.hbm, 556, rfl⟩
abbrev main_v436 : Ref sig .tc := ⟨.hbm, 557, rfl⟩
abbrev main_v437 : Ref sig .tc := ⟨.hbm, 558, rfl⟩
abbrev main_v438 : Ref sig .tc := ⟨.hbm, 559, rfl⟩
abbrev main_cst_98 : Ref sig .tc := ⟨.hbm, 560, rfl⟩
abbrev main_v439 : Ref sig .tc := ⟨.hbm, 561, rfl⟩
abbrev main_v440 : Ref sig .tc := ⟨.hbm, 562, rfl⟩
abbrev main_v441 : Ref sig .tc := ⟨.hbm, 563, rfl⟩
abbrev main_v442 : Ref sig .tc := ⟨.hbm, 564, rfl⟩
abbrev main_v443 : Ref sig .tc := ⟨.hbm, 565, rfl⟩
abbrev main_v444 : Ref sig .tc := ⟨.hbm, 566, rfl⟩
abbrev main_v445 : Ref sig .tc := ⟨.hbm, 567, rfl⟩
abbrev main_v446 : Ref sig .tc := ⟨.hbm, 568, rfl⟩
abbrev main_c_99 : Ref sig .tc := ⟨.hbm, 569, rfl⟩
abbrev main_v447 : Ref sig .tc := ⟨.hbm, 570, rfl⟩
abbrev main_v448 : Ref sig .tc := ⟨.hbm, 571, rfl⟩
abbrev main_c_100 : Ref sig .tc := ⟨.hbm, 572, rfl⟩
abbrev main_v449 : Ref sig .tc := ⟨.hbm, 573, rfl⟩
abbrev main_v450 : Ref sig .tc := ⟨.hbm, 574, rfl⟩
abbrev main_v451 : Ref sig .tc := ⟨.hbm, 575, rfl⟩
abbrev main_v452 : Ref sig .tc := ⟨.hbm, 576, rfl⟩
abbrev main_v453 : Ref sig .tc := ⟨.hbm, 577, rfl⟩
abbrev main_v454 : Ref sig .tc := ⟨.hbm, 578, rfl⟩
abbrev main_v455 : Ref sig .tc := ⟨.hbm, 579, rfl⟩
abbrev main_cst_101 : Ref sig .tc := ⟨.hbm, 580, rfl⟩
abbrev main_v456 : Ref sig .tc := ⟨.hbm, 581, rfl⟩
abbrev main_v457 : Ref sig .tc := ⟨.hbm, 582, rfl⟩
abbrev main_v458 : Ref sig .tc := ⟨.hbm, 583, rfl⟩
abbrev main_cst_102 : Ref sig .tc := ⟨.hbm, 584, rfl⟩
abbrev main_v459 : Ref sig .tc := ⟨.hbm, 585, rfl⟩
abbrev main_v460 : Ref sig .tc := ⟨.hbm, 586, rfl⟩
abbrev main_v461 : Ref sig .tc := ⟨.hbm, 587, rfl⟩
abbrev main_cst_103 : Ref sig .tc := ⟨.hbm, 588, rfl⟩
abbrev main_v462 : Ref sig .tc := ⟨.hbm, 589, rfl⟩
abbrev main_v463 : Ref sig .tc := ⟨.hbm, 590, rfl⟩
abbrev main_v464 : Ref sig .tc := ⟨.hbm, 591, rfl⟩
abbrev main_v465 : Ref sig .tc := ⟨.hbm, 592, rfl⟩
abbrev main_v466 : Ref sig .tc := ⟨.hbm, 593, rfl⟩
abbrev main_v467 : Ref sig .tc := ⟨.hbm, 594, rfl⟩
abbrev main_v468 : Ref sig .tc := ⟨.hbm, 595, rfl⟩
abbrev main_v469 : Ref sig .tc := ⟨.hbm, 596, rfl⟩
abbrev main_c_104 : Ref sig .tc := ⟨.hbm, 597, rfl⟩
abbrev main_v470 : Ref sig .tc := ⟨.hbm, 598, rfl⟩
abbrev main_v471 : Ref sig .tc := ⟨.hbm, 599, rfl⟩
abbrev main_c_105 : Ref sig .tc := ⟨.hbm, 600, rfl⟩
abbrev main_v472 : Ref sig .tc := ⟨.hbm, 601, rfl⟩
abbrev main_v473 : Ref sig .tc := ⟨.hbm, 602, rfl⟩
abbrev main_v474 : Ref sig .tc := ⟨.hbm, 603, rfl⟩
abbrev main_v475 : Ref sig .tc := ⟨.hbm, 604, rfl⟩
abbrev main_v476 : Ref sig .tc := ⟨.hbm, 605, rfl⟩
abbrev main_v477 : Ref sig .tc := ⟨.hbm, 606, rfl⟩
abbrev main_v478 : Ref sig .tc := ⟨.hbm, 607, rfl⟩
abbrev main_cst_106 : Ref sig .tc := ⟨.hbm, 608, rfl⟩
abbrev main_v479 : Ref sig .tc := ⟨.hbm, 609, rfl⟩
abbrev main_v480 : Ref sig .tc := ⟨.hbm, 610, rfl⟩
abbrev main_v481 : Ref sig .tc := ⟨.hbm, 611, rfl⟩
abbrev main_cst_107 : Ref sig .tc := ⟨.hbm, 612, rfl⟩
abbrev main_v482 : Ref sig .tc := ⟨.hbm, 613, rfl⟩
abbrev main_v483 : Ref sig .tc := ⟨.hbm, 614, rfl⟩
abbrev main_v484 : Ref sig .tc := ⟨.hbm, 615, rfl⟩
abbrev main_cst_108 : Ref sig .tc := ⟨.hbm, 616, rfl⟩
abbrev main_v485 : Ref sig .tc := ⟨.hbm, 617, rfl⟩
abbrev main_v486 : Ref sig .tc := ⟨.hbm, 618, rfl⟩
abbrev main_v487 : Ref sig .tc := ⟨.hbm, 619, rfl⟩
abbrev main_v488 : Ref sig .tc := ⟨.hbm, 620, rfl⟩
abbrev main_v489 : Ref sig .tc := ⟨.hbm, 621, rfl⟩
abbrev main_v490 : Ref sig .tc := ⟨.hbm, 622, rfl⟩
abbrev main_v491 : Ref sig .tc := ⟨.hbm, 623, rfl⟩
abbrev main_v492 : Ref sig .tc := ⟨.hbm, 624, rfl⟩
abbrev main_c_109 : Ref sig .tc := ⟨.hbm, 625, rfl⟩
abbrev main_v493 : Ref sig .tc := ⟨.hbm, 626, rfl⟩
abbrev main_v494 : Ref sig .tc := ⟨.hbm, 627, rfl⟩
abbrev main_c_110 : Ref sig .tc := ⟨.hbm, 628, rfl⟩
abbrev main_v495 : Ref sig .tc := ⟨.hbm, 629, rfl⟩
abbrev main_v496 : Ref sig .tc := ⟨.hbm, 630, rfl⟩
abbrev main_v497 : Ref sig .tc := ⟨.hbm, 631, rfl⟩
abbrev main_v498 : Ref sig .tc := ⟨.hbm, 632, rfl⟩
abbrev main_v499 : Ref sig .tc := ⟨.hbm, 633, rfl⟩
abbrev main_v500 : Ref sig .tc := ⟨.hbm, 634, rfl⟩
abbrev main_v501 : Ref sig .tc := ⟨.hbm, 635, rfl⟩
abbrev main_cst_111 : Ref sig .tc := ⟨.hbm, 636, rfl⟩
abbrev main_v502 : Ref sig .tc := ⟨.hbm, 637, rfl⟩
abbrev main_v503 : Ref sig .tc := ⟨.hbm, 638, rfl⟩
abbrev main_v504 : Ref sig .tc := ⟨.hbm, 639, rfl⟩
abbrev main_cst_112 : Ref sig .tc := ⟨.hbm, 640, rfl⟩
abbrev main_v505 : Ref sig .tc := ⟨.hbm, 641, rfl⟩
abbrev main_v506 : Ref sig .tc := ⟨.hbm, 642, rfl⟩
abbrev main_v507 : Ref sig .tc := ⟨.hbm, 643, rfl⟩
abbrev main_cst_113 : Ref sig .tc := ⟨.hbm, 644, rfl⟩
abbrev main_v508 : Ref sig .tc := ⟨.hbm, 645, rfl⟩
abbrev main_v509 : Ref sig .tc := ⟨.hbm, 646, rfl⟩
abbrev main_v510 : Ref sig .tc := ⟨.hbm, 647, rfl⟩
abbrev main_v511 : Ref sig .tc := ⟨.hbm, 648, rfl⟩
abbrev main_v512 : Ref sig .tc := ⟨.hbm, 649, rfl⟩
abbrev main_v513 : Ref sig .tc := ⟨.hbm, 650, rfl⟩
abbrev main_v514 : Ref sig .tc := ⟨.hbm, 651, rfl⟩
abbrev main_v515 : Ref sig .tc := ⟨.hbm, 652, rfl⟩
abbrev main_v516 : Ref sig .tc := ⟨.hbm, 653, rfl⟩
abbrev main_v517 : Ref sig .tc := ⟨.hbm, 654, rfl⟩
abbrev main_v518 : Ref sig .tc := ⟨.hbm, 655, rfl⟩
abbrev main_call5_cst : Ref sig .tc := ⟨.hbm, 656, rfl⟩
abbrev main_call5_v0 : Ref sig .tc := ⟨.hbm, 657, rfl⟩
abbrev main_v519 : Ref sig .tc := ⟨.hbm, 658, rfl⟩
abbrev main_cst_114 : Ref sig .tc := ⟨.hbm, 659, rfl⟩
abbrev main_v520 : Ref sig .tc := ⟨.hbm, 660, rfl⟩
abbrev main_v521 : Ref sig .tc := ⟨.hbm, 661, rfl⟩
abbrev main_v522 : Ref sig .tc := ⟨.hbm, 662, rfl⟩
abbrev main_cst_115 : Ref sig .tc := ⟨.hbm, 663, rfl⟩
abbrev main_v523 : Ref sig .tc := ⟨.hbm, 664, rfl⟩
abbrev main_cst_116 : Ref sig .tc := ⟨.hbm, 665, rfl⟩
abbrev main_v524 : Ref sig .tc := ⟨.hbm, 666, rfl⟩
abbrev main_v525 : Ref sig .tc := ⟨.hbm, 667, rfl⟩
abbrev main_v526 : Ref sig .tc := ⟨.hbm, 668, rfl⟩
abbrev main_cst_117 : Ref sig .tc := ⟨.hbm, 669, rfl⟩
abbrev main_v527 : Ref sig .tc := ⟨.hbm, 670, rfl⟩
abbrev main_v528 : Ref sig .tc := ⟨.hbm, 671, rfl⟩
abbrev main_v529 : Ref sig .tc := ⟨.hbm, 672, rfl⟩
abbrev main_v530 : Ref sig .tc := ⟨.hbm, 673, rfl⟩
abbrev main_v531 : Ref sig .tc := ⟨.hbm, 674, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  slices_S5x1x128_S1x1x128_0_0_0 : S5x1x128.Slices ![0, 0, 0] S1x1x128
  shapeCasts_S1x1x128_S1x128 : S1x1x128.ShapeCasts S1x128
  bcast_S_S100000x1 : S_.BroadcastsInDim S100000x1 (![] : Fin 0 → Fin S100000x1.rank)
  slices_S5x1x128_S1x1x128_1_0_0 : S5x1x128.Slices ![1, 0, 0] S1x1x128
  slices_S5x1x128_S1x1x128_2_0_0 : S5x1x128.Slices ![2, 0, 0] S1x1x128
  slices_S5x1x128_S1x1x128_3_0_0 : S5x1x128.Slices ![3, 0, 0] S1x1x128
  slices_S5x1x128_S1x1x128_4_0_0 : S5x1x128.Slices ![4, 0, 0] S1x1x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S5x128x512_S1x128x512_0_0_0 : S5x128x512.Slices ![0, 0, 0] S1x128x512
  shapeCasts_S1x128x512_S128x512 : S1x128x512.ShapeCasts S128x512
  bcast_S400000x1_S400000x128_0_1 : S400000x1.BroadcastsInDim S400000x128 (![0, 1] : Fin 2 → Fin S400000x128.rank)
  slices_S5x128x512_S1x128x512_1_0_0 : S5x128x512.Slices ![1, 0, 0] S1x128x512
  slices_S5x128x512_S1x128x512_2_0_0 : S5x128x512.Slices ![2, 0, 0] S1x128x512
  slices_S5x128x512_S1x128x512_3_0_0 : S5x128x512.Slices ![3, 0, 0] S1x128x512
  slices_S5x128x512_S1x128x512_4_0_0 : S5x128x512.Slices ![4, 0, 0] S1x128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S_S64x512 : S_.BroadcastsInDim S64x512 (![] : Fin 0 → Fin S64x512.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  dot_S100000x1_S1x128_S100000x128_1_0_0_1_n_n_wf : DotDims.WF S100000x1 S1x128 S100000x128 [1] [0] [0] [1] [] []
  gather_S100000x1_S400000x1_S400000x1_1_0_n_n_0_1_11_wf : GatherDims.WF S100000x1 S400000x1 S400000x1 [1] [0] [] [0] [] 1 ![1, 1]
  scatter_S100000x1_S400000x1_S400000x1_1_0_0_1_wf : ScatterDims.WF S100000x1 S400000x1 S400000x1 [1] [0] [0] 1
  dot_S100000x128_S128x512_S100000x512_1_0_0_1_n_n_wf : DotDims.WF S100000x128 S128x512 S100000x512 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S64x512_S100000x1_S100000x512_1_0_0_1_wf : ScatterDims.WF S64x512 S100000x1 S100000x512 [1] [0] [0] 1
  scatter_S64_S100000x1_S100000_n_0_0_1_wf : ScatterDims.WF S64 S100000x1 S100000 [] [0] [0] 1

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def dot_S100000x1_S1x128_S100000x128_1_0_0_1_n_n : DotDims S100000x1 S1x128 S100000x128 where
  lhsContracting := [1]
  rhsContracting := [0]
  lhsNonContracting := [0]
  rhsNonContracting := [1]
  lhsBatch := []
  rhsBatch := []
  wf := dot_S100000x1_S1x128_S100000x128_1_0_0_1_n_n_wf
def gather_S100000x1_S400000x1_S400000x1_1_0_n_n_0_1_11 : GatherDims S100000x1 S400000x1 S400000x1 where
  offsetDims := [1]
  collapsedSliceDims := [0]
  operandBatchingDims := []
  startIndicesBatchingDims := []
  startIndexMap := [0]
  indexVectorDim := 1
  sliceSizes := ![1, 1]
  wf := gather_S100000x1_S400000x1_S400000x1_1_0_n_n_0_1_11_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S64x512_S100000x1_S100000x512_1_0_0_1 : ScatterDims S64x512 S100000x1 S100000x512 where
  updateWindowDims := [1]
  insertedWindowDims := [0]
  scatterDimsToOperandDims := [0]
  indexVectorDim := 1
  wf := scatter_S64x512_S100000x1_S100000x512_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KB.Body0.lean ====
/- The class-A half of the first pipelined region (pipeline 0, the first dense layer): at a parameter `V`, the
   TensorCore's buffer contents when the region is entered, each window's block at a grid point, what the body leaves
   in the output window's staging buffer as a function of the three input blocks, the body's triple, the pipeline's
   proof data and its body obligation. The body loads its three input buffers whole, multiplies, adds the bias row,
   clamps below at zero and stores the result whole. Stated for every float family. -/
import proofs.«428271_j37306085933536_1_alg».proof.Proof.Gen.Kernel.Launch
import proofs.«428271_j37306085933536_1_alg».proof.Proof.Gen.Kernel.Skeleton
import proofs.«428271_j37306085933536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a row block of the activations, moving with the point): its current staging buffer holds its
    block at every point, for any proof data over `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, brought in at the first point only): at a later point its block index
    has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the whole bias row, brought in at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole extent from the origin -/

theorem origin2 : (![0, 0] : Fin 2 → Nat) = fun _ => 0 := funext fun a => by fin_cases a <;> rfl

abbrev r0_0 : Rect S10000x10 := Rect.unit (s := S10000x10) ![0, 0] S10000x10.size inb_S10000x10_S10000x10_0_0
abbrev r0_1 : Rect S10x128 := Rect.unit (s := S10x128) ![0, 0] S10x128.size inb_S10x128_S10x128_0_0
abbrev r0_2 : Rect S1x128 := Rect.unit (s := S1x128) ![0, 0] S1x128.size inb_S1x128_S1x128_0_0
abbrev r0_3 : Rect S10000x128 := Rect.unit (s := S10000x128) ![0, 0] S10000x128.size inb_S10000x128_S10000x128_0_0

/-! ## What the body leaves in the output window's buffer -/

/-- Window 3's staging buffer after the body, from the three input blocks: its one store as a piece over the whole
    buffer, the payload the clamped affine image of what the three loads read. -/
def out0_3 (x0 : Vec F S10000x10 .bf16) (x1 : Vec F S10x128 .bf16) (x2 : Vec F S1x128 .f32) : Vec F S10000x128 .f32 :=
  View.canon [⟨r0_3, k0_pay1 (View.ld x0 r0_0) (View.ld x1 r0_1) (View.ld x2 r0_2)⟩]

/-- The one store covers the buffer: its rectangle is the whole extent. -/
theorem cover0_3 (p0 : Vec F S10000x128 .f32) (y : S10000x128.Idx) :
    ∃ pc ∈ ([⟨r0_3, p0⟩] : List (View.Piece (Elt F) S10000x128 .f32)), y ∈ pc.1.set :=
  ⟨_, List.mem_singleton_self _, View.mem_set_unit_zero (S := S10000x128) origin2 inb_S10000x128_S10000x128_0_0 y⟩

/-- Read back: the whole-extent store leaves its payload, and each whole-extent load reads the buffer. -/
theorem out0_3_eq (x0 : Vec F S10000x10 .bf16) (x1 : Vec F S10x128 .bf16) (x2 : Vec F S1x128 .f32) :
    out0_3 (F := F) x0 x1 x2 = k0_pay1 x0 x1 x2 := by
  unfold out0_3
  rw [View.canon_unit_zero (S := S10000x128) origin2]
  simp only [View.ld_unit_zero (S := S10000x10) origin2, View.ld_unit_zero (S := S10x128) origin2,
    View.ld_unit_zero (S := S1x128) origin2]

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords)
    (arg1 : Memref sig .tc .vmem S10000x10 .bf16) (harg1 : arg1.IsWhole)
    (arg2 : Memref sig .tc .vmem S10x128 .bf16) (harg2 : arg2.IsWhole)
    (arg3 : Memref sig .tc .vmem S1x128 .f32) (harg3 : arg3.IsWhole)
    (arg4 : Memref sig .tc .vmem S10000x128 .f32) (harg4 : arg4.IsWhole)
    (x0 : Vec F S10000x10 .bf16) (x1 : Vec F S10x128 .bf16) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__layer1_kernel i arg1 harg1 arg2 harg2 arg3 harg3 arg4 harg4) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the class's invariant; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Body1.lean ====
/- The body half of the second pipelined call (the pooled layer): the accumulator the kernel carries across the
   50 grid points, the body's three runs (first point, middle points, last point), the proof data at the
   region-entry contents `V`, the body obligation, the invariant's entry and exit, and the output array after the
   region. Generic in the float family. -/
import proofs.«428271_j37306085933536_1_alg».proof.Proof.Gen.Kernel.Launch
import proofs.«428271_j37306085933536_1_alg».proof.Proof.Gen.Kernel.Skeleton
import proofs.«428271_j37306085933536_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pooled accumulator after the body at point `n`: the zero fill, then one pooled tile added per point. -/
def acc1 (c : Dev nD) : (n : ℕ) → n < cfg1.N → Vec F S64x512 .f32
  | 0, h => k1_pay2 (iblk1 V c 0 ⟨0, h⟩) (iblk1 V c 1 ⟨0, h⟩) (iblk1 V c 2 ⟨0, h⟩) (iblk1 V c 3 ⟨0, h⟩) (k1_pay1 (F := F))
  | n + 1, h => k1_pay2 (iblk1 V c 0 ⟨n + 1, h⟩) (iblk1 V c 1 ⟨n + 1, h⟩) (iblk1 V c 2 ⟨n + 1, h⟩) (iblk1 V c 3 ⟨n + 1, h⟩) (acc1 c n (Nat.lt_of_succ_lt h))

theorem acc1_zero (c : Dev nD) (h : 0 < cfg1.N) : acc1 V c 0 h = k1_pay2 (iblk1 V c 0 ⟨0, h⟩) (iblk1 V c 1 ⟨0, h⟩) (iblk1 V c 2 ⟨0, h⟩) (iblk1 V c 3 ⟨0, h⟩) (k1_pay1 (F := F)) := rfl

theorem acc1_succ (c : Dev nD) (n : ℕ) (h : n + 1 < cfg1.N) : acc1 V c (n + 1) h = k1_pay2 (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)) := rfl

/-! ## The body's two branch conditions, in closed form over the grid -/

/-- The first branch (the accumulator's reset) is taken where the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second branch (the output's store) is taken at the last point. -/
abbrev cond1_1 (i : grid1.Coords) : Prop := k1_cond2 i = 1#1
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last point the output window is idle and not written back; at the last point it is live. -/
theorem idleAt1_4 : ∀ t : Fin cfg1.N, t.val ≠ 49 → cfg1.idle 4 (grid1.coords t) = true := by decide +kernel
theorem noFlush1_4 : ∀ t : Fin cfg1.N, t.val ≠ 49 → (cfg1.win 4).flush t = false := by decide +kernel
theorem liveAt1_4 : ∀ t : Fin cfg1.N, t.val = 49 → cfg1.idle 4 (grid1.coords t) = false := by decide +kernel

/-! ## The body's three runs -/

theorem hz2 : (![0, 0] : Fin 2 → Nat) = fun _ => 0 := funext fun a => by fin_cases a <;> rfl

/-- A store of the whole accumulator shape, made last, is what the buffer then reads, whatever came before. -/
theorem read_writes_cons_whole {sg : RefSig} {κ : Kind} {sp : Space} (v : View sg κ sp S64x512 .f32) (f : v.ty.Contents (Elt F))
    (p : Vec F S64x512 .f32) (L : List (View.Piece (Elt F) S64x512 .f32)) :
    v.read (Elt F) (v.writes (Elt F) f ((⟨Rect.unit (s := S64x512) ![0, 0] S64x512.size inb_S64x512_S64x512_0_0, p⟩ : View.Piece (Elt F) S64x512 .f32) :: L)) = p := by
  rw [View.read_writes_eq_canon _ _ _ (fun y => ⟨_, List.mem_cons_self, View.mem_set_unit_zero hz2 inb_S64x512_S64x512_0_0 y⟩),
    View.canon_cons_unit_zero (S := S64x512) hz2]

set_option maxHeartbeats 1000000 in
/-- The first point: the accumulator is zeroed, read back, and one pooled tile added; the output's buffer is not touched. -/
theorem run1_A (c : Dev nD) (E : Set ℕ) (i : grid1.Coords) (arg1 : Memref sig .tc .vmem S2000x1280 .bf16) (harg1 : arg1.IsWhole) (arg2 : Memref sig .tc .vmem S1280x512 .bf16) (harg2 : arg2.IsWhole) (arg3 : Memref sig .tc .vmem S1x512 .f32) (harg3 : arg3.IsWhole) (arg4 : Memref sig .tc .vmem S2000x1 .i32) (harg4 : arg4.IsWhole) (arg5 : Memref sig .tc .vmem S64x512 .f32) (harg5 : arg5.IsWhole) (arg6 : Memref sig .tc .vmem S64x512 .f32) (harg6 : arg6.IsWhole)
    (hc0 : cond1_0 i) (hc1 : ¬cond1_1 i) (x0 : Vec F S2000x1280 .bf16) (x1 : Vec F S1280x512 .bf16) (x2 : Vec F S1x512 .f32) (x3 : Vec F S2000x1 .i32) (xi4 : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k1_pay2 x0 x1 x2 x3 (k1_pay1 (F := F)))) -∗ K ⟨⟩))
      ⊢ wp frame (wpE (defs₀ (F := F)) Variants.none c none) E (cc1__layer2_pool_kernel i arg1 harg1 arg2 harg2 arg3 harg3 arg4 harg4 arg5 harg5 arg6 harg6) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [read_writes_cons_whole]
  sl_unfold_words
  rw [View.readCov_unit_zero (S := S64x512) _ hz2]
  simp only [View.readAt_eq_ld, harg1.read_unread, harg2.read_unread, harg3.read_unread, harg4.read_unread, harg6.read_unread,
    View.ld_unit_zero (S := S2000x1280) hz2, View.ld_unit_zero (S := S1280x512) hz2, View.ld_unit_zero (S := S1x512) hz2,
    View.ld_unit_zero (S := S2000x1) hz2, View.ld_unit_zero (S := S64x512) hz2]

set_option maxHeartbeats 1000000 in
/-- A middle point: one pooled tile is added to what the point before left; the output's buffer is not touched. -/
theorem run1_B (c : Dev nD) (E : Set ℕ) (i : grid1.Coords) (arg1 : Memref sig .tc .vmem S2000x1280 .bf16) (harg1 : arg1.IsWhole) (arg2 : Memref sig .tc .vmem S1280x512 .bf16) (harg2 : arg2.IsWhole) (arg3 : Memref sig .tc .vmem S1x512 .f32) (harg3 : arg3.IsWhole) (arg4 : Memref sig .tc .vmem S2000x1 .i32) (harg4 : arg4.IsWhole) (arg5 : Memref sig .tc .vmem S64x512 .f32) (harg5 : arg5.IsWhole) (arg6 : Memref sig .tc .vmem S64x512 .f32) (harg6 : arg6.IsWhole)
    (hc0 : ¬cond1_0 i) (hc1 : ¬cond1_1 i) (x0 : Vec F S2000x1280 .bf16) (x1 : Vec F S1280x512 .bf16) (x2 : Vec F S1x512 .f32) (x3 : Vec F S2000x1 .i32) (xi4 : Vec F S64x512 .f32) (xs : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k1_pay2 x0 x1 x2 x3 xs)) -∗ K ⟨⟩))
      ⊢ wp frame (wpE (defs₀ (F := F)) Variants.none c none) E (cc1__layer2_pool_kernel i arg1 harg1 arg2 harg2 arg3 harg3 arg4 harg4 arg5 harg5 arg6 harg6) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [read_writes_cons_whole]
  simp only [View.readAt_eq_ld, harg1.read_unread, harg2.read_unread, harg3.read_unread, harg4.read_unread, harg6.read_unread,
    View.ld_unit_zero (S := S2000x1280) hz2, View.ld_unit_zero (S := S1280x512) hz2, View.ld_unit_zero (S := S1x512) hz2,
    View.ld_unit_zero (S := S2000x1) hz2, View.ld_unit_zero (S := S64x512) hz2]

set_option maxHeartbeats 1000000 in
/-- The last point: one pooled tile is added to what the point before left, and the sum is copied whole into the output's buffer. -/
theorem run1_C (c : Dev nD) (E : Set ℕ) (i : grid1.Coords) (arg1 : Memref sig .tc .vmem S2000x1280 .bf16) (harg1 : arg1.IsWhole) (arg2 : Memref sig .tc .vmem S1280x512 .bf16) (harg2 : arg2.IsWhole) (arg3 : Memref sig .tc .vmem S1x512 .f32) (harg3 : arg3.IsWhole) (arg4 : Memref sig .tc .vmem S2000x1 .i32) (harg4 : arg4.IsWhole) (arg5 : Memref sig .tc .vmem S64x512 .f32) (harg5 : arg5.IsWhole) (arg6 : Memref sig .tc .vmem S64x512 .f32) (harg6 : arg6.IsWhole)
    (hc0 : ¬cond1_0 i) (hc1 : cond1_1 i) (x0 : Vec F S2000x1280 .bf16) (x1 : Vec F S1280x512 .bf16) (x2 : Vec F S1x512 .f32) (x3 : Vec F S2000x1 .i32) (xs : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k1_pay2 x0 x1 x2 x3 xs) ∗ owns (c : Thread nD τ) arg6 fullShare (k1_pay2 x0 x1 x2 x3 xs)) -∗ K ⟨⟩))
      ⊢ wp frame (wpE (defs₀ (F := F)) Variants.none c none) E (cc1__layer2_pool_kernel i arg1 harg1 arg2 harg2 arg3 harg3 arg4 harg4 arg5 harg5 arg6 harg6) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg1.eq_unread hf0; obtain rfl := harg2.eq_unread hf1; obtain rfl := harg3.eq_unread hf2
  obtain rfl := harg4.eq_unread hf3; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [read_writes_cons_whole]
    sl_unfold_words
    rw [View.readCov_unit_zero (S := S64x512) _ hz2]
    simp only [View.readAt_eq_ld, harg1.read_unread, harg2.read_unread, harg3.read_unread, harg4.read_unread, harg6.read_unread,
    View.ld_unit_zero (S := S2000x1280) hz2, View.ld_unit_zero (S := S1280x512) hz2, View.ld_unit_zero (S := S1x512) hz2,
    View.ld_unit_zero (S := S2000x1) hz2, View.ld_unit_zero (S := S64x512) hz2]
  iexists _; isplitr
  swap; · iexact H5
  ipureintro
  sl_unfold_words
  rw [read_writes_cons_whole]
  simp only [View.readAt_eq_ld, harg1.read_unread, harg2.read_unread, harg3.read_unread, harg4.read_unread, harg6.read_unread,
    View.ld_unit_zero (S := S2000x1280) hz2, View.ld_unit_zero (S := S1280x512) hz2, View.ld_unit_zero (S := S1x512) hz2,
    View.ld_unit_zero (S := S2000x1) hz2, View.ld_unit_zero (S := S64x512) hz2]

/-! ## The region invariant -/

/-- The accumulator the kernel carries between points: a whole scoped buffer of its own. -/
abbrev scM1 : Memref sig .tc .vmem S64x512 .f32 := Memref.whole cc1_scratch0

/-- The core's scoped buffers that this pipeline does not stage: the other call's six staging buffers, each whole at
    some contents, and then the accumulator's buffer as `S` states it. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The accumulator's part can be taken out of the rest and put back at other contents. -/
theorem restWith_swap (c : Dev nD) (S S' : sProp 𝕄) : restWith (F := F) c S ⊢ iprop(S ∗ (S' -∗ restWith (F := F) c S')) := by
  unfold restWith
  iintro ⟨HA, HB, HC, HD, HE, HG, HS⟩
  isplitl [HS]; · iexact HS
  iintro HS'
  isplitl [HA]; · iexact HA
  isplitl [HB]; · iexact HB
  isplitl [HC]; · iexact HC
  isplitl [HD]; · iexact HD
  isplitl [HE]; · iexact HE
  isplitl [HG]; · iexact HG
  iexact HS'

/-- The class's invariant, with the accumulator as a memref owned at some contents. -/
theorem PhiA1_eq (c : Dev nD) :
    (Pipeline.ΦA spec1 c : sProp 𝕄)
      = iprop(restWith (F := F) c iprop(∃ d, owns (c : Thread nD τ) scM1 fullShare d) ∗ (∃ r, prngReg c r)) := by
  unfold Pipeline.ΦA restWith; rw [scopedRest1_eq]; simp only [scM1, owns_whole]; try rfl

/-- The invariant before position `n`: before the first point the class's; afterwards the accumulator at what the
    point before left in it, the other scoped buffers at anything, the generator register at some state. -/
def PhiS1 (c : Dev nD) : (n : ℕ) → n ≤ cfg1.N → sProp 𝕄
  | 0, _ => Pipeline.ΦA spec1 c
  | n + 1, hn => iprop(restWith (F := F) c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restWith (F := F) c (owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(restWith (F := F) c (owns (c : Thread nD τ) scM1 fullShare (acc1 V c (n - 1) (by omega))) ∗ (∃ r, prngReg c r)) := by
  cases n with
  | zero => exact absurd rfl hz
  | succ n => rfl

/-- The accumulator after the first point, and after a later one, at the point itself. -/
theorem acc1_first (c : Dev nD) (t : Fin cfg1.N) (h0 : t.val = 0) :
    acc1 V c t.val t.isLt = k1_pay2 (iblk1 V c 0 t) (iblk1 V c 1 t) (iblk1 V c 2 t) (iblk1 V c 3 t) (k1_pay1 (F := F)) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = k1_pay2 (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of this pipeline on core `c`: the arrays as the region finds them; after the body each input's
    buffer at its block and the output's at the accumulator of that point (stated at every point, consulted at the
    last only: elsewhere the window is idle and keeps what it held); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

/-! ## The inputs' buffers hold their blocks at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position decides the case. The invariant
    hands the body the accumulator (at anything before the first point, at what the point before left afterwards) and
    takes it back at this point's contents; off the last point the output's buffer goes back as it came, at the last
    it holds the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 50 := lt_of_lt_of_eq t.isLt (show cfg1.N = 50 from N_1)
  by_cases h0 : t.val = 0
  · have h1 : t.val ≠ 49 := by omega
    rw [Dat.leavesExact_idle (dat1 V c) 4 t (idleAt1_4 t h1) (noFlush1_4 t h1)]
    rw [acc1_first V c t h0]
    rw [PhiS1_castSucc V c t, PhiS1_zero V c _ _ h0, PhiA1_eq]
    iintro ⟨⟨HR, Hg⟩, Ho, ⟨%d0, H0⟩, ⟨%d1, H1⟩, ⟨%d2, H2⟩, ⟨%d3, H3⟩, ⟨%d4, H4⟩⟩
    ihave HR' := (restWith_swap c _ (owns (c : Thread nD τ) scM1 fullShare (k1_pay2 (iblk1 V c 0 t) (iblk1 V c 1 t) (iblk1 V c 2 t) (iblk1 V c 3 t) (k1_pay1 (F := F))))) $$ HR
    icases HR' with ⟨HS0, Hback⟩
    iapply (run1_A c Set.univ (grid1.coords t) _ _ _ _ _ _ _ _ _ _ _ _ ((hcond1_0 t).mpr h0) (fun h => h1 ((hcond1_1 t).mp h))
      (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hback Hg]
    · isplitl [HS0 Hback]
      · iapply Hback; iexact HS0
      iexact Hg
    isplitl [Ho]; · iexact Ho
    isplitl [H0]; · iexact H0
    isplitl [H1]; · iexact H1
    isplitl [H2]; · iexact H2
    isplitl [H3]; · iexact H3
    iexists _; iexact H4
  · by_cases h1 : t.val = 49
    · rw [show (dat1 V c).leavesExact 4 t = owns (c : Thread nD τ) (st1_4 t) fullShare ((dat1 V c).after 4 t) from by
        unfold Dat.leavesExact; rw [liveAt1_4 t h1], after1_4]
      rw [acc1_later V c t h0]
      rw [PhiS1_castSucc V c t, PhiS1_pos V c _ _ h0]
      iintro ⟨⟨HR, Hg⟩, Ho, ⟨%d0, H0⟩, ⟨%d1, H1⟩, ⟨%d2, H2⟩, ⟨%d3, H3⟩, ⟨%d4, H4⟩⟩
      ihave HR' := (restWith_swap c _ (owns (c : Thread nD τ) scM1 fullShare (k1_pay2 (iblk1 V c 0 t) (iblk1 V c 1 t) (iblk1 V c 2 t) (iblk1 V c 3 t)
        (acc1 V c (t.val - 1) (Nat.lt_of_le_of_lt (Nat.sub_le _ _) t.isLt))))) $$ HR
      icases HR' with ⟨HS0, Hback⟩
      iapply (run1_C c Set.univ (grid1.coords t) _ _ _ _ _ _ _ _ _ _ _ _ (fun h => h0 ((hcond1_0 t).mp h)) ((hcond1_1 t).mpr h1)
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hback Hg]
      · isplitl [HS0 Hback]
        · iapply Hback; iexact HS0
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t h1) (noFlush1_4 t h1)]
      rw [acc1_later V c t h0]
      rw [PhiS1_castSucc V c t, PhiS1_pos V c _ _ h0]
      iintro ⟨⟨HR, Hg⟩, Ho, ⟨%d0, H0⟩, ⟨%d1, H1⟩, ⟨%d2, H2⟩, ⟨%d3, H3⟩, ⟨%d4, H4⟩⟩
      ihave HR' := (restWith_swap c _ (owns (c : Thread nD τ) scM1 fullShare (k1_pay2 (iblk1 V c 0 t) (iblk1 V c 1 t) (iblk1 V c 2 t) (iblk1 V c 3 t)
        (acc1 V c (t.val - 1) (Nat.lt_of_le_of_lt (Nat.sub_le _ _) t.isLt))))) $$ HR
      icases HR' with ⟨HS0, Hback⟩
      iapply (run1_B c Set.univ (grid1.coords t) _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hback Hg]
      · isplitl [HS0 Hback]
        · iapply Hback; iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  isplitl [HR]
  · ihave HR' := (restWith_swap c _ iprop(∃ d, owns (c : Thread nD τ) scM1 fullShare d)) $$ HR
    icases HR' with ⟨HS0, Hback⟩
    iapply Hback; iexists _; iexact HS0
  iexact Hg

theorem hout1 (c : Dev nD) : (dat1 V c).Φ (Fin.last cfg1.N) ⊢ Pipeline.ΦA spec1 c :=
  Phi_out1 V c _ (by rw [Fin.val_last]; have : cfg1.N = 50 := N_1; omega)

/-! ## The output array after the region -/

/-- The last grid point. -/
def t1_49 : Fin grid1.N := ⟨49, by rw [N_1]; decide⟩

/-- At the last point the output window's block sits at the array's origin. -/
theorem blk_origin1_4 : (fun a => win1_4.index t1_49 a * main_v334.ty.shape.size a) = fun _ => 0 :=
  funext fun a => by fin_cases a <;> decide +kernel

/-- The one write-back of the output window, at the last point, writes the whole array: the array then holds the
    accumulator's last contents. -/
theorem arrAt1_out (c : Dev nD) : (dat1 V c).arrAt 4 cfg1.N = acc1 V c 49 (by rw [show cfg1.N = 50 from N_1]; decide) := by
  calc (dat1 V c).arrAt 4 cfg1.N
      = (dat1 V c).arrAt 4 ((t1_49 : Fin cfg1.N).val + 1) := congrArg ((dat1 V c).arrAt 4) N_1
    _ = ((cfg1.win 4).blk t1_49).view.write (Elt F) ((dat1 V c).arrAt 4 (t1_49 : Fin cfg1.N).val) ((dat1 V c).flushed 4 t1_49) Finset.univ := by
        rw [Dat.arrAt_succ, if_pos ((flush1_4 t1_49).mpr rfl)]
    _ = (dat1 V c).flushed 4 t1_49 :=
        Memref.write_access_unit_zero_univ (Elt F) main_v334 blk_origin1_4 (fun a => by rw [congrFun blk_origin1_4 a]; simp) _ _
    _ = acc1 V c 49 _ := by
        show (cfg1.win 4).cut (grid1.coords t1_49) ((dat1 V c).after 4 t1_49) = _
        rw [after1_4]; rfl

end Cert.Kernel.Hand

end
-- ==== Proof.KB.HostKeep.lean ====
/-
  What the idealized kernel program's host stretches leave alone: none of its host operations allocates a buffer
  without writing it, and the program's eleven arguments (and, across the stretch between the two kernel calls, the
  hidden activations and the three edge arrays it reads) hold after each stretch what they held before it, no
  operation of the stretch having them as its result.
-/
import proofs.«428271_j37306085933536_1_alg».proof.Proof.Gen.Kernel.Launch
import Idealize.ShloMosaic.Lib.Pipeline.Regions
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.ShloMosaic.Pipeline

variable {F : FTy → Type} [FloatOps F]

/-! ## No operation leaves a result unwritten -/

set_option maxHeartbeats 40000000 in
/-- The first stretch's eighteen operations each determine their result. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl⟩
set_option maxHeartbeats 40000000 in
/-- The inlined selection's three operations each determine their result. -/
theorem hostOps0_1_fresh : (hostOps0_1 : List (HloOp τ sig (Elt F))).Forall fun op => op.fresh = ∅ :=
  ⟨rfl, rfl, rfl⟩
set_option maxHeartbeats 40000000 in
/-- The 207 operations up to the first kernel call each determine their result. -/
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
/-- The 193 operations between the two kernel calls each determine their result. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
/-- The twelve operations after the second kernel call each determine their result. -/
theorem hostOps2_fresh : (hostOps2 : List (HloOp τ sig (Elt F))).Forall fun op => op.fresh = ∅ :=
  ⟨rfl, rfl, rfl, rfl, rfl, rfl, rfl, rfl, rfl, rfl, rfl, rfl⟩

variable (V : Valuation τ sig (Elt F))

/-! ## The arguments across the operations before the first kernel call -/

/-- Argument 0 (the node signal) is no operation's result there. -/
theorem pre_arg0 : StableHlo.after hostOps0_2 (StableHlo.after hostOps0_1 (StableHlo.after hostOps0 V)) (Proc.devRef .tc main_arg0) = V (Proc.devRef .tc main_arg0) := by chain_rfl
/-- Argument 1 (the edge list) is no operation's result there. -/
theorem pre_arg1 : StableHlo.after hostOps0_2 (StableHlo.after hostOps0_1 (StableHlo.after hostOps0 V)) (Proc.devRef .tc main_arg1) = V (Proc.devRef .tc main_arg1) := by chain_rfl
/-- Argument 2 (the nodes' graph numbers) is no operation's result there. -/
theorem pre_arg2 : StableHlo.after hostOps0_2 (StableHlo.after hostOps0_1 (StableHlo.after hostOps0 V)) (Proc.devRef .tc main_arg2) = V (Proc.devRef .tc main_arg2) := by chain_rfl
/-- Argument 3 (the first convolution's forward weights) is no operation's result there. -/
theorem pre_arg3 : StableHlo.after hostOps0_2 (StableHlo.after hostOps0_1 (StableHlo.after hostOps0 V)) (Proc.devRef .tc main_arg3) = V (Proc.devRef .tc main_arg3) := by chain_rfl
/-- Argument 4 (its forward bias) is no operation's result there. -/
theorem pre_arg4 : StableHlo.after hostOps0_2 (StableHlo.after hostOps0_1 (StableHlo.after hostOps0 V)) (Proc.devRef .tc main_arg4) = V (Proc.devRef .tc main_arg4) := by chain_rfl
/-- Argument 5 (its backward weights) is no operation's result there. -/
theorem pre_arg5 : StableHlo.after hostOps0_2 (StableHlo.after hostOps0_1 (StableHlo.after hostOps0 V)) (Proc.devRef .tc main_arg5) = V (Proc.devRef .tc main_arg5) := by chain_rfl
/-- Argument 6 (its backward bias) is no operation's result there. -/
theorem pre_arg6 : StableHlo.after hostOps0_2 (StableHlo.after hostOps0_1 (StableHlo.after hostOps0 V)) (Proc.devRef .tc main_arg6) = V (Proc.devRef .tc main_arg6) := by chain_rfl
/-- Argument 7 (the second convolution's forward weights) is no operation's result there. -/
theorem pre_arg7 : StableHlo.after hostOps0_2 (StableHlo.after hostOps0_1 (StableHlo.after hostOps0 V)) (Proc.devRef .tc main_arg7) = V (Proc.devRef .tc main_arg7) := by chain_rfl
/-- Argument 8 (its forward bias) is no operation's result there. -/
theorem pre_arg8 : StableHlo.after hostOps0_2 (StableHlo.after hostOps0_1 (StableHlo.after hostOps0 V)) (Proc.devRef .tc main_arg8) = V (Proc.devRef .tc main_arg8) := by chain_rfl
/-- Argument 9 (its backward weights) is no operation's result there. -/
theorem pre_arg9 : StableHlo.after hostOps0_2 (StableHlo.after hostOps0_1 (StableHlo.after hostOps0 V)) (Proc.devRef .tc main_arg9) = V (Proc.devRef .tc main_arg9) := by chain_rfl
/-- Argument 10 (its backward bias) is no operation's result there. -/
theorem pre_arg10 : StableHlo.after hostOps0_2 (StableHlo.after hostOps0_1 (StableHlo.after hostOps0 V)) (Proc.devRef .tc main_arg10) = V (Proc.devRef .tc main_arg10) := by chain_rfl

/-! ## The arguments and the buffers read later, across the operations between the two kernel calls -/

/-- Argument 0 (the node signal) is no operation's result there. -/
theorem mid_arg0 : StableHlo.after hostOps1 V (Proc.devRef .tc main_arg0) = V (Proc.devRef .tc main_arg0) := by chain_rfl
/-- Argument 1 (the edge list) is no operation's result there. -/
theorem mid_arg1 : StableHlo.after hostOps1 V (Proc.devRef .tc main_arg1) = V (Proc.devRef .tc main_arg1) := by chain_rfl
/-- Argument 2 (the nodes' graph numbers) is no operation's result there. -/
theorem mid_arg2 : StableHlo.after hostOps1 V (Proc.devRef .tc main_arg2) = V (Proc.devRef .tc main_arg2) := by chain_rfl
/-- Argument 3 (the first convolution's forward weights) is no operation's result there. -/
theorem mid_arg3 : StableHlo.after hostOps1 V (Proc.devRef .tc main_arg3) = V (Proc.devRef .tc main_arg3) := by chain_rfl
/-- Argument 4 (its forward bias) is no operation's result there. -/
theorem mid_arg4 : StableHlo.after hostOps1 V (Proc.devRef .tc main_arg4) = V (Proc.devRef .tc main_arg4) := by chain_rfl
/-- Argument 5 (its backward weights) is no operation's result there. -/
theorem mid_arg5 : StableHlo.after hostOps1 V (Proc.devRef .tc main_arg5) = V (Proc.devRef .tc main_arg5) := by chain_rfl
/-- Argument 6 (its backward bias) is no operation's result there. -/
theorem mid_arg6 : StableHlo.after hostOps1 V (Proc.devRef .tc main_arg6) = V (Proc.devRef .tc main_arg6) := by chain_rfl
/-- Argument 7 (the second convolution's forward weights) is no operation's result there. -/
theorem mid_arg7 : StableHlo.after hostOps1 V (Proc.devRef .tc main_arg7) = V (Proc.devRef .tc main_arg7) := by chain_rfl
/-- Argument 8 (its forward bias) is no operation's result there. -/
theorem mid_arg8 : StableHlo.after hostOps1 V (Proc.devRef .tc main_arg8) = V (Proc.devRef .tc main_arg8) := by chain_rfl
/-- Argument 9 (its backward weights) is no operation's result there. -/
theorem mid_arg9 : StableHlo.after hostOps1 V (Proc.devRef .tc main_arg9) = V (Proc.devRef .tc main_arg9) := by chain_rfl
/-- Argument 10 (its backward bias) is no operation's result there. -/
theorem mid_arg10 : StableHlo.after hostOps1 V (Proc.devRef .tc main_arg10) = V (Proc.devRef .tc main_arg10) := by chain_rfl
/-- The hidden activations (the first kernel call's result) are no operation's result there. -/
theorem mid_v178 : StableHlo.after hostOps1 V (Proc.devRef .tc main_v178) = V (Proc.devRef .tc main_v178) := by chain_rfl
/-- The edges' row nodes are no operation's result there. -/
theorem mid_v1 : StableHlo.after hostOps1 V (Proc.devRef .tc main_v1) = V (Proc.devRef .tc main_v1) := by chain_rfl
/-- The edges' column nodes are no operation's result there. -/
theorem mid_v3 : StableHlo.after hostOps1 V (Proc.devRef .tc main_v3) = V (Proc.devRef .tc main_v3) := by chain_rfl
/-- The edge weights are no operation's result there. -/
theorem mid_v31 : StableHlo.after hostOps1 V (Proc.devRef .tc main_v31) = V (Proc.devRef .tc main_v31) := by chain_rfl

/-! ## The arguments across the operations after the second kernel call -/

/-- Argument 0 (the node signal) is no operation's result there. -/
theorem post_arg0 : StableHlo.after hostOps2 V (Proc.devRef .tc main_arg0) = V (Proc.devRef .tc main_arg0) := by chain_rfl
/-- Argument 1 (the edge list) is no operation's result there. -/
theorem post_arg1 : StableHlo.after hostOps2 V (Proc.devRef .tc main_arg1) = V (Proc.devRef .tc main_arg1) := by chain_rfl
/-- Argument 2 (the nodes' graph numbers) is no operation's result there. -/
theorem post_arg2 : StableHlo.after hostOps2 V (Proc.devRef .tc main_arg2) = V (Proc.devRef .tc main_arg2) := by chain_rfl
/-- Argument 3 (the first convolution's forward weights) is no operation's result there. -/
theorem post_arg3 : StableHlo.after hostOps2 V (Proc.devRef .tc main_arg3) = V (Proc.devRef .tc main_arg3) := by chain_rfl
/-- Argument 4 (its forward bias) is no operation's result there. -/
theorem post_arg4 : StableHlo.after hostOps2 V (Proc.devRef .tc main_arg4) = V (Proc.devRef .tc main_arg4) := by chain_rfl
/-- Argument 5 (its backward weights) is no operation's result there. -/
theorem post_arg5 : StableHlo.after hostOps2 V (Proc.devRef .tc main_arg5) = V (Proc.devRef .tc main_arg5) := by chain_rfl
/-- Argument 6 (its backward bias) is no operation's result there. -/
theorem post_arg6 : StableHlo.after hostOps2 V (Proc.devRef .tc main_arg6) = V (Proc.devRef .tc main_arg6) := by chain_rfl
/-- Argument 7 (the second convolution's forward weights) is no operation's result there. -/
theorem post_arg7 : StableHlo.after hostOps2 V (Proc.devRef .tc main_arg7) = V (Proc.devRef .tc main_arg7) := by chain_rfl
/-- Argument 8 (its forward bias) is no operation's result there. -/
theorem post_arg8 : StableHlo.after hostOps2 V (Proc.devRef .tc main_arg8) = V (Proc.devRef .tc main_arg8) := by chain_rfl
/-- Argument 9 (its backward weights) is no operation's result there. -/
theorem post_arg9 : StableHlo.after hostOps2 V (Proc.devRef .tc main_arg9) = V (Proc.devRef .tc main_arg9) := by chain_rfl
/-- Argument 10 (its backward bias) is no operation's result there. -/
theorem post_arg10 : StableHlo.after hostOps2 V (Proc.devRef .tc main_arg10) = V (Proc.devRef .tc main_arg10) := by chain_rfl

end Cert.Kernel.Hand

end
-- ==== Proof.KB.Run.lean ====
/-
  The run of the two-region program as a whole: the buffers' contents at each of its seven items' boundaries as a fold
  from the launch memory — three stretches of host operations, the first kernel region (its arrays at what the pipeline's
  write-backs leave), a fourth stretch, the second region, a last stretch —, each region as a segment entered from the
  buffers at the contents before it and left at the contents after it, and the launch over the seven segments: every
  weakly fair execution terminates and every unscoped buffer ends at the last boundary's contents. No item writes an
  argument, so each argument's buffer ends as launched.
-/
import proofs.«428271_j37306085933536_1_alg».proof.Proof.KB.Body0
import proofs.«428271_j37306085933536_1_alg».proof.Proof.KB.Body1
import proofs.«428271_j37306085933536_1_alg».proof.Proof.KB.HostKeep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the three host stretches before the first region. -/
abbrev W3 : Dev nD → Valuation τ sig (Elt F) := fun c =>
  StableHlo.after hostOps0_2 (StableHlo.after hostOps0_1 (StableHlo.after hostOps0 (W0 m ρ c)))
/-- The same read at the TensorCore's references (what the first region's proof data take). -/
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch between the regions (the second region's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last stretch: the contents at the return. -/
abbrev W7 : Dev nD → Valuation τ sig (Elt F) := fun c => StableHlo.after hostOps2 (W6 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first region: entered from every unscoped buffer at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W5`, left at `W6`. Its invariant carries the accumulator
    between points; at the region's two ends it is the plain one (`hin1`, `hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact hA.trans (show Pipeline.ΦA spec1 c ⊢ (pdats m ρ 1 c).Φ 0 from hin1 (V5 m ρ) c)
  hout c := by
    rw [Pipeline.ownSems0_none]
    have hA : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (show (pdats m ρ 1 c).Φ (Fin.last _) ⊢ Pipeline.ΦA spec1 c from hout1 (V5 m ρ) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seven items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (fun c => StableHlo.after hostOps0 (W0 m ρ c))),
    .host (hseg hostOps0_2 hostOps0_2_sub hostOps0_2_fresh (fun c => StableHlo.after hostOps0_1 (StableHlo.after hostOps0 (W0 m ρ c)))),
    .region (reg0 m ρ),
    .host (hseg hostOps1 hostOps1_sub hostOps1_fresh (W4 m ρ)),
    .region (reg1 m ρ),
    .host (hseg hostOps2 hostOps2_sub hostOps2_fresh (W6 m ρ)) ]

/-- The program is the run of the segments. -/
theorem main_run (c : Dev nD) : main (F := F) c = Pipeline.Seg.run (segs m ρ) := (main_chain c).trans (by chain_rfl)

set_option backward.isDefEq.respectTransparency.types false in
/-- THE RUN: every weakly fair execution terminates, nothing faulting, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

theorem W7_main_arg0 (c : Dev nD) : W7 m ρ c (Proc.devRef .tc main_arg0) = m ((c : Thread nD τ).loc main_arg0) :=
  (post_arg0 (W6 m ρ c)).trans <| (W6_of_ne m ρ c main_arg0 (by decide)).trans <| (mid_arg0 (W4 m ρ c)).trans <|
    (W4_of_ne m ρ c main_arg0 (by decide)).trans <| (pre_arg0 (W0 m ρ c)).trans rfl
theorem W7_main_arg1 (c : Dev nD) : W7 m ρ c (Proc.devRef .tc main_arg1) = m ((c : Thread nD τ).loc main_arg1) :=
  (post_arg1 (W6 m ρ c)).trans <| (W6_of_ne m ρ c main_arg1 (by decide)).trans <| (mid_arg1 (W4 m ρ c)).trans <|
    (W4_of_ne m ρ c main_arg1 (by decide)).trans <| (pre_arg1 (W0 m ρ c)).trans rfl
theorem W7_main_arg2 (c : Dev nD) : W7 m ρ c (Proc.devRef .tc main_arg2) = m ((c : Thread nD τ).loc main_arg2) :=
  (post_arg2 (W6 m ρ c)).trans <| (W6_of_ne m ρ c main_arg2 (by decide)).trans <| (mid_arg2 (W4 m ρ c)).trans <|
    (W4_of_ne m ρ c main_arg2 (by decide)).trans <| (pre_arg2 (W0 m ρ c)).trans rfl
theorem W7_main_arg3 (c : Dev nD) : W7 m ρ c (Proc.devRef .tc main_arg3) = m ((c : Thread nD τ).loc main_arg3) :=
  (post_arg3 (W6 m ρ c)).trans <| (W6_of_ne m ρ c main_arg3 (by decide)).trans <| (mid_arg3 (W4 m ρ c)).trans <|
    (W4_of_ne m ρ c main_arg3 (by decide)).trans <| (pre_arg3 (W0 m ρ c)).trans rfl
theorem W7_main_arg4 (c : Dev nD) : W7 m ρ c (Proc.devRef .tc main_arg4) = m ((c : Thread nD τ).loc main_arg4) :=
  (post_arg4 (W6 m ρ c)).trans <| (W6_of_ne m ρ c main_arg4 (by decide)).trans <| (mid_arg4 (W4 m ρ c)).trans <|
    (W4_of_ne m ρ c main_arg4 (by decide)).trans <| (pre_arg4 (W0 m ρ c)).trans rfl
theorem W7_main_arg5 (c : Dev nD) : W7 m ρ c (Proc.devRef .tc main_arg5) = m ((c : Thread nD τ).loc main_arg5) :=
  (post_arg5 (W6 m ρ c)).trans <| (W6_of_ne m ρ c main_arg5 (by decide)).trans <| (mid_arg5 (W4 m ρ c)).trans <|
    (W4_of_ne m ρ c main_arg5 (by decide)).trans <| (pre_arg5 (W0 m ρ c)).trans rfl
theorem W7_main_arg6 (c : Dev nD) : W7 m ρ c (Proc.devRef .tc main_arg6) = m ((c : Thread nD τ).loc main_arg6) :=
  (post_arg6 (W6 m ρ c)).trans <| (W6_of_ne m ρ c main_arg6 (by decide)).trans <| (mid_arg6 (W4 m ρ c)).trans <|
    (W4_of_ne m ρ c main_arg6 (by decide)).trans <| (pre_arg6 (W0 m ρ c)).trans rfl
theorem W7_main_arg7 (c : Dev nD) : W7 m ρ c (Proc.devRef .tc main_arg7) = m ((c : Thread nD τ).loc main_arg7) :=
  (post_arg7 (W6 m ρ c)).trans <| (W6_of_ne m ρ c main_arg7 (by decide)).trans <| (mid_arg7 (W4 m ρ c)).trans <|
    (W4_of_ne m ρ c main_arg7 (by decide)).trans <| (pre_arg7 (W0 m ρ c)).trans rfl
theorem W7_main_arg8 (c : Dev nD) : W7 m ρ c (Proc.devRef .tc main_arg8) = m ((c : Thread nD τ).loc main_arg8) :=
  (post_arg8 (W6 m ρ c)).trans <| (W6_of_ne m ρ c main_arg8 (by decide)).trans <| (mid_arg8 (W4 m ρ c)).trans <|
    (W4_of_ne m ρ c main_arg8 (by decide)).trans <| (pre_arg8 (W0 m ρ c)).trans rfl
theorem W7_main_arg9 (c : Dev nD) : W7 m ρ c (Proc.devRef .tc main_arg9) = m ((c : Thread nD τ).loc main_arg9) :=
  (post_arg9 (W6 m ρ c)).trans <| (W6_of_ne m ρ c main_arg9 (by decide)).trans <| (mid_arg9 (W4 m ρ c)).trans <|
    (W4_of_ne m ρ c main_arg9 (by decide)).trans <| (pre_arg9 (W0 m ρ c)).trans rfl
theorem W7_main_arg10 (c : Dev nD) : W7 m ρ c (Proc.devRef .tc main_arg10) = m ((c : Thread nD τ).loc main_arg10) :=
  (post_arg10 (W6 m ρ c)).trans <| (W6_of_ne m ρ c main_arg10 (by decide)).trans <| (mid_arg10 (W4 m ρ c)).trans <|
    (W4_of_ne m ρ c main_arg10 (by decide)).trans <| (pre_arg10 (W0 m ρ c)).trans rfl

/-- THE FRAME at any float family: every weakly fair execution terminates, nothing faulting, each argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c)⟩) (run_all m ρ)

end Cert.Kernel.Hand

end
-- ==== Proof.KI.Body0.lean ====
/- The class-A half of the first pipelined region (pipeline 0, the first dense layer): at a parameter `V`, the
   TensorCore's buffer contents when the region is entered, each window's block at a grid point, what the body leaves
   in the output window's staging buffer as a function of the three input blocks, the body's triple, the pipeline's
   proof data and its body obligation. The body loads its three input buffers whole, multiplies, adds the bias row,
   clamps below at zero and stores the result whole. Stated for every float family. -/
import proofs.«428271_j37306085933536_1_alg».proof.Proof.Gen.KernelIdeal.Launch
import proofs.«428271_j37306085933536_1_alg».proof.Proof.Gen.KernelIdeal.Skeleton
import proofs.«428271_j37306085933536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (a row block of the activations, moving with the point): its current staging buffer holds its
    block at every point, for any proof data over `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix, brought in at the first point only): at a later point its block index
    has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the whole bias row, brought in at the first point only): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole extent from the origin -/

theorem origin2 : (![0, 0] : Fin 2 → Nat) = fun _ => 0 := funext fun a => by fin_cases a <;> rfl

abbrev r0_0 : Rect S10000x10 := Rect.unit (s := S10000x10) ![0, 0] S10000x10.size inb_S10000x10_S10000x10_0_0
abbrev r0_1 : Rect S10x128 := Rect.unit (s := S10x128) ![0, 0] S10x128.size inb_S10x128_S10x128_0_0
abbrev r0_2 : Rect S1x128 := Rect.unit (s := S1x128) ![0, 0] S1x128.size inb_S1x128_S1x128_0_0
abbrev r0_3 : Rect S10000x128 := Rect.unit (s := S10000x128) ![0, 0] S10000x128.size inb_S10000x128_S10000x128_0_0

/-! ## What the body leaves in the output window's buffer -/

/-- Window 3's staging buffer after the body, from the three input blocks: its one store as a piece over the whole
    buffer, the payload the clamped affine image of what the three loads read. -/
def out0_3 (x0 : Vec F S10000x10 .bf16) (x1 : Vec F S10x128 .bf16) (x2 : Vec F S1x128 .f32) : Vec F S10000x128 .f32 :=
  View.canon [⟨r0_3, k0_pay1 (View.ld x0 r0_0) (View.ld x1 r0_1) (View.ld x2 r0_2)⟩]

/-- The one store covers the buffer: its rectangle is the whole extent. -/
theorem cover0_3 (p0 : Vec F S10000x128 .f32) (y : S10000x128.Idx) :
    ∃ pc ∈ ([⟨r0_3, p0⟩] : List (View.Piece (Elt F) S10000x128 .f32)), y ∈ pc.1.set :=
  ⟨_, List.mem_singleton_self _, View.mem_set_unit_zero (S := S10000x128) origin2 inb_S10000x128_S10000x128_0_0 y⟩

/-- Read back: the whole-extent store leaves its payload, and each whole-extent load reads the buffer. -/
theorem out0_3_eq (x0 : Vec F S10000x10 .bf16) (x1 : Vec F S10x128 .bf16) (x2 : Vec F S1x128 .f32) :
    out0_3 (F := F) x0 x1 x2 = k0_pay1 x0 x1 x2 := by
  unfold out0_3
  rw [View.canon_unit_zero (S := S10000x128) origin2]
  simp only [View.ld_unit_zero (S := S10000x10) origin2, View.ld_unit_zero (S := S10x128) origin2,
    View.ld_unit_zero (S := S1x128) origin2]

/-! ## The body's triple -/

set_option maxHeartbeats 1000000 in
/-- The kernel body on whole staging memrefs, the inputs' at read contents `x0 x1 x2` and the output's at anything,
    runs to the continuation holding the inputs' as they were and the output's at `out0_3` of the inputs'. -/
theorem sound_kernel0 (c : Dev nD) (E : Set ℕ) (i : grid0.Coords)
    (arg1 : Memref sig .tc .vmem S10000x10 .bf16) (harg1 : arg1.IsWhole)
    (arg2 : Memref sig .tc .vmem S10x128 .bf16) (harg2 : arg2.IsWhole)
    (arg3 : Memref sig .tc .vmem S1x128 .f32) (harg3 : arg3.IsWhole)
    (arg4 : Memref sig .tc .vmem S10000x128 .f32) (harg4 : arg4.IsWhole)
    (x0 : Vec F S10000x10 .bf16) (x1 : Vec F S10x128 .bf16) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__layer1_kernel i arg1 harg1 arg2 harg2 arg3 harg3 arg4 harg4) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer at its block and the output's at `out0_3` of the input blocks; the class's invariant; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- The body half of the second pipelined call (the pooled layer): the accumulator the kernel carries across the
   50 grid points, the body's three runs (first point, middle points, last point), the proof data at the
   region-entry contents `V`, the body obligation, the invariant's entry and exit, and the output array after the
   region. Generic in the float family. -/
import proofs.«428271_j37306085933536_1_alg».proof.Proof.Gen.KernelIdeal.Launch
import proofs.«428271_j37306085933536_1_alg».proof.Proof.Gen.KernelIdeal.Skeleton
import proofs.«428271_j37306085933536_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks and the accumulator -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pooled accumulator after the body at point `n`: the zero fill, then one pooled tile added per point. -/
def acc1 (c : Dev nD) : (n : ℕ) → n < cfg1.N → Vec F S64x512 .f32
  | 0, h => k1_pay2 (iblk1 V c 0 ⟨0, h⟩) (iblk1 V c 1 ⟨0, h⟩) (iblk1 V c 2 ⟨0, h⟩) (iblk1 V c 3 ⟨0, h⟩) (k1_pay1 (F := F))
  | n + 1, h => k1_pay2 (iblk1 V c 0 ⟨n + 1, h⟩) (iblk1 V c 1 ⟨n + 1, h⟩) (iblk1 V c 2 ⟨n + 1, h⟩) (iblk1 V c 3 ⟨n + 1, h⟩) (acc1 c n (Nat.lt_of_succ_lt h))

theorem acc1_zero (c : Dev nD) (h : 0 < cfg1.N) : acc1 V c 0 h = k1_pay2 (iblk1 V c 0 ⟨0, h⟩) (iblk1 V c 1 ⟨0, h⟩) (iblk1 V c 2 ⟨0, h⟩) (iblk1 V c 3 ⟨0, h⟩) (k1_pay1 (F := F)) := rfl

theorem acc1_succ (c : Dev nD) (n : ℕ) (h : n + 1 < cfg1.N) : acc1 V c (n + 1) h = k1_pay2 (iblk1 V c 0 ⟨n + 1, h⟩) (iblk1 V c 1 ⟨n + 1, h⟩) (iblk1 V c 2 ⟨n + 1, h⟩) (iblk1 V c 3 ⟨n + 1, h⟩) (acc1 V c n (Nat.lt_of_succ_lt h)) := rfl

/-! ## The body's two branch conditions, in closed form over the grid -/

/-- The first branch (the accumulator's reset) is taken where the grid coordinate is zero. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The second branch (the output's store) is taken at the last point. -/
abbrev cond1_1 (i : grid1.Coords) : Prop := k1_cond2 i = 1#1
theorem hcond1_1 : ∀ t : Fin cfg1.N, cond1_1 (grid1.coords t) ↔ t.val = 49 :=
  (by decide +kernel : ∀ t : Fin grid1.N, cond1_1 (grid1.coords t) ↔ t.val = 49)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Off the last point the output window is idle and not written back; at the last point it is live. -/
theorem idleAt1_4 : ∀ t : Fin cfg1.N, t.val ≠ 49 → cfg1.idle 4 (grid1.coords t) = true := by decide +kernel
theorem noFlush1_4 : ∀ t : Fin cfg1.N, t.val ≠ 49 → (cfg1.win 4).flush t = false := by decide +kernel
theorem liveAt1_4 : ∀ t : Fin cfg1.N, t.val = 49 → cfg1.idle 4 (grid1.coords t) = false := by decide +kernel

/-! ## The body's three runs -/

theorem hz2 : (![0, 0] : Fin 2 → Nat) = fun _ => 0 := funext fun a => by fin_cases a <;> rfl

/-- A store of the whole accumulator shape, made last, is what the buffer then reads, whatever came before. -/
theorem read_writes_cons_whole {sg : RefSig} {κ : Kind} {sp : Space} (v : View sg κ sp S64x512 .f32) (f : v.ty.Contents (Elt F))
    (p : Vec F S64x512 .f32) (L : List (View.Piece (Elt F) S64x512 .f32)) :
    v.read (Elt F) (v.writes (Elt F) f ((⟨Rect.unit (s := S64x512) ![0, 0] S64x512.size inb_S64x512_S64x512_0_0, p⟩ : View.Piece (Elt F) S64x512 .f32) :: L)) = p := by
  rw [View.read_writes_eq_canon _ _ _ (fun y => ⟨_, List.mem_cons_self, View.mem_set_unit_zero hz2 inb_S64x512_S64x512_0_0 y⟩),
    View.canon_cons_unit_zero (S := S64x512) hz2]

set_option maxHeartbeats 1000000 in
/-- The first point: the accumulator is zeroed, read back, and one pooled tile added; the output's buffer is not touched. -/
theorem run1_A (c : Dev nD) (E : Set ℕ) (i : grid1.Coords) (arg1 : Memref sig .tc .vmem S2000x1280 .bf16) (harg1 : arg1.IsWhole) (arg2 : Memref sig .tc .vmem S1280x512 .bf16) (harg2 : arg2.IsWhole) (arg3 : Memref sig .tc .vmem S1x512 .f32) (harg3 : arg3.IsWhole) (arg4 : Memref sig .tc .vmem S2000x1 .i32) (harg4 : arg4.IsWhole) (arg5 : Memref sig .tc .vmem S64x512 .f32) (harg5 : arg5.IsWhole) (arg6 : Memref sig .tc .vmem S64x512 .f32) (harg6 : arg6.IsWhole)
    (hc0 : cond1_0 i) (hc1 : ¬cond1_1 i) (x0 : Vec F S2000x1280 .bf16) (x1 : Vec F S1280x512 .bf16) (x2 : Vec F S1x512 .f32) (x3 : Vec F S2000x1 .i32) (xi4 : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k1_pay2 x0 x1 x2 x3 (k1_pay1 (F := F)))) -∗ K ⟨⟩))
      ⊢ wp frame (wpE (defs₀ (F := F)) Variants.none c none) E (cc1__layer2_pool_kernel i arg1 harg1 arg2 harg2 arg3 harg3 arg4 harg4 arg5 harg5 arg6 harg6) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [read_writes_cons_whole]
  sl_unfold_words
  rw [View.readCov_unit_zero (S := S64x512) _ hz2]
  simp only [View.readAt_eq_ld, harg1.read_unread, harg2.read_unread, harg3.read_unread, harg4.read_unread, harg6.read_unread,
    View.ld_unit_zero (S := S2000x1280) hz2, View.ld_unit_zero (S := S1280x512) hz2, View.ld_unit_zero (S := S1x512) hz2,
    View.ld_unit_zero (S := S2000x1) hz2, View.ld_unit_zero (S := S64x512) hz2]

set_option maxHeartbeats 1000000 in
/-- A middle point: one pooled tile is added to what the point before left; the output's buffer is not touched. -/
theorem run1_B (c : Dev nD) (E : Set ℕ) (i : grid1.Coords) (arg1 : Memref sig .tc .vmem S2000x1280 .bf16) (harg1 : arg1.IsWhole) (arg2 : Memref sig .tc .vmem S1280x512 .bf16) (harg2 : arg2.IsWhole) (arg3 : Memref sig .tc .vmem S1x512 .f32) (harg3 : arg3.IsWhole) (arg4 : Memref sig .tc .vmem S2000x1 .i32) (harg4 : arg4.IsWhole) (arg5 : Memref sig .tc .vmem S64x512 .f32) (harg5 : arg5.IsWhole) (arg6 : Memref sig .tc .vmem S64x512 .f32) (harg6 : arg6.IsWhole)
    (hc0 : ¬cond1_0 i) (hc1 : ¬cond1_1 i) (x0 : Vec F S2000x1280 .bf16) (x1 : Vec F S1280x512 .bf16) (x2 : Vec F S1x512 .f32) (x3 : Vec F S2000x1 .i32) (xi4 : Vec F S64x512 .f32) (xs : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k1_pay2 x0 x1 x2 x3 xs)) -∗ K ⟨⟩))
      ⊢ wp frame (wpE (defs₀ (F := F)) Variants.none c none) E (cc1__layer2_pool_kernel i arg1 harg1 arg2 harg2 arg3 harg3 arg4 harg4 arg5 harg5 arg6 harg6) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  rw [read_writes_cons_whole]
  simp only [View.readAt_eq_ld, harg1.read_unread, harg2.read_unread, harg3.read_unread, harg4.read_unread, harg6.read_unread,
    View.ld_unit_zero (S := S2000x1280) hz2, View.ld_unit_zero (S := S1280x512) hz2, View.ld_unit_zero (S := S1x512) hz2,
    View.ld_unit_zero (S := S2000x1) hz2, View.ld_unit_zero (S := S64x512) hz2]

set_option maxHeartbeats 1000000 in
/-- The last point: one pooled tile is added to what the point before left, and the sum is copied whole into the output's buffer. -/
theorem run1_C (c : Dev nD) (E : Set ℕ) (i : grid1.Coords) (arg1 : Memref sig .tc .vmem S2000x1280 .bf16) (harg1 : arg1.IsWhole) (arg2 : Memref sig .tc .vmem S1280x512 .bf16) (harg2 : arg2.IsWhole) (arg3 : Memref sig .tc .vmem S1x512 .f32) (harg3 : arg3.IsWhole) (arg4 : Memref sig .tc .vmem S2000x1 .i32) (harg4 : arg4.IsWhole) (arg5 : Memref sig .tc .vmem S64x512 .f32) (harg5 : arg5.IsWhole) (arg6 : Memref sig .tc .vmem S64x512 .f32) (harg6 : arg6.IsWhole)
    (hc0 : ¬cond1_0 i) (hc1 : cond1_1 i) (x0 : Vec F S2000x1280 .bf16) (x1 : Vec F S1280x512 .bf16) (x2 : Vec F S1x512 .f32) (x3 : Vec F S2000x1 .i32) (xs : Vec F S64x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k1_pay2 x0 x1 x2 x3 xs) ∗ owns (c : Thread nD τ) arg6 fullShare (k1_pay2 x0 x1 x2 x3 xs)) -∗ K ⟨⟩))
      ⊢ wp frame (wpE (defs₀ (F := F)) Variants.none c none) E (cc1__layer2_pool_kernel i arg1 harg1 arg2 harg2 arg3 harg3 arg4 harg4 arg5 harg5 arg6 harg6) K := by
  simp only [cc1__layer2_pool_kernel_eq_skeleton]; unfold cc1__layer2_pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg1.eq_unread hf0; obtain rfl := harg2.eq_unread hf1; obtain rfl := harg3.eq_unread hf2
  obtain rfl := harg4.eq_unread hf3; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [read_writes_cons_whole]
    sl_unfold_words
    rw [View.readCov_unit_zero (S := S64x512) _ hz2]
    simp only [View.readAt_eq_ld, harg1.read_unread, harg2.read_unread, harg3.read_unread, harg4.read_unread, harg6.read_unread,
    View.ld_unit_zero (S := S2000x1280) hz2, View.ld_unit_zero (S := S1280x512) hz2, View.ld_unit_zero (S := S1x512) hz2,
    View.ld_unit_zero (S := S2000x1) hz2, View.ld_unit_zero (S := S64x512) hz2]
  iexists _; isplitr
  swap; · iexact H5
  ipureintro
  sl_unfold_words
  rw [read_writes_cons_whole]
  simp only [View.readAt_eq_ld, harg1.read_unread, harg2.read_unread, harg3.read_unread, harg4.read_unread, harg6.read_unread,
    View.ld_unit_zero (S := S2000x1280) hz2, View.ld_unit_zero (S := S1280x512) hz2, View.ld_unit_zero (S := S1x512) hz2,
    View.ld_unit_zero (S := S2000x1) hz2, View.ld_unit_zero (S := S64x512) hz2]

/-! ## The region invariant -/

/-- The accumulator the kernel carries between points: a whole scoped buffer of its own. -/
abbrev scM1 : Memref sig .tc .vmem S64x512 .f32 := Memref.whole cc1_scratch0

/-- The core's scoped buffers that this pipeline does not stage: the other call's six staging buffers, each whole at
    some contents, and then the accumulator's buffer as `S` states it. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The accumulator's part can be taken out of the rest and put back at other contents. -/
theorem restWith_swap (c : Dev nD) (S S' : sProp 𝕄) : restWith (F := F) c S ⊢ iprop(S ∗ (S' -∗ restWith (F := F) c S')) := by
  unfold restWith
  iintro ⟨HA, HB, HC, HD, HE, HG, HS⟩
  isplitl [HS]; · iexact HS
  iintro HS'
  isplitl [HA]; · iexact HA
  isplitl [HB]; · iexact HB
  isplitl [HC]; · iexact HC
  isplitl [HD]; · iexact HD
  isplitl [HE]; · iexact HE
  isplitl [HG]; · iexact HG
  iexact HS'

/-- The class's invariant, with the accumulator as a memref owned at some contents. -/
theorem PhiA1_eq (c : Dev nD) :
    (Pipeline.ΦA spec1 c : sProp 𝕄)
      = iprop(restWith (F := F) c iprop(∃ d, owns (c : Thread nD τ) scM1 fullShare d) ∗ (∃ r, prngReg c r)) := by
  unfold Pipeline.ΦA restWith; rw [scopedRest1_eq]; simp only [scM1, owns_whole]; try rfl

/-- The invariant before position `n`: before the first point the class's; afterwards the accumulator at what the
    point before left in it, the other scoped buffers at anything, the generator register at some state. -/
def PhiS1 (c : Dev nD) : (n : ℕ) → n ≤ cfg1.N → sProp 𝕄
  | 0, _ => Pipeline.ΦA spec1 c
  | n + 1, hn => iprop(restWith (F := F) c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(restWith (F := F) c (owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(restWith (F := F) c (owns (c : Thread nD τ) scM1 fullShare (acc1 V c (n - 1) (by omega))) ∗ (∃ r, prngReg c r)) := by
  cases n with
  | zero => exact absurd rfl hz
  | succ n => rfl

/-- The accumulator after the first point, and after a later one, at the point itself. -/
theorem acc1_first (c : Dev nD) (t : Fin cfg1.N) (h0 : t.val = 0) :
    acc1 V c t.val t.isLt = k1_pay2 (iblk1 V c 0 t) (iblk1 V c 1 t) (iblk1 V c 2 t) (iblk1 V c 3 t) (k1_pay1 (F := F)) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = k1_pay2 (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of this pipeline on core `c`: the arrays as the region finds them; after the body each input's
    buffer at its block and the output's at the accumulator of that point (stated at every point, consulted at the
    last only: elsewhere the window is idle and keeps what it held); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

/-! ## The inputs' buffers hold their blocks at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the point's position decides the case. The invariant
    hands the body the accumulator (at anything before the first point, at what the point before left afterwards) and
    takes it back at this point's contents; off the last point the output's buffer goes back as it came, at the last
    it holds the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  have hN : t.val < 50 := lt_of_lt_of_eq t.isLt (show cfg1.N = 50 from N_1)
  by_cases h0 : t.val = 0
  · have h1 : t.val ≠ 49 := by omega
    rw [Dat.leavesExact_idle (dat1 V c) 4 t (idleAt1_4 t h1) (noFlush1_4 t h1)]
    rw [acc1_first V c t h0]
    rw [PhiS1_castSucc V c t, PhiS1_zero V c _ _ h0, PhiA1_eq]
    iintro ⟨⟨HR, Hg⟩, Ho, ⟨%d0, H0⟩, ⟨%d1, H1⟩, ⟨%d2, H2⟩, ⟨%d3, H3⟩, ⟨%d4, H4⟩⟩
    ihave HR' := (restWith_swap c _ (owns (c : Thread nD τ) scM1 fullShare (k1_pay2 (iblk1 V c 0 t) (iblk1 V c 1 t) (iblk1 V c 2 t) (iblk1 V c 3 t) (k1_pay1 (F := F))))) $$ HR
    icases HR' with ⟨HS0, Hback⟩
    iapply (run1_A c Set.univ (grid1.coords t) _ _ _ _ _ _ _ _ _ _ _ _ ((hcond1_0 t).mpr h0) (fun h => h1 ((hcond1_1 t).mp h))
      (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hback Hg]
    · isplitl [HS0 Hback]
      · iapply Hback; iexact HS0
      iexact Hg
    isplitl [Ho]; · iexact Ho
    isplitl [H0]; · iexact H0
    isplitl [H1]; · iexact H1
    isplitl [H2]; · iexact H2
    isplitl [H3]; · iexact H3
    iexists _; iexact H4
  · by_cases h1 : t.val = 49
    · rw [show (dat1 V c).leavesExact 4 t = owns (c : Thread nD τ) (st1_4 t) fullShare ((dat1 V c).after 4 t) from by
        unfold Dat.leavesExact; rw [liveAt1_4 t h1], after1_4]
      rw [acc1_later V c t h0]
      rw [PhiS1_castSucc V c t, PhiS1_pos V c _ _ h0]
      iintro ⟨⟨HR, Hg⟩, Ho, ⟨%d0, H0⟩, ⟨%d1, H1⟩, ⟨%d2, H2⟩, ⟨%d3, H3⟩, ⟨%d4, H4⟩⟩
      ihave HR' := (restWith_swap c _ (owns (c : Thread nD τ) scM1 fullShare (k1_pay2 (iblk1 V c 0 t) (iblk1 V c 1 t) (iblk1 V c 2 t) (iblk1 V c 3 t)
        (acc1 V c (t.val - 1) (Nat.lt_of_le_of_lt (Nat.sub_le _ _) t.isLt))))) $$ HR
      icases HR' with ⟨HS0, Hback⟩
      iapply (run1_C c Set.univ (grid1.coords t) _ _ _ _ _ _ _ _ _ _ _ _ (fun h => h0 ((hcond1_0 t).mp h)) ((hcond1_1 t).mpr h1)
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, H4, HS0⟩
      isplitl [HS0 Hback Hg]
      · isplitl [HS0 Hback]
        · iapply Hback; iexact HS0
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t h1) (noFlush1_4 t h1)]
      rw [acc1_later V c t h0]
      rw [PhiS1_castSucc V c t, PhiS1_pos V c _ _ h0]
      iintro ⟨⟨HR, Hg⟩, Ho, ⟨%d0, H0⟩, ⟨%d1, H1⟩, ⟨%d2, H2⟩, ⟨%d3, H3⟩, ⟨%d4, H4⟩⟩
      ihave HR' := (restWith_swap c _ (owns (c : Thread nD τ) scM1 fullShare (k1_pay2 (iblk1 V c 0 t) (iblk1 V c 1 t) (iblk1 V c 2 t) (iblk1 V c 3 t)
        (acc1 V c (t.val - 1) (Nat.lt_of_le_of_lt (Nat.sub_le _ _) t.isLt))))) $$ HR
      icases HR' with ⟨HS0, Hback⟩
      iapply (run1_B c Set.univ (grid1.coords t) _ _ _ _ _ _ _ _ _ _ _ _ (fun h => h0 ((hcond1_0 t).mp h)) (fun h => h1 ((hcond1_1 t).mp h))
        (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hback Hg]
      · isplitl [HS0 Hback]
        · iapply Hback; iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  isplitl [HR]
  · ihave HR' := (restWith_swap c _ iprop(∃ d, owns (c : Thread nD τ) scM1 fullShare d)) $$ HR
    icases HR' with ⟨HS0, Hback⟩
    iapply Hback; iexists _; iexact HS0
  iexact Hg

theorem hout1 (c : Dev nD) : (dat1 V c).Φ (Fin.last cfg1.N) ⊢ Pipeline.ΦA spec1 c :=
  Phi_out1 V c _ (by rw [Fin.val_last]; have : cfg1.N = 50 := N_1; omega)

/-! ## The output array after the region -/

/-- The last grid point. -/
def t1_49 : Fin grid1.N := ⟨49, by rw [N_1]; decide⟩

/-- At the last point the output window's block sits at the array's origin. -/
theorem blk_origin1_4 : (fun a => win1_4.index t1_49 a * main_v334.ty.shape.size a) = fun _ => 0 :=
  funext fun a => by fin_cases a <;> decide +kernel

/-- The one write-back of the output window, at the last point, writes the whole array: the array then holds the
    accumulator's last contents. -/
theorem arrAt1_out (c : Dev nD) : (dat1 V c).arrAt 4 cfg1.N = acc1 V c 49 (by rw [show cfg1.N = 50 from N_1]; decide) := by
  calc (dat1 V c).arrAt 4 cfg1.N
      = (dat1 V c).arrAt 4 ((t1_49 : Fin cfg1.N).val + 1) := congrArg ((dat1 V c).arrAt 4) N_1
    _ = ((cfg1.win 4).blk t1_49).view.write (Elt F) ((dat1 V c).arrAt 4 (t1_49 : Fin cfg1.N).val) ((dat1 V c).flushed 4 t1_49) Finset.univ := by
        rw [Dat.arrAt_succ, if_pos ((flush1_4 t1_49).mpr rfl)]
    _ = (dat1 V c).flushed 4 t1_49 :=
        Memref.write_access_unit_zero_univ (Elt F) main_v334 blk_origin1_4 (fun a => by rw [congrFun blk_origin1_4 a]; simp) _ _
    _ = acc1 V c 49 _ := by
        show (cfg1.win 4).cut (grid1.coords t1_49) ((dat1 V c).after 4 t1_49) = _
        rw [after1_4]; rfl

end Cert.KernelIdeal.Hand

end
-- ==== Proof.KI.HostKeep.lean ====
/-
  What the idealized kernel program's host stretches leave alone: none of its host operations allocates a buffer
  without writing it, and the program's eleven arguments (and, across the stretch between the two kernel calls, the
  hidden activations and the three edge arrays it reads) hold after each stretch what they held before it, no
  operation of the stretch having them as its result.
-/
import proofs.«428271_j37306085933536_1_alg».proof.Proof.Gen.KernelIdeal.Launch
import Idealize.ShloMosaic.Lib.Pipeline.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.ShloMosaic.Pipeline

variable {F : FTy → Type} [FloatOps F]

/-! ## No operation leaves a result unwritten -/

set_option maxHeartbeats 40000000 in
/-- The first stretch's eighteen operations each determine their result. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl⟩
set_option maxHeartbeats 40000000 in
/-- The inlined selection's three operations each determine their result. -/
theorem hostOps0_1_fresh : (hostOps0_1 : List (HloOp τ sig (Elt F))).Forall fun op => op.fresh = ∅ :=
  ⟨rfl, rfl, rfl⟩
set_option maxHeartbeats 40000000 in
/-- The 207 operations up to the first kernel call each determine their result. -/
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
/-- The 193 operations between the two kernel calls each determine their result. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
/-- The twelve operations after the second kernel call each determine their result. -/
theorem hostOps2_fresh : (hostOps2 : List (HloOp τ sig (Elt F))).Forall fun op => op.fresh = ∅ :=
  ⟨rfl, rfl, rfl, rfl, rfl, rfl, rfl, rfl, rfl, rfl, rfl, rfl⟩

variable (V : Valuation τ sig (Elt F))

/-! ## The arguments across the operations before the first kernel call -/

/-- Argument 0 (the node signal) is no operation's result there. -/
theorem pre_arg0 : StableHlo.after hostOps0_2 (StableHlo.after hostOps0_1 (StableHlo.after hostOps0 V)) (Proc.devRef .tc main_arg0) = V (Proc.devRef .tc main_arg0) := by chain_rfl
/-- Argument 1 (the edge list) is no operation's result there. -/
theorem pre_arg1 : StableHlo.after hostOps0_2 (StableHlo.after hostOps0_1 (StableHlo.after hostOps0 V)) (Proc.devRef .tc main_arg1) = V (Proc.devRef .tc main_arg1) := by chain_rfl
/-- Argument 2 (the nodes' graph numbers) is no operation's result there. -/
theorem pre_arg2 : StableHlo.after hostOps0_2 (StableHlo.after hostOps0_1 (StableHlo.after hostOps0 V)) (Proc.devRef .tc main_arg2) = V (Proc.devRef .tc main_arg2) := by chain_rfl
/-- Argument 3 (the first convolution's forward weights) is no operation's result there. -/
theorem pre_arg3 : StableHlo.after hostOps0_2 (StableHlo.after hostOps0_1 (StableHlo.after hostOps0 V)) (Proc.devRef .tc main_arg3) = V (Proc.devRef .tc main_arg3) := by chain_rfl
/-- Argument 4 (its forward bias) is no operation's result there. -/
theorem pre_arg4 : StableHlo.after hostOps0_2 (StableHlo.after hostOps0_1 (StableHlo.after hostOps0 V)) (Proc.devRef .tc main_arg4) = V (Proc.devRef .tc main_arg4) := by chain_rfl
/-- Argument 5 (its backward weights) is no operation's result there. -/
theorem pre_arg5 : StableHlo.after hostOps0_2 (StableHlo.after hostOps0_1 (StableHlo.after hostOps0 V)) (Proc.devRef .tc main_arg5) = V (Proc.devRef .tc main_arg5) := by chain_rfl
/-- Argument 6 (its backward bias) is no operation's result there. -/
theorem pre_arg6 : StableHlo.after hostOps0_2 (StableHlo.after hostOps0_1 (StableHlo.after hostOps0 V)) (Proc.devRef .tc main_arg6) = V (Proc.devRef .tc main_arg6) := by chain_rfl
/-- Argument 7 (the second convolution's forward weights) is no operation's result there. -/
theorem pre_arg7 : StableHlo.after hostOps0_2 (StableHlo.after hostOps0_1 (StableHlo.after hostOps0 V)) (Proc.devRef .tc main_arg7) = V (Proc.devRef .tc main_arg7) := by chain_rfl
/-- Argument 8 (its forward bias) is no operation's result there. -/
theorem pre_arg8 : StableHlo.after hostOps0_2 (StableHlo.after hostOps0_1 (StableHlo.after hostOps0 V)) (Proc.devRef .tc main_arg8) = V (Proc.devRef .tc main_arg8) := by chain_rfl
/-- Argument 9 (its backward weights) is no operation's result there. -/
theorem pre_arg9 : StableHlo.after hostOps0_2 (StableHlo.after hostOps0_1 (StableHlo.after hostOps0 V)) (Proc.devRef .tc main_arg9) = V (Proc.devRef .tc main_arg9) := by chain_rfl
/-- Argument 10 (its backward bias) is no operation's result there. -/
theorem pre_arg10 : StableHlo.after hostOps0_2 (StableHlo.after hostOps0_1 (StableHlo.after hostOps0 V)) (Proc.devRef .tc main_arg10) = V (Proc.devRef .tc main_arg10) := by chain_rfl

/-! ## The arguments and the buffers read later, across the operations between the two kernel calls -/

/-- Argument 0 (the node signal) is no operation's result there. -/
theorem mid_arg0 : StableHlo.after hostOps1 V (Proc.devRef .tc main_arg0) = V (Proc.devRef .tc main_arg0) := by chain_rfl
/-- Argument 1 (the edge list) is no operation's result there. -/
theorem mid_arg1 : StableHlo.after hostOps1 V (Proc.devRef .tc main_arg1) = V (Proc.devRef .tc main_arg1) := by chain_rfl
/-- Argument 2 (the nodes' graph numbers) is no operation's result there. -/
theorem mid_arg2 : StableHlo.after hostOps1 V (Proc.devRef .tc main_arg2) = V (Proc.devRef .tc main_arg2) := by chain_rfl
/-- Argument 3 (the first convolution's forward weights) is no operation's result there. -/
theorem mid_arg3 : StableHlo.after hostOps1 V (Proc.devRef .tc main_arg3) = V (Proc.devRef .tc main_arg3) := by chain_rfl
/-- Argument 4 (its forward bias) is no operation's result there. -/
theorem mid_arg4 : StableHlo.after hostOps1 V (Proc.devRef .tc main_arg4) = V (Proc.devRef .tc main_arg4) := by chain_rfl
/-- Argument 5 (its backward weights) is no operation's result there. -/
theorem mid_arg5 : StableHlo.after hostOps1 V (Proc.devRef .tc main_arg5) = V (Proc.devRef .tc main_arg5) := by chain_rfl
/-- Argument 6 (its backward bias) is no operation's result there. -/
theorem mid_arg6 : StableHlo.after hostOps1 V (Proc.devRef .tc main_arg6) = V (Proc.devRef .tc main_arg6) := by chain_rfl
/-- Argument 7 (the second convolution's forward weights) is no operation's result there. -/
theorem mid_arg7 : StableHlo.after hostOps1 V (Proc.devRef .tc main_arg7) = V (Proc.devRef .tc main_arg7) := by chain_rfl
/-- Argument 8 (its forward bias) is no operation's result there. -/
theorem mid_arg8 : StableHlo.after hostOps1 V (Proc.devRef .tc main_arg8) = V (Proc.devRef .tc main_arg8) := by chain_rfl
/-- Argument 9 (its backward weights) is no operation's result there. -/
theorem mid_arg9 : StableHlo.after hostOps1 V (Proc.devRef .tc main_arg9) = V (Proc.devRef .tc main_arg9) := by chain_rfl
/-- Argument 10 (its backward bias) is no operation's result there. -/
theorem mid_arg10 : StableHlo.after hostOps1 V (Proc.devRef .tc main_arg10) = V (Proc.devRef .tc main_arg10) := by chain_rfl
/-- The hidden activations (the first kernel call's result) are no operation's result there. -/
theorem mid_v178 : StableHlo.after hostOps1 V (Proc.devRef .tc main_v178) = V (Proc.devRef .tc main_v178) := by chain_rfl
/-- The edges' row nodes are no operation's result there. -/
theorem mid_v1 : StableHlo.after hostOps1 V (Proc.devRef .tc main_v1) = V (Proc.devRef .tc main_v1) := by chain_rfl
/-- The edges' column nodes are no operation's result there. -/
theorem mid_v3 : StableHlo.after hostOps1 V (Proc.devRef .tc main_v3) = V (Proc.devRef .tc main_v3) := by chain_rfl
/-- The edge weights are no operation's result there. -/
theorem mid_v31 : StableHlo.after hostOps1 V (Proc.devRef .tc main_v31) = V (Proc.devRef .tc main_v31) := by chain_rfl

/-! ## The arguments across the operations after the second kernel call -/

/-- Argument 0 (the node signal) is no operation's result there. -/
theorem post_arg0 : StableHlo.after hostOps2 V (Proc.devRef .tc main_arg0) = V (Proc.devRef .tc main_arg0) := by chain_rfl
/-- Argument 1 (the edge list) is no operation's result there. -/
theorem post_arg1 : StableHlo.after hostOps2 V (Proc.devRef .tc main_arg1) = V (Proc.devRef .tc main_arg1) := by chain_rfl
/-- Argument 2 (the nodes' graph numbers) is no operation's result there. -/
theorem post_arg2 : StableHlo.after hostOps2 V (Proc.devRef .tc main_arg2) = V (Proc.devRef .tc main_arg2) := by chain_rfl
/-- Argument 3 (the first convolution's forward weights) is no operation's result there. -/
theorem post_arg3 : StableHlo.after hostOps2 V (Proc.devRef .tc main_arg3) = V (Proc.devRef .tc main_arg3) := by chain_rfl
/-- Argument 4 (its forward bias) is no operation's result there. -/
theorem post_arg4 : StableHlo.after hostOps2 V (Proc.devRef .tc main_arg4) = V (Proc.devRef .tc main_arg4) := by chain_rfl
/-- Argument 5 (its backward weights) is no operation's result there. -/
theorem post_arg5 : StableHlo.after hostOps2 V (Proc.devRef .tc main_arg5) = V (Proc.devRef .tc main_arg5) := by chain_rfl
/-- Argument 6 (its backward bias) is no operation's result there. -/
theorem post_arg6 : StableHlo.after hostOps2 V (Proc.devRef .tc main_arg6) = V (Proc.devRef .tc main_arg6) := by chain_rfl
/-- Argument 7 (the second convolution's forward weights) is no operation's result there. -/
theorem post_arg7 : StableHlo.after hostOps2 V (Proc.devRef .tc main_arg7) = V (Proc.devRef .tc main_arg7) := by chain_rfl
/-- Argument 8 (its forward bias) is no operation's result there. -/
theorem post_arg8 : StableHlo.after hostOps2 V (Proc.devRef .tc main_arg8) = V (Proc.devRef .tc main_arg8) := by chain_rfl
/-- Argument 9 (its backward weights) is no operation's result there. -/
theorem post_arg9 : StableHlo.after hostOps2 V (Proc.devRef .tc main_arg9) = V (Proc.devRef .tc main_arg9) := by chain_rfl
/-- Argument 10 (its backward bias) is no operation's result there. -/
theorem post_arg10 : StableHlo.after hostOps2 V (Proc.devRef .tc main_arg10) = V (Proc.devRef .tc main_arg10) := by chain_rfl

end Cert.KernelIdeal.Hand

end
-- ==== Proof.KI.Run.lean ====
/-
  The run of the two-region program as a whole: the buffers' contents at each of its seven items' boundaries as a fold
  from the launch memory — three stretches of host operations, the first kernel region (its arrays at what the pipeline's
  write-backs leave), a fourth stretch, the second region, a last stretch —, each region as a segment entered from the
  buffers at the contents before it and left at the contents after it, and the launch over the seven segments: every
  weakly fair execution terminates and every unscoped buffer ends at the last boundary's contents. No item writes an
  argument, so each argument's buffer ends as launched.
-/
import proofs.«428271_j37306085933536_1_alg».proof.Proof.KI.Body0
import proofs.«428271_j37306085933536_1_alg».proof.Proof.KI.Body1
import proofs.«428271_j37306085933536_1_alg».proof.Proof.KI.HostKeep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the three host stretches before the first region. -/
abbrev W3 : Dev nD → Valuation τ sig (Elt F) := fun c =>
  StableHlo.after hostOps0_2 (StableHlo.after hostOps0_1 (StableHlo.after hostOps0 (W0 m ρ c)))
/-- The same read at the TensorCore's references (what the first region's proof data take). -/
abbrev V3 : (c : Dev nD) → (b : Ref sig .tc) → Buf (Elt F) ((c : Thread nD τ).loc b) := fun c b => W3 m ρ c b
/-- At the first region's exit: its arrays at what the pipeline leaves, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch between the regions (the second region's entry). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- At the second region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last stretch: the contents at the return. -/
abbrev W7 : Dev nD → Valuation τ sig (Elt F) := fun c => StableHlo.after hostOps2 (W6 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The first region: entered from every unscoped buffer at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W5`, left at `W6`. Its invariant carries the accumulator
    between points; at the region's two ends it is the plain one (`hin1`, `hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact hA.trans (show Pipeline.ΦA spec1 c ⊢ (pdats m ρ 1 c).Φ 0 from hin1 (V5 m ρ) c)
  hout c := by
    rw [Pipeline.ownSems0_none]
    have hA : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (show (pdats m ρ 1 c).Φ (Fin.last _) ⊢ Pipeline.ΦA spec1 c from hout1 (V5 m ρ) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The seven items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (fun c => StableHlo.after hostOps0 (W0 m ρ c))),
    .host (hseg hostOps0_2 hostOps0_2_sub hostOps0_2_fresh (fun c => StableHlo.after hostOps0_1 (StableHlo.after hostOps0 (W0 m ρ c)))),
    .region (reg0 m ρ),
    .host (hseg hostOps1 hostOps1_sub hostOps1_fresh (W4 m ρ)),
    .region (reg1 m ρ),
    .host (hseg hostOps2 hostOps2_sub hostOps2_fresh (W6 m ρ)) ]

/-- The program is the run of the segments. -/
theorem main_run (c : Dev nD) : main (F := F) c = Pipeline.Seg.run (segs m ρ) := (main_chain c).trans (by chain_rfl)

set_option backward.isDefEq.respectTransparency.types false in
/-- THE RUN: every weakly fair execution terminates, nothing faulting, and every unscoped buffer of every core ends at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ c) ∗ R c)
          ⊢ iprop(Tₙ m ρ c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-! ## The arguments end as launched -/

theorem W7_main_arg0 (c : Dev nD) : W7 m ρ c (Proc.devRef .tc main_arg0) = m ((c : Thread nD τ).loc main_arg0) :=
  (post_arg0 (W6 m ρ c)).trans <| (W6_of_ne m ρ c main_arg0 (by decide)).trans <| (mid_arg0 (W4 m ρ c)).trans <|
    (W4_of_ne m ρ c main_arg0 (by decide)).trans <| (pre_arg0 (W0 m ρ c)).trans rfl
theorem W7_main_arg1 (c : Dev nD) : W7 m ρ c (Proc.devRef .tc main_arg1) = m ((c : Thread nD τ).loc main_arg1) :=
  (post_arg1 (W6 m ρ c)).trans <| (W6_of_ne m ρ c main_arg1 (by decide)).trans <| (mid_arg1 (W4 m ρ c)).trans <|
    (W4_of_ne m ρ c main_arg1 (by decide)).trans <| (pre_arg1 (W0 m ρ c)).trans rfl
theorem W7_main_arg2 (c : Dev nD) : W7 m ρ c (Proc.devRef .tc main_arg2) = m ((c : Thread nD τ).loc main_arg2) :=
  (post_arg2 (W6 m ρ c)).trans <| (W6_of_ne m ρ c main_arg2 (by decide)).trans <| (mid_arg2 (W4 m ρ c)).trans <|
    (W4_of_ne m ρ c main_arg2 (by decide)).trans <| (pre_arg2 (W0 m ρ c)).trans rfl
theorem W7_main_arg3 (c : Dev nD) : W7 m ρ c (Proc.devRef .tc main_arg3) = m ((c : Thread nD τ).loc main_arg3) :=
  (post_arg3 (W6 m ρ c)).trans <| (W6_of_ne m ρ c main_arg3 (by decide)).trans <| (mid_arg3 (W4 m ρ c)).trans <|
    (W4_of_ne m ρ c main_arg3 (by decide)).trans <| (pre_arg3 (W0 m ρ c)).trans rfl
theorem W7_main_arg4 (c : Dev nD) : W7 m ρ c (Proc.devRef .tc main_arg4) = m ((c : Thread nD τ).loc main_arg4) :=
  (post_arg4 (W6 m ρ c)).trans <| (W6_of_ne m ρ c main_arg4 (by decide)).trans <| (mid_arg4 (W4 m ρ c)).trans <|
    (W4_of_ne m ρ c main_arg4 (by decide)).trans <| (pre_arg4 (W0 m ρ c)).trans rfl
theorem W7_main_arg5 (c : Dev nD) : W7 m ρ c (Proc.devRef .tc main_arg5) = m ((c : Thread nD τ).loc main_arg5) :=
  (post_arg5 (W6 m ρ c)).trans <| (W6_of_ne m ρ c main_arg5 (by decide)).trans <| (mid_arg5 (W4 m ρ c)).trans <|
    (W4_of_ne m ρ c main_arg5 (by decide)).trans <| (pre_arg5 (W0 m ρ c)).trans rfl
theorem W7_main_arg6 (c : Dev nD) : W7 m ρ c (Proc.devRef .tc main_arg6) = m ((c : Thread nD τ).loc main_arg6) :=
  (post_arg6 (W6 m ρ c)).trans <| (W6_of_ne m ρ c main_arg6 (by decide)).trans <| (mid_arg6 (W4 m ρ c)).trans <|
    (W4_of_ne m ρ c main_arg6 (by decide)).trans <| (pre_arg6 (W0 m ρ c)).trans rfl
theorem W7_main_arg7 (c : Dev nD) : W7 m ρ c (Proc.devRef .tc main_arg7) = m ((c : Thread nD τ).loc main_arg7) :=
  (post_arg7 (W6 m ρ c)).trans <| (W6_of_ne m ρ c main_arg7 (by decide)).trans <| (mid_arg7 (W4 m ρ c)).trans <|
    (W4_of_ne m ρ c main_arg7 (by decide)).trans <| (pre_arg7 (W0 m ρ c)).trans rfl
theorem W7_main_arg8 (c : Dev nD) : W7 m ρ c (Proc.devRef .tc main_arg8) = m ((c : Thread nD τ).loc main_arg8) :=
  (post_arg8 (W6 m ρ c)).trans <| (W6_of_ne m ρ c main_arg8 (by decide)).trans <| (mid_arg8 (W4 m ρ c)).trans <|
    (W4_of_ne m ρ c main_arg8 (by decide)).trans <| (pre_arg8 (W0 m ρ c)).trans rfl
theorem W7_main_arg9 (c : Dev nD) : W7 m ρ c (Proc.devRef .tc main_arg9) = m ((c : Thread nD τ).loc main_arg9) :=
  (post_arg9 (W6 m ρ c)).trans <| (W6_of_ne m ρ c main_arg9 (by decide)).trans <| (mid_arg9 (W4 m ρ c)).trans <|
    (W4_of_ne m ρ c main_arg9 (by decide)).trans <| (pre_arg9 (W0 m ρ c)).trans rfl
theorem W7_main_arg10 (c : Dev nD) : W7 m ρ c (Proc.devRef .tc main_arg10) = m ((c : Thread nD τ).loc main_arg10) :=
  (post_arg10 (W6 m ρ c)).trans <| (W6_of_ne m ρ c main_arg10 (by decide)).trans <| (mid_arg10 (W4 m ρ c)).trans <|
    (W4_of_ne m ρ c main_arg10 (by decide)).trans <| (pre_arg10 (W0 m ρ c)).trans rfl

/-- THE FRAME at any float family: every weakly fair execution terminates, nothing faulting, each argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c)⟩) (run_all m ρ)

end Cert.KernelIdeal.Hand

end
-- ==== Proof.Spec.Common.lean ====
/-
  The graph operators both programs share, as pure functions of arrays: the edge list's two rows, the
  symmetric-normalised edge weight -(d^{-1/2}[row] * d^{-1/2}[col]) * (2/3) with d the row degree (zero degree gives
  weight factor zero), one propagation step  h ↦ scatter-add over the edges of w_e * h[src e] into row dst e, plus
  (-1/3) * h  (the scaled Laplacian applied to h), for one feature column and for 128, and the Chebyshev recurrence
  T_{k+1} = 2 * L T_k - T_{k-1} over it. Each is spelt exactly as the host operations compute it, so that a program's
  buffer holding one of these values is that term by unfolding.
-/
import proofs.«428271_j37306085933536_1_alg».proof.Proof.Gen.KernelIdeal

noncomputable section

namespace Cert.Spec

open Idealize.ShloMosaic Cert.KernelIdeal Cert.KernelIdeal.Gen

variable {F : FTy → Type} [FloatOps F]

/-- The edge list's first row (the edges' row nodes). -/
def rowI (ei : (⟨S2x400000, .i32⟩ : BufTy).Contents (Elt F)) : (⟨S400000, .i32⟩ : BufTy).Contents (Elt F) :=
  shapeCast S400000 (extractStridedSlice S1x400000 ![0, 0] ei slices_S2x400000_S1x400000_0_0) shapeCasts_S1x400000_S400000

/-- The edge list's second row (the edges' column nodes). -/
def colI (ei : (⟨S2x400000, .i32⟩ : BufTy).Contents (Elt F)) : (⟨S400000, .i32⟩ : BufTy).Contents (Elt F) :=
  shapeCast S400000 (extractStridedSlice S1x400000 ![1, 0] ei slices_S2x400000_S1x400000_1_0) shapeCasts_S1x400000_S400000

/-- Node numbers as gather start indices: a negative number is taken from the end (100000 added once), as a column. -/
def nidx (v : (⟨S400000, .i32⟩ : BufTy).Contents (Elt F)) : (⟨S400000x1, .i32⟩ : BufTy).Contents (Elt F) :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 100000#32))) v)

/-- The row degree: the number of edges whose row node is the node. -/
def deg (ei : (⟨S2x400000, .i32⟩ : BufTy).Contents (Elt F)) : (⟨S100000, .f32⟩ : BufTy).Contents (Elt F) :=
  Host.scatterAdd scatter_S100000_S400000x1_S400000_n_0_0_1
    (broadcastInDim S100000 ![] bcast_S_S100000 (constant S_ .f32 0x00000000#32))
    (broadcastInDim S400000x1 ![0] bcast_S400000_S400000x1_0 (rowI (F := F) ei))
    (broadcastInDim S400000 ![] bcast_S_S400000 (constant S_ .f32 0x3F800000#32))

/-- deg^{-1/2} where the degree is positive (the degree floored at 1e-12 under the root), zero elsewhere. -/
def dinv (ei : (⟨S2x400000, .i32⟩ : BufTy).Contents (Elt F)) : (⟨S100000, .f32⟩ : BufTy).Contents (Elt F) :=
  select (cmpf (F := F) .ogt (deg (F := F) ei) (broadcastInDim S100000 ![] bcast_S_S100000 (constant S_ .f32 0x00000000#32)))
    (Host.rsqrt (maximumf (deg (F := F) ei) (broadcastInDim S100000 ![] bcast_S_S100000 (constant S_ .f32 0x2B8CBCCC#32))))
    (broadcastInDim S100000 ![] bcast_S_S100000 (id (constant S_ .f32 0x00000000#32)))

/-- The edge weight  -(dinv[row e] * dinv[col e]) * (2/3). -/
def wEdge (ei : (⟨S2x400000, .i32⟩ : BufTy).Contents (Elt F)) : (⟨S400000, .f32⟩ : BufTy).Contents (Elt F) :=
  mulf (Host.negf (mulf
      (Host.gather gather_S100000_S400000x1_S400000_n_0_n_n_0_1_1 (dinv (F := F) ei) (nidx (F := F) (rowI (F := F) ei)))
      (Host.gather gather_S100000_S400000x1_S400000_n_0_n_n_0_1_1 (dinv (F := F) ei) (nidx (F := F) (colI (F := F) ei)))))
    (broadcastInDim S400000 ![] bcast_S_S400000 (constant S_ .f32 0x3F2AAAAB#32))

/-- One propagation of a one-column signal: at node i the sum over the edges e with dst e = i of we e * h[src e],
    plus (-1/3) * h i. -/
def prop1 (src dst : (⟨S400000, .i32⟩ : BufTy).Contents (Elt F)) (we : (⟨S400000, .f32⟩ : BufTy).Contents (Elt F))
    (h : (⟨S100000x1, .f32⟩ : BufTy).Contents (Elt F)) : (⟨S100000x1, .f32⟩ : BufTy).Contents (Elt F) :=
  addf
    (Host.scatterAdd scatter_S100000x1_S400000x1_S400000x1_1_0_0_1
      (broadcastInDim S100000x1 ![] bcast_S_S100000x1 (constant S_ .f32 0x00000000#32))
      (broadcastInDim S400000x1 ![0] bcast_S400000_S400000x1_0 dst)
      (mulf (broadcastInDim S400000x1 ![0] bcast_S400000_S400000x1_0 we)
        (Host.gather gather_S100000x1_S400000x1_S400000x1_1_0_n_n_0_1_11 h (nidx (F := F) src))))
    (mulf (broadcastInDim S100000x1 ![] bcast_S_S100000x1 (constant S_ .f32 0xBEAAAAAB#32)) h)

/-- One propagation of a 128-column signal, column by column the same. -/
def prop128 (src dst : (⟨S400000, .i32⟩ : BufTy).Contents (Elt F)) (we : (⟨S400000, .f32⟩ : BufTy).Contents (Elt F))
    (h : (⟨S100000x128, .f32⟩ : BufTy).Contents (Elt F)) : (⟨S100000x128, .f32⟩ : BufTy).Contents (Elt F) :=
  addf
    (Host.scatterAdd scatter_S100000x128_S400000x1_S400000x128_1_0_0_1
      (broadcastInDim S100000x128 ![] bcast_S_S100000x128 (constant S_ .f32 0x00000000#32))
      (broadcastInDim S400000x1 ![0] bcast_S400000_S400000x1_0 dst)
      (mulf (broadcastInDim S400000x128 ![0, 1] bcast_S400000x1_S400000x128_0_1 (broadcastInDim S400000x1 ![0] bcast_S400000_S400000x1_0 we))
        (Host.gather gather_S100000x128_S400000x1_S400000x128_1_0_n_n_0_1_1128 h (nidx (F := F) src))))
    (mulf (broadcastInDim S100000x128 ![] bcast_S_S100000x128 (constant S_ .f32 0xBEAAAAAB#32)) h)

/-- The recurrence's step on one column: 2 * (L b) - a. -/
def cheb1 (src dst : (⟨S400000, .i32⟩ : BufTy).Contents (Elt F)) (we : (⟨S400000, .f32⟩ : BufTy).Contents (Elt F))
    (a b : (⟨S100000x1, .f32⟩ : BufTy).Contents (Elt F)) : (⟨S100000x1, .f32⟩ : BufTy).Contents (Elt F) :=
  subf (mulf (broadcastInDim S100000x1 ![] bcast_S_S100000x1 (constant S_ .f32 0x40000000#32)) (prop1 (F := F) src dst we b)) a

/-- The recurrence's step on 128 columns. -/
def cheb128 (src dst : (⟨S400000, .i32⟩ : BufTy).Contents (Elt F)) (we : (⟨S400000, .f32⟩ : BufTy).Contents (Elt F))
    (a b : (⟨S100000x128, .f32⟩ : BufTy).Contents (Elt F)) : (⟨S100000x128, .f32⟩ : BufTy).Contents (Elt F) :=
  subf (mulf (broadcastInDim S100000x128 ![] bcast_S_S100000x128 (constant S_ .f32 0x40000000#32)) (prop128 (F := F) src dst we b)) a

/-- The Chebyshev basis T_0 … T_4 of a one-column signal `x` (T_0 = x, T_1 = L x). -/
def t1 (src dst : (⟨S400000, .i32⟩ : BufTy).Contents (Elt F)) (we : (⟨S400000, .f32⟩ : BufTy).Contents (Elt F))
    (x : (⟨S100000x1, .f32⟩ : BufTy).Contents (Elt F)) : Fin 5 → (⟨S100000x1, .f32⟩ : BufTy).Contents (Elt F)
  | ⟨0, _⟩ => x
  | ⟨1, _⟩ => prop1 (F := F) src dst we x
  | ⟨2, _⟩ => cheb1 (F := F) src dst we x (prop1 (F := F) src dst we x)
  | ⟨3, _⟩ => cheb1 (F := F) src dst we (prop1 (F := F) src dst we x) (cheb1 (F := F) src dst we x (prop1 (F := F) src dst we x))
  | ⟨4, _⟩ => cheb1 (F := F) src dst we (cheb1 (F := F) src dst we x (prop1 (F := F) src dst we x))
      (cheb1 (F := F) src dst we (prop1 (F := F) src dst we x) (cheb1 (F := F) src dst we x (prop1 (F := F) src dst we x)))

/-- The Chebyshev basis T_0 … T_4 of a 128-column signal. -/
def t128 (src dst : (⟨S400000, .i32⟩ : BufTy).Contents (Elt F)) (we : (⟨S400000, .f32⟩ : BufTy).Contents (Elt F))
    (x : (⟨S100000x128, .f32⟩ : BufTy).Contents (Elt F)) : Fin 5 → (⟨S100000x128, .f32⟩ : BufTy).Contents (Elt F)
  | ⟨0, _⟩ => x
  | ⟨1, _⟩ => prop128 (F := F) src dst we x
  | ⟨2, _⟩ => cheb128 (F := F) src dst we x (prop128 (F := F) src dst we x)
  | ⟨3, _⟩ => cheb128 (F := F) src dst we (prop128 (F := F) src dst we x) (cheb128 (F := F) src dst we x (prop128 (F := F) src dst we x))
  | ⟨4, _⟩ => cheb128 (F := F) src dst we (cheb128 (F := F) src dst we x (prop128 (F := F) src dst we x))
      (cheb128 (F := F) src dst we (prop128 (F := F) src dst we x) (cheb128 (F := F) src dst we x (prop128 (F := F) src dst we x)))

end Cert.Spec

end
-- ==== Proof.Spec.KSide.lean ====
/-
  The idealized kernel program's host stages as pure functions of arrays, each spelt exactly as the program's host
  operations compute it: the two matmul operands of the first convolution (the ten Chebyshev basis columns of the
  input signal, forward and backward direction, rounded to bf16; the two weight stacks, stacked and rounded), its
  bias, the same three for the second convolution, the graph-number column, and the mean pooling's division by the
  per-graph node count.
-/
import proofs.«428271_j37306085933536_1_alg».proof.Proof.Spec.Common

noncomputable section

namespace Cert.Spec

open Idealize.ShloMosaic Cert.KernelIdeal Cert.KernelIdeal.Gen

variable {F : FTy → Type} [FloatOps F]

/-- The first convolution's left operand: the Chebyshev basis T_0 … T_4 of the one-column signal in the forward
    direction (gathered at the column node, scattered to the row node), then in the backward direction, side by
    side as ten columns, rounded to bf16. -/
def TX1g (row col : (⟨S400000, .i32⟩ : BufTy).Contents (Elt F)) (we : (⟨S400000, .f32⟩ : BufTy).Contents (Elt F))
    (x : (⟨S100000x1, .f32⟩ : BufTy).Contents (Elt F)) : (⟨S100000x10, .bf16⟩ : BufTy).Contents (Elt F) :=
  truncf .bf16
    (concatenate S100000x10 1
      [⟨S100000x1, t1 (F := F) col row we x 0⟩, ⟨S100000x1, t1 (F := F) col row we x 1⟩,
       ⟨S100000x1, t1 (F := F) col row we x 2⟩, ⟨S100000x1, t1 (F := F) col row we x 3⟩,
       ⟨S100000x1, t1 (F := F) col row we x 4⟩,
       ⟨S100000x1, t1 (F := F) row col we x 0⟩, ⟨S100000x1, t1 (F := F) row col we x 1⟩,
       ⟨S100000x1, t1 (F := F) row col we x 2⟩, ⟨S100000x1, t1 (F := F) row col we x 3⟩,
       ⟨S100000x1, t1 (F := F) row col we x 4⟩]
      concatenates_S100000x1_S100000x1_S100000x1_S100000x1_S100000x1_S100000x1_S100000x1_S100000x1_S100000x1_S100000x1_S100000x10_d1)
    bitsLt_bf16_f32

/-- The first convolution's right operand: the forward and the backward weight stacks (five rows of 128 each),
    one above the other, rounded to bf16. -/
def WW1 (w1f w1b : (⟨S5x1x128, .f32⟩ : BufTy).Contents (Elt F)) : (⟨S10x128, .bf16⟩ : BufTy).Contents (Elt F) :=
  truncf .bf16
    (concatenate S10x128 0
      [⟨S5x128, shapeCast S5x128 w1f shapeCasts_S5x1x128_S5x128⟩, ⟨S5x128, shapeCast S5x128 w1b shapeCasts_S5x1x128_S5x128⟩]
      concatenates_S5x128_S5x128_S10x128_d0)
    bitsLt_bf16_f32

/-- The first convolution's bias: the sum of the two directions' biases, as one row. -/
def B1 (b1f b1b : (⟨S128, .f32⟩ : BufTy).Contents (Elt F)) : (⟨S1x128, .f32⟩ : BufTy).Contents (Elt F) :=
  shapeCast S1x128 (addf b1f b1b) shapeCasts_S128_S1x128

/-- The second convolution's left operand: the Chebyshev basis T_0 … T_4 of the 128-column signal in the forward
    direction, then in the backward direction, side by side as 1280 columns, rounded to bf16. -/
def TX2g (row col : (⟨S400000, .i32⟩ : BufTy).Contents (Elt F)) (we : (⟨S400000, .f32⟩ : BufTy).Contents (Elt F))
    (h : (⟨S100000x128, .f32⟩ : BufTy).Contents (Elt F)) : (⟨S100000x1280, .bf16⟩ : BufTy).Contents (Elt F) :=
  truncf .bf16
    (concatenate S100000x1280 1
      [⟨S100000x128, t128 (F := F) col row we h 0⟩, ⟨S100000x128, t128 (F := F) col row we h 1⟩,
       ⟨S100000x128, t128 (F := F) col row we h 2⟩, ⟨S100000x128, t128 (F := F) col row we h 3⟩,
       ⟨S100000x128, t128 (F := F) col row we h 4⟩,
       ⟨S100000x128, t128 (F := F) row col we h 0⟩, ⟨S100000x128, t128 (F := F) row col we h 1⟩,
       ⟨S100000x128, t128 (F := F) row col we h 2⟩, ⟨S100000x128, t128 (F := F) row col we h 3⟩,
       ⟨S100000x128, t128 (F := F) row col we h 4⟩]
      concatenates_S100000x128_S100000x128_S100000x128_S100000x128_S100000x128_S100000x128_S100000x128_S100000x128_S100000x128_S100000x128_S100000x1280_d1)
    bitsLt_bf16_f32

/-- The second convolution's right operand: the forward and the backward weight stacks (each five blocks of
    128 rows flattened to 640 rows of 512), one above the other, rounded to bf16. -/
def WW2 (w2f w2b : (⟨S5x128x512, .f32⟩ : BufTy).Contents (Elt F)) : (⟨S1280x512, .bf16⟩ : BufTy).Contents (Elt F) :=
  truncf .bf16
    (concatenate S1280x512 0
      [⟨S640x512, shapeCast S640x512 w2f shapeCasts_S5x128x512_S640x512⟩, ⟨S640x512, shapeCast S640x512 w2b shapeCasts_S5x128x512_S640x512⟩]
      concatenates_S640x512_S640x512_S1280x512_d0)
    bitsLt_bf16_f32

/-- The second convolution's bias: the sum of the two directions' biases, as one row. -/
def B2 (b2f b2b : (⟨S512, .f32⟩ : BufTy).Contents (Elt F)) : (⟨S1x512, .f32⟩ : BufTy).Contents (Elt F) :=
  shapeCast S1x512 (addf b2f b2b) shapeCasts_S512_S1x512

/-- The nodes' graph numbers as a column. -/
def B32 (batch : (⟨S100000, .i32⟩ : BufTy).Contents (Elt F)) : (⟨S100000x1, .i32⟩ : BufTy).Contents (Elt F) :=
  shapeCast S100000x1 batch shapeCasts_S100000_S100000x1

/-- The per-graph node count (one added per node at its graph's number), floored at 1, repeated along the 512
    feature columns. -/
def cnt (batch : (⟨S100000, .i32⟩ : BufTy).Contents (Elt F)) : (⟨S64x512, .f32⟩ : BufTy).Contents (Elt F) :=
  broadcastInDim S64x512 ![0, 1] bcast_S64x1_S64x512_0_1
    (broadcastInDim S64x1 ![0] bcast_S64_S64x1_0
      (maximumf
        (Host.scatterAdd scatter_S64_S100000x1_S100000_n_0_0_1
          (broadcastInDim S64 ![] bcast_S_S64 (constant S_ .f32 0x00000000#32))
          (broadcastInDim S100000x1 ![0] bcast_S100000_S100000x1_0 batch)
          (broadcastInDim S100000 ![] bcast_S_S100000 (constant S_ .f32 0x3F800000#32)))
        (broadcastInDim S64 ![] bcast_S_S64 (constant S_ .f32 0x3F800000#32))))

/-- The mean pooling's last step: the per-graph sums divided by the floored node counts. -/
def FinK (pooled : (⟨S64x512, .f32⟩ : BufTy).Contents (Elt F)) (batch : (⟨S100000, .i32⟩ : BufTy).Contents (Elt F)) :
    (⟨S64x512, .f32⟩ : BufTy).Contents (Elt F) :=
  Host.divf pooled (cnt (F := F) batch)

end Cert.Spec

end
-- ==== Proof.KI.HostVal.lean ====
/-
  What the idealized kernel program's host stretches compute, buffer by buffer: after the operations before the first
  kernel call the three operands that call reads (the ten Chebyshev basis columns of the node signal rounded to bf16,
  the stacked weights, the summed bias) and the edge arrays kept for later (the edges' row and column nodes, the edge
  weight); after the operations between the two calls the second call's three operands and the graph-number column;
  after the operations behind the second call the pooled sums divided by the node counts. Each is the shared
  vocabulary's term of the arguments, by unfolding the operations one at a time.
-/
import proofs.«428271_j37306085933536_1_alg».proof.Proof.KI.HostKeep
import proofs.«428271_j37306085933536_1_alg».proof.Proof.Spec.KSide
import Idealize.ShloMosaic.Lib.Pipeline.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.ShloMosaic.Pipeline

variable {F : FTy → Type} [FloatOps F]
variable (V : Valuation τ sig (Elt F))

/-! ## Before the first kernel call -/

set_option maxHeartbeats 1000000 in
/-- The edges' row nodes: the edge list's first row. -/
theorem pre_v1 : StableHlo.after hostOps0_2 (StableHlo.after hostOps0_1 (StableHlo.after hostOps0 V)) (Proc.devRef .tc main_v1) = Cert.Spec.rowI (F := F) (V (Proc.devRef .tc main_arg1)) := by chain_rfl
set_option maxHeartbeats 1000000 in
/-- The edges' column nodes: the edge list's second row. -/
theorem pre_v3 : StableHlo.after hostOps0_2 (StableHlo.after hostOps0_1 (StableHlo.after hostOps0 V)) (Proc.devRef .tc main_v3) = Cert.Spec.colI (F := F) (V (Proc.devRef .tc main_arg1)) := by chain_rfl
set_option maxHeartbeats 1000000 in
/-- The edge weight. -/
theorem pre_v31 : StableHlo.after hostOps0_2 (StableHlo.after hostOps0_1 (StableHlo.after hostOps0 V)) (Proc.devRef .tc main_v31) = Cert.Spec.wEdge (F := F) (V (Proc.devRef .tc main_arg1)) := by chain_rfl
set_option maxHeartbeats 1000000 in
/-- The first call's left operand: the forward and the backward Chebyshev basis of the node signal, ten columns, rounded to bf16. -/
theorem pre_v171 : StableHlo.after hostOps0_2 (StableHlo.after hostOps0_1 (StableHlo.after hostOps0 V)) (Proc.devRef .tc main_v171) = Cert.Spec.TX1g (F := F) (Cert.Spec.rowI (F := F) (V (Proc.devRef .tc main_arg1))) (Cert.Spec.colI (F := F) (V (Proc.devRef .tc main_arg1))) (Cert.Spec.wEdge (F := F) (V (Proc.devRef .tc main_arg1))) (V (Proc.devRef .tc main_arg0)) := by chain_rfl
set_option maxHeartbeats 1000000 in
/-- The first call's right operand: the two weight stacks, one above the other, rounded to bf16. -/
theorem pre_v175 : StableHlo.after hostOps0_2 (StableHlo.after hostOps0_1 (StableHlo.after hostOps0 V)) (Proc.devRef .tc main_v175) = Cert.Spec.WW1 (F := F) (V (Proc.devRef .tc main_arg3)) (V (Proc.devRef .tc main_arg5)) := by chain_rfl
set_option maxHeartbeats 1000000 in
/-- The first call's bias row: the two biases' sum. -/
theorem pre_v177 : StableHlo.after hostOps0_2 (StableHlo.after hostOps0_1 (StableHlo.after hostOps0 V)) (Proc.devRef .tc main_v177) = Cert.Spec.B1 (F := F) (V (Proc.devRef .tc main_arg4)) (V (Proc.devRef .tc main_arg6)) := by chain_rfl

/-! ## Between the two kernel calls -/

set_option maxHeartbeats 1000000 in
/-- The second call's left operand: the forward and the backward Chebyshev basis of the hidden activations, 1280 columns, rounded to bf16. -/
theorem mid_v326 : StableHlo.after hostOps1 V (Proc.devRef .tc main_v326) = Cert.Spec.TX2g (F := F) (V (Proc.devRef .tc main_v1)) (V (Proc.devRef .tc main_v3)) (V (Proc.devRef .tc main_v31)) (V (Proc.devRef .tc main_v178)) := by chain_rfl
set_option maxHeartbeats 1000000 in
/-- The second call's right operand: the two weight stacks flattened, one above the other, rounded to bf16. -/
theorem mid_v330 : StableHlo.after hostOps1 V (Proc.devRef .tc main_v330) = Cert.Spec.WW2 (F := F) (V (Proc.devRef .tc main_arg7)) (V (Proc.devRef .tc main_arg9)) := by chain_rfl
set_option maxHeartbeats 1000000 in
/-- The second call's bias row: the two biases' sum. -/
theorem mid_v332 : StableHlo.after hostOps1 V (Proc.devRef .tc main_v332) = Cert.Spec.B2 (F := F) (V (Proc.devRef .tc main_arg8)) (V (Proc.devRef .tc main_arg10)) := by chain_rfl
set_option maxHeartbeats 1000000 in
/-- The nodes' graph numbers as a column. -/
theorem mid_v333 : StableHlo.after hostOps1 V (Proc.devRef .tc main_v333) = Cert.Spec.B32 (F := F) (V (Proc.devRef .tc main_arg2)) := by chain_rfl

/-! ## After the second kernel call -/

set_option maxHeartbeats 1000000 in
/-- The result: the pooled sums divided by the floored per-graph node counts. -/
theorem post_v343 : StableHlo.after hostOps2 V (Proc.devRef .tc main_v343) = Cert.Spec.FinK (F := F) (V (Proc.devRef .tc main_v334)) (V (Proc.devRef .tc main_arg2)) := by chain_rfl

end Cert.KernelIdeal.Hand

end
-- ==== Proof.Spec.Closed.lean ====
/-
  The two kernel regions' results as whole arrays over the extended reals.
  Layer 1: row n, feature h of the first region's output is  max(∑_{j<10} TX[n,j] * WW[j,h] + b[0,h], 0).
  Layer 2 with the pooling: entry (g, c) of the second region's output is the sum over ALL 100000 nodes n of
  [batch n = g] * max(∑_{j<1280} TX[n,j] * WW[j,c] + b[0,c], 0): the node's activation counted in its graph's row.
-/
import proofs.«428271_j37306085933536_1_alg».proof.Proof.Gen.KernelIdeal
import Idealize.ShloMosaic.Lib.ValueIdx
import Idealize.ShloMosaic.PureOps.Ideal

noncomputable section

namespace Cert.Spec

open Idealize.ShloMosaic Idealize.ShloMosaic.ValueIdx Cert.KernelIdeal Cert.KernelIdeal.Gen

/-- Layer 1's activation at node `n`, feature `h`. -/
def H1e (tx1 : (⟨S100000x10, .bf16⟩ : BufTy).Contents (Elt Ideal)) (ww1 : (⟨S10x128, .bf16⟩ : BufTy).Contents (Elt Ideal))
    (b1 : (⟨S1x128, .f32⟩ : BufTy).Contents (Elt Ideal)) (n : Fin 100000) (h : Fin 128) : EReal :=
  max ((∑ j : Fin 10, tx1 (ix2 n j) * ww1 (ix2 j h)) + b1 (ix2 (0 : Fin 1) h)) 0

/-- Layer 1's activations as an array. -/
def H1c (tx1 : (⟨S100000x10, .bf16⟩ : BufTy).Contents (Elt Ideal)) (ww1 : (⟨S10x128, .bf16⟩ : BufTy).Contents (Elt Ideal))
    (b1 : (⟨S1x128, .f32⟩ : BufTy).Contents (Elt Ideal)) : (⟨S100000x128, .f32⟩ : BufTy).Contents (Elt Ideal) :=
  fun i => H1e tx1 ww1 b1 ⟨(i 0).val, (i 0).isLt⟩ ⟨(i 1).val, (i 1).isLt⟩

theorem H1c_ix2 (tx1 : (⟨S100000x10, .bf16⟩ : BufTy).Contents (Elt Ideal)) (ww1 : (⟨S10x128, .bf16⟩ : BufTy).Contents (Elt Ideal))
    (b1 : (⟨S1x128, .f32⟩ : BufTy).Contents (Elt Ideal)) (n : Fin 100000) (h : Fin 128) :
    H1c tx1 ww1 b1 (ix2 n h) = H1e tx1 ww1 b1 n h := rfl

/-- Layer 2's activation at node `n`, feature `c`. -/
def H2e (tx2 : (⟨S100000x1280, .bf16⟩ : BufTy).Contents (Elt Ideal)) (ww2 : (⟨S1280x512, .bf16⟩ : BufTy).Contents (Elt Ideal))
    (b2 : (⟨S1x512, .f32⟩ : BufTy).Contents (Elt Ideal)) (n : Fin 100000) (c : Fin 512) : EReal :=
  max ((∑ j : Fin 1280, tx2 (ix2 n j) * ww2 (ix2 j c)) + b2 (ix2 (0 : Fin 1) c)) 0

/-- The pooled sum at graph `g`, feature `c`: every node's activation times the indicator that its graph number is `g`. -/
def Poole (tx2 : (⟨S100000x1280, .bf16⟩ : BufTy).Contents (Elt Ideal)) (ww2 : (⟨S1280x512, .bf16⟩ : BufTy).Contents (Elt Ideal))
    (b2 : (⟨S1x512, .f32⟩ : BufTy).Contents (Elt Ideal)) (b32 : (⟨S100000x1, .i32⟩ : BufTy).Contents (Elt Ideal))
    (g : Fin 64) (c : Fin 512) : EReal :=
  ∑ n : Fin 100000, (if b32 (ix2 n (0 : Fin 1)) = BitVec.ofNat 32 g.val then (1 : EReal) else 0) * H2e tx2 ww2 b2 n c

/-- The pooled sums as an array. -/
def Poolc (tx2 : (⟨S100000x1280, .bf16⟩ : BufTy).Contents (Elt Ideal)) (ww2 : (⟨S1280x512, .bf16⟩ : BufTy).Contents (Elt Ideal))
    (b2 : (⟨S1x512, .f32⟩ : BufTy).Contents (Elt Ideal)) (b32 : (⟨S100000x1, .i32⟩ : BufTy).Contents (Elt Ideal)) :
    (⟨S64x512, .f32⟩ : BufTy).Contents (Elt Ideal) :=
  fun i => Poole tx2 ww2 b2 b32 ⟨(i 0).val, (i 0).isLt⟩ ⟨(i 1).val, (i 1).isLt⟩

theorem Poolc_ix2 (tx2 : (⟨S100000x1280, .bf16⟩ : BufTy).Contents (Elt Ideal)) (ww2 : (⟨S1280x512, .bf16⟩ : BufTy).Contents (Elt Ideal))
    (b2 : (⟨S1x512, .f32⟩ : BufTy).Contents (Elt Ideal)) (b32 : (⟨S100000x1, .i32⟩ : BufTy).Contents (Elt Ideal)) (g : Fin 64) (c : Fin 512) :
    Poolc tx2 ww2 b2 b32 (ix2 g c) = Poole tx2 ww2 b2 b32 g c := rfl

end Cert.Spec

end
-- ==== Proof.KI.Pool.lean ====
/-
  The second region's payloads read at one entry, over the extended reals. The accumulate payload adds to the running
  entry (g, c) the sum over the tile's 2000 rows r of  [id r = g] * max(∑_{j<1280} x[r,j] * w[j,c] + b[0,c], 0):
  the first product with the bias and the clamp is the row's activation, the second product, which contracts the row
  axis of the one-hot matrix [id r = column] against the activations, counts it in its graph's row. The reset payload
  is zero. Fifty tiles chained from the reset give the sum over all tiles.
-/
import proofs.«428271_j37306085933536_1_alg».proof.Proof.Gen.KernelIdeal.Skeleton
import proofs.«428271_j37306085933536_1_alg».proof.Proof.Spec.Closed
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen
open Idealize.ShloMosaic Idealize.ShloMosaic.ValueIdx
open scoped BigOperators

/-! ## Small readings at an index -/

/-- An integer comparison at an index compares the words. -/
theorem cmpi_apply {s : Shape} {w : ℕ} (p : CmpIPredicate) (a b : IVec s w) (i : s.Idx) :
    cmpi p a b i = IntOp.cmpi p (a i) (b i) := rfl

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The equality bit of two words, widened and read as a signed integer, is 1 where they are equal and 0 elsewhere. -/
theorem onehot_word (a b : BitVec 32) :
    (FloatOps.sitofp (F := Ideal) .f32 ((IntOp.cmpi .eq a b).setWidth 32) : EReal) = if a = b then (1 : EReal) else 0 := by
  show ((((IntOp.cmpi .eq a b).setWidth 32 : BitVec 32).toInt : ℝ) : EReal) = _
  by_cases h : a = b
  · subst h
    have e : IntOp.cmpi .eq a a = 1#1 := by simp [IntOp.cmpi]
    rw [e, if_pos rfl]
    have e2 : ((1#1 : BitVec 1).setWidth 32 : BitVec 32).toInt = 1 := by decide
    rw [e2]; simp
  · have hb : (a == b) = false := beq_eq_false_iff_ne.mpr h
    have e : IntOp.cmpi .eq a b = 0#1 := by simp [IntOp.cmpi, hb]
    rw [e, if_neg h]
    have e2 : ((0#1 : BitVec 1).setWidth 32 : BitVec 32).toInt = 0 := by decide
    rw [e2]; simp

/-! ## The first product: a row of the tile against a column of the weights -/

theorem lhsA_0 (i : S2000x512.Idx) (q : dot_S2000x1280_S1280x512_S2000x512_1_0_0_1_n_n.contr.Idx) :
    (dot_S2000x1280_S1280x512_S2000x512_1_0_0_1_n_n.lhsIdx i q 0).val = (i 0).val := by
  unfold DotDims.lhsIdx
  rw [dif_neg (show ¬(0 : Fin S2000x1280.rank) ∈ dot_S2000x1280_S1280x512_S2000x512_1_0_0_1_n_n.lhsBatch by decide), dif_pos (show (0 : Fin S2000x1280.rank) ∈ dot_S2000x1280_S1280x512_S2000x512_1_0_0_1_n_n.lhsNonContracting by decide)]
  rfl
theorem lhsA_1 (i : S2000x512.Idx) (q : dot_S2000x1280_S1280x512_S2000x512_1_0_0_1_n_n.contr.Idx) :
    (dot_S2000x1280_S1280x512_S2000x512_1_0_0_1_n_n.lhsIdx i q 1).val = (q ⟨0, by decide⟩).val :=
  dot_S2000x1280_S1280x512_S2000x512_1_0_0_1_n_n.lhsIdx_val_of_single rfl i q
theorem rhsA_0 (i : S2000x512.Idx) (q : dot_S2000x1280_S1280x512_S2000x512_1_0_0_1_n_n.contr.Idx) :
    (dot_S2000x1280_S1280x512_S2000x512_1_0_0_1_n_n.rhsIdx i q 0).val = (q ⟨0, by decide⟩).val :=
  dot_S2000x1280_S1280x512_S2000x512_1_0_0_1_n_n.rhsIdx_val_of_single rfl i q
theorem rhsA_1 (i : S2000x512.Idx) (q : dot_S2000x1280_S1280x512_S2000x512_1_0_0_1_n_n.contr.Idx) :
    (dot_S2000x1280_S1280x512_S2000x512_1_0_0_1_n_n.rhsIdx i q 1).val = (i 1).val := by
  unfold DotDims.rhsIdx
  rw [dif_neg (show ¬(1 : Fin S1280x512.rank) ∈ dot_S2000x1280_S1280x512_S2000x512_1_0_0_1_n_n.rhsBatch by decide), dif_pos (show (1 : Fin S1280x512.rank) ∈ dot_S2000x1280_S1280x512_S2000x512_1_0_0_1_n_n.rhsNonContracting by decide)]
  rfl

/-- The first product into the zero splat, at (r, c): the sum over the 1280 features. -/
theorem matmulA_apply (A : FVec Ideal S2000x1280 .bf16) (B : FVec Ideal S1280x512 .bf16) (r : Fin 2000) (c : Fin 512) :
    matmul dot_S2000x1280_S1280x512_S2000x512_1_0_0_1_n_n none A B (constant (F := Ideal) S2000x512 .f32 0x00000000#32) (ix2 r c)
      = ∑ j : Fin 1280, A (ix2 r j) * B (ix2 j c) := by
  simp only [matmul]
  rw [Ideal.matmul_constant_zero_apply, ← Equiv.sum_comp (contrEquiv1 dot_S2000x1280_S1280x512_S2000x512_1_0_0_1_n_n 1280 rfl rfl).symm]
  refine Finset.sum_congr rfl fun k _ => ?_
  have hk := contrEquiv1_symm_val dot_S2000x1280_S1280x512_S2000x512_1_0_0_1_n_n 1280 rfl rfl k
  have el : dot_S2000x1280_S1280x512_S2000x512_1_0_0_1_n_n.lhsIdx (ix2 r c) ((contrEquiv1 dot_S2000x1280_S1280x512_S2000x512_1_0_0_1_n_n 1280 rfl rfl).symm k) = ix2 r k := funext fun a => Fin.ext (by
    match a with
    | ⟨0, _⟩ => exact lhsA_0 _ _
    | ⟨1, _⟩ => exact (lhsA_1 _ _).trans hk)
  have er : dot_S2000x1280_S1280x512_S2000x512_1_0_0_1_n_n.rhsIdx (ix2 r c) ((contrEquiv1 dot_S2000x1280_S1280x512_S2000x512_1_0_0_1_n_n 1280 rfl rfl).symm k) = ix2 k c := funext fun a => Fin.ext (by
    match a with
    | ⟨0, _⟩ => exact (rhsA_0 _ _).trans hk
    | ⟨1, _⟩ => exact rhsA_1 _ _)
  rw [el, er]

/-! ## The second product: the one-hot matrix's column g against the activations' column c, over the rows -/

theorem lhsB_0 (i : S64x512.Idx) (q : dot_S2000x64_S2000x512_S64x512_0_0_1_1_n_n.contr.Idx) :
    (dot_S2000x64_S2000x512_S64x512_0_0_1_1_n_n.lhsIdx i q 0).val = (q ⟨0, by decide⟩).val :=
  dot_S2000x64_S2000x512_S64x512_0_0_1_1_n_n.lhsIdx_val_of_single rfl i q
theorem lhsB_1 (i : S64x512.Idx) (q : dot_S2000x64_S2000x512_S64x512_0_0_1_1_n_n.contr.Idx) :
    (dot_S2000x64_S2000x512_S64x512_0_0_1_1_n_n.lhsIdx i q 1).val = (i 0).val := by
  unfold DotDims.lhsIdx
  rw [dif_neg (show ¬(1 : Fin S2000x64.rank) ∈ dot_S2000x64_S2000x512_S64x512_0_0_1_1_n_n.lhsBatch by decide), dif_pos (show (1 : Fin S2000x64.rank) ∈ dot_S2000x64_S2000x512_S64x512_0_0_1_1_n_n.lhsNonContracting by decide)]
  rfl
theorem rhsB_0 (i : S64x512.Idx) (q : dot_S2000x64_S2000x512_S64x512_0_0_1_1_n_n.contr.Idx) :
    (dot_S2000x64_S2000x512_S64x512_0_0_1_1_n_n.rhsIdx i q 0).val = (q ⟨0, by decide⟩).val :=
  dot_S2000x64_S2000x512_S64x512_0_0_1_1_n_n.rhsIdx_val_of_single rfl i q
theorem rhsB_1 (i : S64x512.Idx) (q : dot_S2000x64_S2000x512_S64x512_0_0_1_1_n_n.contr.Idx) :
    (dot_S2000x64_S2000x512_S64x512_0_0_1_1_n_n.rhsIdx i q 1).val = (i 1).val := by
  unfold DotDims.rhsIdx
  rw [dif_neg (show ¬(1 : Fin S2000x512.rank) ∈ dot_S2000x64_S2000x512_S64x512_0_0_1_1_n_n.rhsBatch by decide), dif_pos (show (1 : Fin S2000x512.rank) ∈ dot_S2000x64_S2000x512_S64x512_0_0_1_1_n_n.rhsNonContracting by decide)]
  rfl

/-- The second product into the zero splat, at (g, c): the sum over the 2000 rows. -/
theorem matmulB_apply (A : FVec Ideal S2000x64 .bf16) (B : FVec Ideal S2000x512 .bf16) (g : Fin 64) (c : Fin 512) :
    matmul dot_S2000x64_S2000x512_S64x512_0_0_1_1_n_n none A B (constant (F := Ideal) S64x512 .f32 0x00000000#32) (ix2 g c)
      = ∑ r : Fin 2000, A (ix2 r g) * B (ix2 r c) := by
  simp only [matmul]
  rw [Ideal.matmul_constant_zero_apply, ← Equiv.sum_comp (contrEquiv1 dot_S2000x64_S2000x512_S64x512_0_0_1_1_n_n 2000 rfl rfl).symm]
  refine Finset.sum_congr rfl fun k _ => ?_
  have hk := contrEquiv1_symm_val dot_S2000x64_S2000x512_S64x512_0_0_1_1_n_n 2000 rfl rfl k
  have el : dot_S2000x64_S2000x512_S64x512_0_0_1_1_n_n.lhsIdx (ix2 g c) ((contrEquiv1 dot_S2000x64_S2000x512_S64x512_0_0_1_1_n_n 2000 rfl rfl).symm k) = ix2 k g := funext fun a => Fin.ext (by
    match a with
    | ⟨0, _⟩ => exact (lhsB_0 _ _).trans hk
    | ⟨1, _⟩ => exact lhsB_1 _ _)
  have er : dot_S2000x64_S2000x512_S64x512_0_0_1_1_n_n.rhsIdx (ix2 g c) ((contrEquiv1 dot_S2000x64_S2000x512_S64x512_0_0_1_1_n_n 2000 rfl rfl).symm k) = ix2 k c := funext fun a => Fin.ext (by
    match a with
    | ⟨0, _⟩ => exact (rhsB_0 _ _).trans hk
    | ⟨1, _⟩ => exact rhsB_1 _ _)
  rw [el, er]

/-! ## The payloads at an entry -/

/-- One tile's addend at (g, c): over its rows, the indicator that the row's graph number is g times the row's
    activation at feature c. -/
def tileSum (x : Vec Ideal S2000x1280 .bf16) (w : Vec Ideal S1280x512 .bf16) (b : Vec Ideal S1x512 .f32)
    (ids : Vec Ideal S2000x1 .i32) (g : Fin 64) (c : Fin 512) : EReal :=
  ∑ r : Fin 2000, (if ids (ix2 r (0 : Fin 1)) = BitVec.ofNat 32 g.val then (1 : EReal) else 0)
    * max ((∑ j : Fin 1280, x (ix2 r j) * w (ix2 j c)) + b (ix2 (0 : Fin 1) c)) 0

/-- The reset payload is zero everywhere. -/
theorem k1_pay1_apply (g : Fin 64) (c : Fin 512) : Gen.k1_pay1 (F := Ideal) (ix2 g c) = 0 := by
  unfold Gen.k1_pay1
  simp only [shapeCast_self]
  exact Ideal.ofBits_zero_f32

/-- The accumulate payload at (g, c): the running entry plus the tile's addend. -/
theorem k1_pay2_tile (x : Vec Ideal S2000x1280 .bf16) (w : Vec Ideal S1280x512 .bf16) (b : Vec Ideal S1x512 .f32)
    (ids : Vec Ideal S2000x1 .i32) (acc : Vec Ideal S64x512 .f32) (g : Fin 64) (c : Fin 512) :
    Gen.k1_pay2 (F := Ideal) x w b ids acc (ix2 g c) = acc (ix2 g c) + tileSum x w b ids g c := by
  unfold Gen.k1_pay2 tileSum
  simp only [shapeCast_self]
  rw [addf_apply, matmulB_apply]
  refine congrArg (acc (ix2 g c) + ·) (Finset.sum_congr rfl fun r _ => ?_)
  rw [truncf_apply, truncf_apply, sitofp_apply, extui_apply, cmpi_apply, maximumf_apply, addf_apply, broadcast_apply,
    matmulA_apply, broadcastTo_1b_ab_apply, broadcastTo_a1_ab_apply, iota_single_apply, onehot_word]
  show _ * max _ (Ideal.ofBits .f32 0x00000000#32) = _
  rw [Ideal.ofBits_zero_f32]

theorem k1_pay2_apply (x : Vec Ideal S2000x1280 .bf16) (w : Vec Ideal S1280x512 .bf16) (b : Vec Ideal S1x512 .f32)
    (ids : Vec Ideal S2000x1 .i32) (acc : Vec Ideal S64x512 .f32) (g : Fin 64) (c : Fin 512) :
    Gen.k1_pay2 (F := Ideal) x w b ids acc (ix2 g c) = acc (ix2 g c)
      + ∑ r : Fin 2000, (if ids (ix2 r (0 : Fin 1)) = BitVec.ofNat 32 g.val then (1 : EReal) else 0)
        * max ((∑ j : Fin 1280, x (ix2 r j) * w (ix2 j c)) + b (ix2 (0 : Fin 1) c)) 0 :=
  k1_pay2_tile x w b ids acc g c

/-! ## Fifty tiles from the reset -/

theorem acc_total (xs : Fin 50 → Vec Ideal S2000x1280 .bf16) (w : Vec Ideal S1280x512 .bf16) (b : Vec Ideal S1x512 .f32)
    (idss : Fin 50 → Vec Ideal S2000x1 .i32) (acc : (n : ℕ) → n < 50 → Vec Ideal S64x512 .f32)
    (h0 : acc 0 (by decide) = Gen.k1_pay2 (xs 0) w b (idss 0) (Gen.k1_pay1 (F := Ideal)))
    (hs : ∀ n (h : n + 1 < 50), acc (n + 1) h = Gen.k1_pay2 (xs ⟨n + 1, h⟩) w b (idss ⟨n + 1, h⟩) (acc n (Nat.lt_of_succ_lt h)))
    (g : Fin 64) (c : Fin 512) :
    acc 49 (by decide) (ix2 g c) = ∑ t : Fin 50, ∑ r : Fin 2000,
      (if idss t (ix2 r (0 : Fin 1)) = BitVec.ofNat 32 g.val then (1 : EReal) else 0)
        * max ((∑ j : Fin 1280, xs t (ix2 r j) * w (ix2 j c)) + b (ix2 (0 : Fin 1) c)) 0 := by
  have key : ∀ n (h : n < 50), acc n h (ix2 g c)
      = ∑ t : Fin (n + 1), tileSum (xs ⟨t.val, Nat.lt_of_lt_of_le t.isLt h⟩) w b (idss ⟨t.val, Nat.lt_of_lt_of_le t.isLt h⟩) g c := by
    intro n
    induction n with
    | zero =>
      intro h
      rw [h0, k1_pay2_tile, k1_pay1_apply, zero_add, Fin.sum_univ_one]
      rfl
    | succ n ih =>
      intro h
      rw [hs n h, k1_pay2_tile, ih (Nat.lt_of_succ_lt h), Fin.sum_univ_castSucc (n := n + 1)]
      rfl
  exact key 49 (by decide)

end Cert.KernelIdeal.HandV

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.KI.RegionVal.lean ====
/- The two pipelined regions' output arrays in closed form over the extended reals, at a parameter `V` (the
   TensorCore's buffer contents when the region is entered). First region: each point writes rows
   [10000 t, 10000 (t+1)) of the output; its payload at row r, feature h is max(∑_{j<10} x[r,j] * w[j,h] + b[0,h], 0),
   so the blocks tile the array of the first layer's activations. Second region: the accumulator after point n
   holds, at (g, c), the sum over the nodes of the first n+1 row tiles of [graph number = g] * (the second layer's
   activation at that node, feature c); after the last point that is the sum over all nodes. -/
import proofs.«428271_j37306085933536_1_alg».proof.Proof.KI.Body0
import proofs.«428271_j37306085933536_1_alg».proof.Proof.KI.Body1
import proofs.«428271_j37306085933536_1_alg».proof.Proof.KI.Pool
import proofs.«428271_j37306085933536_1_alg».proof.Proof.LibSumBlocks
import proofs.«428271_j37306085933536_1_alg».proof.Proof.Spec.Closed
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-! ## The first layer's payload read at an index -/

theorem lhs0_0 (i : S10000x128.Idx) (q : dot_S10000x10_S10x128_S10000x128_1_0_0_1_n_n.contr.Idx) :
    (dot_S10000x10_S10x128_S10000x128_1_0_0_1_n_n.lhsIdx i q 0).val = (i 0).val := by
  unfold DotDims.lhsIdx
  rw [dif_neg (show ¬(0 : Fin S10000x10.rank) ∈ dot_S10000x10_S10x128_S10000x128_1_0_0_1_n_n.lhsBatch by decide), dif_pos (show (0 : Fin S10000x10.rank) ∈ dot_S10000x10_S10x128_S10000x128_1_0_0_1_n_n.lhsNonContracting by decide)]
  rfl
theorem lhs0_1 (i : S10000x128.Idx) (q : dot_S10000x10_S10x128_S10000x128_1_0_0_1_n_n.contr.Idx) :
    (dot_S10000x10_S10x128_S10000x128_1_0_0_1_n_n.lhsIdx i q 1).val = (q ⟨0, by decide⟩).val :=
  dot_S10000x10_S10x128_S10000x128_1_0_0_1_n_n.lhsIdx_val_of_single rfl i q
theorem rhs0_0 (i : S10000x128.Idx) (q : dot_S10000x10_S10x128_S10000x128_1_0_0_1_n_n.contr.Idx) :
    (dot_S10000x10_S10x128_S10000x128_1_0_0_1_n_n.rhsIdx i q 0).val = (q ⟨0, by decide⟩).val :=
  dot_S10000x10_S10x128_S10000x128_1_0_0_1_n_n.rhsIdx_val_of_single rfl i q
theorem rhs0_1 (i : S10000x128.Idx) (q : dot_S10000x10_S10x128_S10000x128_1_0_0_1_n_n.contr.Idx) :
    (dot_S10000x10_S10x128_S10000x128_1_0_0_1_n_n.rhsIdx i q 1).val = (i 1).val := by
  unfold DotDims.rhsIdx
  rw [dif_neg (show ¬(1 : Fin S10x128.rank) ∈ dot_S10000x10_S10x128_S10000x128_1_0_0_1_n_n.rhsBatch by decide), dif_pos (show (1 : Fin S10x128.rank) ∈ dot_S10000x10_S10x128_S10000x128_1_0_0_1_n_n.rhsNonContracting by decide)]
  rfl

/-- The product into a zero accumulator, at row `r`, feature `h`: the sum over the ten contracted columns. -/
theorem mm0_apply (a : FVec Ideal S10000x10 .bf16) (b : FVec Ideal S10x128 .bf16) (r : Fin 10000) (h : Fin 128) :
    matmul dot_S10000x10_S10x128_S10000x128_1_0_0_1_n_n none a b (constant (F := Ideal) S10000x128 .f32 0x00000000#32) (ix2 r h)
      = ∑ j : Fin 10, a (ix2 r j) * b (ix2 j h) := by
  simp only [matmul]
  rw [Ideal.matmul_constant_zero_apply, ← Equiv.sum_comp (contrEquiv1 dot_S10000x10_S10x128_S10000x128_1_0_0_1_n_n 10 rfl rfl).symm]
  refine Finset.sum_congr rfl fun k _ => ?_
  have hk := contrEquiv1_symm_val dot_S10000x10_S10x128_S10000x128_1_0_0_1_n_n 10 rfl rfl k
  have el : dot_S10000x10_S10x128_S10000x128_1_0_0_1_n_n.lhsIdx (ix2 r h) ((contrEquiv1 dot_S10000x10_S10x128_S10000x128_1_0_0_1_n_n 10 rfl rfl).symm k) = ix2 r k := funext fun a => Fin.ext (by
    match a with
    | ⟨0, _⟩ => exact lhs0_0 _ _
    | ⟨1, _⟩ => exact (lhs0_1 _ _).trans hk)
  have er : dot_S10000x10_S10x128_S10000x128_1_0_0_1_n_n.rhsIdx (ix2 r h) ((contrEquiv1 dot_S10000x10_S10x128_S10000x128_1_0_0_1_n_n 10 rfl rfl).symm k) = ix2 k h := funext fun a => Fin.ext (by
    match a with
    | ⟨0, _⟩ => exact (rhs0_0 _ _).trans hk
    | ⟨1, _⟩ => exact rhs0_1 _ _)
  rw [el, er]

/-- The first layer's payload at row `r`, feature `h` of its block: the affine image clamped below at zero. -/
theorem pay0_apply (x0 : Vec Ideal S10000x10 .bf16) (x1 : Vec Ideal S10x128 .bf16) (x2 : Vec Ideal S1x128 .f32)
    (r : Fin 10000) (h : Fin 128) :
    k0_pay1 (F := Ideal) x0 x1 x2 (ix2 r h)
      = max ((∑ j : Fin 10, x0 (ix2 r j) * x1 (ix2 j h)) + x2 (ix2 (0 : Fin 1) h)) 0 := by
  unfold k0_pay1
  simp only [shapeCast_self]
  rw [maximumf_apply, addf_apply, broadcast_apply, mm0_apply, broadcastTo_1b_ab_apply]
  show max _ (Ideal.ofBits .f32 0x00000000#32) = _
  rw [Ideal.ofBits_zero_f32]

variable (V : (c : Dev nD) → (b : Ref sig .tc) → Buf (Elt Ideal) ((c : Thread nD τ).loc b))

/-! ## The first region's blocks as parts of the arrays -/

/-- The block indices over the grid: the activations' and the output's row block is the point's number, the
    weights and the bias are one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point `t` is rows `10000 t … 10000 t + 9999` of the array. -/
theorem iblk0_0_apply (c : Dev nD) (t : Fin cfg0.N) (x : S10000x10.Idx) (k : S100000x10.Idx)
    (hk0 : (k 0).val = 10000 * t.val + (x 0).val) (hk1 : (k 1).val = (x 1).val) :
    (iblk0 V c 0 t : Vec Ideal S10000x10 .bf16) x = (V c main_v171 : S100000x10.Idx → Elt Ideal .bf16) k := by
  obtain ⟨e0, e1, -⟩ := idx_facts0 t
  unfold iblk0
  rw [View.read_apply]
  show V c main_v171 _ = V c main_v171 _
  congr 1
  funext a
  apply Fin.ext
  match a with
  | ⟨0, _⟩ => show win0_0.index t 0 * 10000 + 1 * (x 0).val = (k 0).val; rw [e0, hk0]; omega
  | ⟨1, _⟩ => show win0_0.index t 1 * 10 + 1 * (x 1).val = (k 1).val; rw [e1, hk1]; omega

/-- The weights' block at any point is the whole array. -/
theorem iblk0_1_eq (c : Dev nD) (t : Fin cfg0.N) :
    (iblk0 V c 1 t : Vec Ideal S10x128 .bf16) = (V c main_v175 : S10x128.Idx → Elt Ideal .bf16) := by
  obtain ⟨-, -, e0, e1, -⟩ := idx_facts0 t
  funext x
  unfold iblk0
  rw [View.read_apply]
  show V c main_v175 _ = V c main_v175 _
  congr 1
  funext a
  apply Fin.ext
  match a with
  | ⟨0, _⟩ => show win0_1.index t 0 * 10 + 1 * (x 0).val = (x 0).val; rw [e0]; omega
  | ⟨1, _⟩ => show win0_1.index t 1 * 128 + 1 * (x 1).val = (x 1).val; rw [e1]; omega

/-- The bias row's block at any point is the whole array. -/
theorem iblk0_2_eq (c : Dev nD) (t : Fin cfg0.N) :
    (iblk0 V c 2 t : Vec Ideal S1x128 .f32) = (V c main_v177 : S1x128.Idx → Elt Ideal .f32) := by
  obtain ⟨-, -, -, -, e0, e1, -⟩ := idx_facts0 t
  funext x
  unfold iblk0
  rw [View.read_apply]
  show V c main_v177 _ = V c main_v177 _
  congr 1
  funext a
  apply Fin.ext
  match a with
  | ⟨0, _⟩ => show win0_2.index t 0 * 1 + 1 * (x 0).val = (x 0).val; rw [e0]; omega
  | ⟨1, _⟩ => show win0_2.index t 1 * 128 + 1 * (x 1).val = (x 1).val; rw [e1]; omega

/-- What point `t` writes back is block `t` of the first layer's activations as one array. -/
theorem flushed0_eq (c : Dev nD) (t : Fin cfg0.N) :
    (dat0 (F := Ideal) V c).flushed 3 t
      = ((cfg0.win 3).blk t).view.read (Elt Ideal) (Cert.Spec.H1c (V c main_v171) (V c main_v175) (V c main_v177)) := by
  show (cfg0.win 3).cut (grid0.coords t) ((dat0 (F := Ideal) V c).after 3 t) = _
  rw [after0_3, out0_3_eq]
  obtain ⟨-, -, -, -, -, -, e0, e1⟩ := idx_facts0 t
  funext y
  obtain ⟨r, h, rfl⟩ : ∃ (r : Fin 10000) (h : Fin 128), y = ix2 r h := ⟨y 0, y 1, eq_ix2 y⟩
  rw [View.read_apply]
  show k0_pay1 (F := Ideal) (iblk0 V c 0 t) (iblk0 V c 1 t) (iblk0 V c 2 t) (ix2 r h)
    = Cert.Spec.H1c (V c main_v171) (V c main_v175) (V c main_v177) (((cfg0.win 3).blk t).view.emb (ix2 r h))
  refine (pay0_apply _ _ _ r h).trans ?_
  have hr : r.val < 10000 := r.isLt
  have ht : t.val < 10 := t.isLt
  have hn : (((cfg0.win 3).blk t).view.emb (ix2 r h) 0).val = 10000 * t.val + r.val := by
    show win0_3.index t 0 * 10000 + 1 * r.val = _; rw [e0]; omega
  have hh : (((cfg0.win 3).blk t).view.emb (ix2 r h) 1).val = h.val := by
    show win0_3.index t 1 * 128 + 1 * h.val = _; rw [e1]; omega
  show _ = Cert.Spec.H1e (V c main_v171) (V c main_v175) (V c main_v177) ⟨_, _⟩ ⟨_, _⟩
  unfold Cert.Spec.H1e
  rw [iblk0_1_eq, iblk0_2_eq]
  congr 1
  congr 1
  · refine Finset.sum_congr rfl fun j _ => ?_
    rw [iblk0_0_apply V c t (ix2 r j) (ix2 ⟨_, (((cfg0.win 3).blk t).view.emb (ix2 r h) 0).isLt⟩ j) hn rfl]
    congr 2
    exact funext fun a => Fin.ext (by match a with | ⟨0, _⟩ => rfl | ⟨1, _⟩ => exact hh.symm)
  · exact congrArg (V c main_v177) (funext fun a => Fin.ext (by match a with | ⟨0, _⟩ => rfl | ⟨1, _⟩ => exact hh.symm))

/-- An index of the output array is in point `t`'s block iff each coordinate is in the block's range. -/
theorem mem_blk0 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v178).slice (win0_3.rect t)).set ↔ _
  rw [View.set_slice_whole, Rect.mem_set_unit]
  exact Iff.rfl

/-- Every row of the output array is in the block of the point `row / 10000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 10000, by rw [show cfg0.N = 10 from N_0]; omega⟩, flush0_3 _, ?_⟩
  rw [mem_blk0]
  obtain ⟨-, -, -, -, -, -, e0, e1⟩ := idx_facts0 ⟨(i 0).val / 10000, by rw [show cfg0.N = 10 from N_0]; omega⟩
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- The first region leaves its output array at the first layer's activations. -/
theorem region0_val (c : Dev nD) :
    (Cert.KernelIdeal.Hand.dat0 (F := Ideal) V c).arrAt 3 cfg0.N
      = Cert.Spec.H1c (V c main_v171) (V c main_v175) (V c main_v177) :=
  (dat0 (F := Ideal) V c).arrAt_eq_of_cover 3 (Cert.Spec.H1c (V c main_v171) (V c main_v175) (V c main_v177))
    (fun t _ => flushed0_eq V c t) cover0

/-! ## The second region's blocks as parts of the arrays -/

/-- The block indices over the grid: the node features' and the graph numbers' row block is the point's number, the
    weights and the bias are one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node features' block at point `t` is rows `2000 t … 2000 t + 1999` of the array. -/
theorem iblk1_0_apply (c : Dev nD) (t : Fin cfg1.N) (x : S2000x1280.Idx) (k : S100000x1280.Idx)
    (hk0 : (k 0).val = 2000 * t.val + (x 0).val) (hk1 : (k 1).val = (x 1).val) :
    (iblk1 V c 0 t : Vec Ideal S2000x1280 .bf16) x = (V c main_v326 : S100000x1280.Idx → Elt Ideal .bf16) k := by
  obtain ⟨e0, e1, -⟩ := idx_facts1 t
  unfold iblk1
  rw [View.read_apply]
  show V c main_v326 _ = V c main_v326 _
  congr 1
  funext a
  apply Fin.ext
  match a with
  | ⟨0, _⟩ => show win1_0.index t 0 * 2000 + 1 * (x 0).val = (k 0).val; rw [e0, hk0]; omega
  | ⟨1, _⟩ => show win1_0.index t 1 * 1280 + 1 * (x 1).val = (k 1).val; rw [e1, hk1]; omega

/-- The second layer's weights' block at any point is the whole array. -/
theorem iblk1_1_eq (c : Dev nD) (t : Fin cfg1.N) :
    (iblk1 V c 1 t : Vec Ideal S1280x512 .bf16) = (V c main_v330 : S1280x512.Idx → Elt Ideal .bf16) := by
  obtain ⟨-, -, e0, e1, -⟩ := idx_facts1 t
  funext x
  unfold iblk1
  rw [View.read_apply]
  show V c main_v330 _ = V c main_v330 _
  congr 1
  funext a
  apply Fin.ext
  match a with
  | ⟨0, _⟩ => show win1_1.index t 0 * 1280 + 1 * (x 0).val = (x 0).val; rw [e0]; omega
  | ⟨1, _⟩ => show win1_1.index t 1 * 512 + 1 * (x 1).val = (x 1).val; rw [e1]; omega

/-- The second layer's bias row's block at any point is the whole array. -/
theorem iblk1_2_eq (c : Dev nD) (t : Fin cfg1.N) :
    (iblk1 V c 2 t : Vec Ideal S1x512 .f32) = (V c main_v332 : S1x512.Idx → Elt Ideal .f32) := by
  obtain ⟨-, -, -, -, e0, e1, -⟩ := idx_facts1 t
  funext x
  unfold iblk1
  rw [View.read_apply]
  show V c main_v332 _ = V c main_v332 _
  congr 1
  funext a
  apply Fin.ext
  match a with
  | ⟨0, _⟩ => show win1_2.index t 0 * 1 + 1 * (x 0).val = (x 0).val; rw [e0]; omega
  | ⟨1, _⟩ => show win1_2.index t 1 * 512 + 1 * (x 1).val = (x 1).val; rw [e1]; omega

/-- The graph numbers' block at point `t` is rows `2000 t … 2000 t + 1999` of the column. -/
theorem iblk1_3_apply (c : Dev nD) (t : Fin cfg1.N) (x : S2000x1.Idx) (k : S100000x1.Idx)
    (hk0 : (k 0).val = 2000 * t.val + (x 0).val) (hk1 : (k 1).val = (x 1).val) :
    (iblk1 V c 3 t : Vec Ideal S2000x1 .i32) x = (V c main_v333 : S100000x1.Idx → Elt Ideal .i32) k := by
  obtain ⟨-, -, -, -, -, -, e0, e1⟩ := idx_facts1 t
  unfold iblk1
  rw [View.read_apply]
  show V c main_v333 _ = V c main_v333 _
  congr 1
  funext a
  apply Fin.ext
  match a with
  | ⟨0, _⟩ => show win1_3.index t 0 * 2000 + 1 * (x 0).val = (k 0).val; rw [e0, hk0]; omega
  | ⟨1, _⟩ => show win1_3.index t 1 * 1 + 1 * (x 1).val = (k 1).val; rw [e1, hk1]; omega

/-! ## All the nodes as fifty tiles of two thousand rows -/

/-- A sum over the 100000 nodes is the sum over the 50 row tiles of the sums over each tile's 2000 rows. -/
theorem sum_nodes_tiles {M : Type*} [AddCommMonoid M] (f : Fin 100000 → M) :
    ∑ n : Fin 100000, f n
      = ∑ t : Fin 50, ∑ r : Fin 2000, f ⟨2000 * t.val + r.val, by have := t.isLt; have := r.isLt; omega⟩ := by
  refine (Fin.sum_rowMajor2 50 2000 f).trans ?_
  refine Finset.sum_congr rfl fun t _ => Finset.sum_congr rfl fun r _ => congrArg f (Fin.ext ?_)
  show t.val * 2000 + r.val = 2000 * t.val + r.val
  omega

/-- The second region leaves its output array at the pooled sums of the second layer's activations. -/
theorem region1_val (c : Dev nD) :
    (Cert.KernelIdeal.Hand.dat1 (F := Ideal) V c).arrAt 4 cfg1.N
      = Cert.Spec.Poolc (V c main_v326) (V c main_v330) (V c main_v332) (V c main_v333) := by
  rw [arrAt1_out]
  funext i
  obtain ⟨g, c', rfl⟩ : ∃ (g : Fin 64) (c' : Fin 512), i = ix2 g c' := ⟨i 0, i 1, eq_ix2 i⟩
  rw [Cert.Spec.Poolc_ix2]
  unfold Cert.Spec.Poole
  refine (acc_total (fun t => iblk1 V c 0 t) (V c main_v330) (V c main_v332) (fun t => iblk1 V c 3 t)
    (fun n hn => acc1 V c n hn) ?_ ?_ g c').trans ?_
  · refine (acc1_zero V c _).trans ?_
    rw [iblk1_1_eq, iblk1_2_eq]
    rfl
  · intro n hn
    refine (acc1_succ V c n hn).trans ?_
    rw [iblk1_1_eq, iblk1_2_eq]
    rfl
  · rw [sum_nodes_tiles]
    refine Finset.sum_congr rfl fun t _ => Finset.sum_congr rfl fun r _ => ?_
    unfold Cert.Spec.H2e
    have hr : r.val < 2000 := r.isLt
    have ht : t.val < 50 := t.isLt
    rw [iblk1_3_apply V c t (ix2 r (0 : Fin 1)) (ix2 (⟨2000 * t.val + r.val, by omega⟩ : Fin 100000) (0 : Fin 1)) rfl rfl]
    congr 3
    refine Finset.sum_congr rfl fun j _ => ?_
    rw [iblk1_0_apply V c t (ix2 r j) (ix2 (⟨2000 * t.val + r.val, by omega⟩ : Fin 100000) j) rfl rfl]

end Cert.KernelIdeal.HandV

end
-- ==== Proof.KI.Value.lean ====
/-
  The idealized kernel's result as a function of its arguments, over the extended reals: the last boundary's contents
  at the result buffer, read back through the seven items — the last stretch divides the pooled sums by the graphs'
  node counts; the second region leaves the pooled sums of layer 2's activations of its four operand arrays; the stretch
  before it lays out layer 2's Chebyshev blocks of the first region's output; the first region leaves layer 1's
  activations; the first stretches lay out layer 1's blocks of the input signal.
-/
import proofs.«428271_j37306085933536_1_alg».proof.Proof.KI.Run
import proofs.«428271_j37306085933536_1_alg».proof.Proof.KI.HostVal
import proofs.«428271_j37306085933536_1_alg».proof.Proof.KI.RegionVal

set_option maxRecDepth 16384

noncomputable section

namespace Cert.KernelIdeal.HandV

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (ρ : Dev nD → PrngReg)

/-- The kernel's result as a function of the eleven argument arrays. -/
def KRes (x : (⟨S100000x1, .f32⟩ : BufTy).Contents (Elt Ideal)) (ei : (⟨S2x400000, .i32⟩ : BufTy).Contents (Elt Ideal))
    (batch : (⟨S100000, .i32⟩ : BufTy).Contents (Elt Ideal))
    (w1f : (⟨S5x1x128, .f32⟩ : BufTy).Contents (Elt Ideal)) (b1f : (⟨S128, .f32⟩ : BufTy).Contents (Elt Ideal))
    (w1b : (⟨S5x1x128, .f32⟩ : BufTy).Contents (Elt Ideal)) (b1b : (⟨S128, .f32⟩ : BufTy).Contents (Elt Ideal))
    (w2f : (⟨S5x128x512, .f32⟩ : BufTy).Contents (Elt Ideal)) (b2f : (⟨S512, .f32⟩ : BufTy).Contents (Elt Ideal))
    (w2b : (⟨S5x128x512, .f32⟩ : BufTy).Contents (Elt Ideal)) (b2b : (⟨S512, .f32⟩ : BufTy).Contents (Elt Ideal)) :
    (⟨S64x512, .f32⟩ : BufTy).Contents (Elt Ideal) :=
  Cert.Spec.FinK (F := Ideal)
    (Cert.Spec.Poolc
      (Cert.Spec.TX2g (F := Ideal) (Cert.Spec.rowI ei) (Cert.Spec.colI ei) (Cert.Spec.wEdge (F := Ideal) ei)
        (Cert.Spec.H1c (Cert.Spec.TX1g (F := Ideal) (Cert.Spec.rowI ei) (Cert.Spec.colI ei) (Cert.Spec.wEdge (F := Ideal) ei) x)
          (Cert.Spec.WW1 (F := Ideal) w1f w1b) (Cert.Spec.B1 (F := Ideal) b1f b1b)))
      (Cert.Spec.WW2 (F := Ideal) w2f w2b) (Cert.Spec.B2 (F := Ideal) b2f b2b) (Cert.Spec.B32 (F := Ideal) batch))
    batch

/-- The first region's output array after the region: layer 1's activations. -/
theorem W4_v178 (c : Dev nD) : W4 m ρ c (Proc.devRef .tc main_v178)
    = Cert.Spec.H1c (Cert.Spec.TX1g (F := Ideal) (Cert.Spec.rowI (m ((c : Thread nD τ).loc main_arg1))) (Cert.Spec.colI (m ((c : Thread nD τ).loc main_arg1))) (Cert.Spec.wEdge (F := Ideal) (m ((c : Thread nD τ).loc main_arg1))) (m ((c : Thread nD τ).loc main_arg0)))
        (Cert.Spec.WW1 (F := Ideal) (m ((c : Thread nD τ).loc main_arg3)) (m ((c : Thread nD τ).loc main_arg5)))
        (Cert.Spec.B1 (F := Ideal) (m ((c : Thread nD τ).loc main_arg4)) (m ((c : Thread nD τ).loc main_arg6))) := by
  refine (W4_arr m ρ c 3).trans ?_
  refine (region0_val (V3 m ρ) c).trans ?_
  show Cert.Spec.H1c (W3 m ρ c (Proc.devRef .tc main_v171)) (W3 m ρ c (Proc.devRef .tc main_v175)) (W3 m ρ c (Proc.devRef .tc main_v177)) = _
  rw [show W3 m ρ c (Proc.devRef .tc main_v171) = _ from pre_v171 (W0 m ρ c),
    show W3 m ρ c (Proc.devRef .tc main_v175) = _ from pre_v175 (W0 m ρ c),
    show W3 m ρ c (Proc.devRef .tc main_v177) = _ from pre_v177 (W0 m ρ c)]

/-- The result buffer at the return. -/
theorem W7_v343 (c : Dev nD) : W7 m ρ c (Proc.devRef .tc main_v343)
    = KRes (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (post_v343 (W6 m ρ c)).trans ?_
  have h334 : W6 m ρ c (Proc.devRef .tc main_v334)
      = Cert.Spec.Poolc (W5 m ρ c (Proc.devRef .tc main_v326)) (W5 m ρ c (Proc.devRef .tc main_v330)) (W5 m ρ c (Proc.devRef .tc main_v332)) (W5 m ρ c (Proc.devRef .tc main_v333)) :=
    (W6_arr m ρ c 4).trans (region1_val (V5 m ρ) c)
  have harg2 : W6 m ρ c (Proc.devRef .tc main_arg2) = m ((c : Thread nD τ).loc main_arg2) :=
    (W6_of_ne m ρ c main_arg2 (by decide)).trans <| (mid_arg2 (W4 m ρ c)).trans <|
      (W4_of_ne m ρ c main_arg2 (by decide)).trans <| (pre_arg2 (W0 m ρ c)).trans rfl
  have h4 : ∀ (b : Ref sig .tc) (hb : ∀ w, Pipeline.arrRef spec0 w ≠ b), W4 m ρ c (Proc.devRef .tc b) = W3 m ρ c (Proc.devRef .tc b) :=
    fun b hb => W4_of_ne m ρ c b hb
  rw [h334, harg2,
    show W5 m ρ c (Proc.devRef .tc main_v326) = _ from mid_v326 (W4 m ρ c),
    show W5 m ρ c (Proc.devRef .tc main_v330) = _ from mid_v330 (W4 m ρ c),
    show W5 m ρ c (Proc.devRef .tc main_v332) = _ from mid_v332 (W4 m ρ c),
    show W5 m ρ c (Proc.devRef .tc main_v333) = _ from mid_v333 (W4 m ρ c),
    W4_v178 m ρ c,
    h4 main_v1 (by decide), h4 main_v3 (by decide), h4 main_v31 (by decide),
    h4 main_arg7 (by decide), h4 main_arg9 (by decide), h4 main_arg8 (by decide), h4 main_arg10 (by decide), h4 main_arg2 (by decide),
    show W3 m ρ c (Proc.devRef .tc main_v1) = _ from pre_v1 (W0 m ρ c),
    show W3 m ρ c (Proc.devRef .tc main_v3) = _ from pre_v3 (W0 m ρ c),
    show W3 m ρ c (Proc.devRef .tc main_v31) = _ from pre_v31 (W0 m ρ c),
    show W3 m ρ c (Proc.devRef .tc main_arg7) = _ from pre_arg7 (W0 m ρ c),
    show W3 m ρ c (Proc.devRef .tc main_arg9) = _ from pre_arg9 (W0 m ρ c),
    show W3 m ρ c (Proc.devRef .tc main_arg8) = _ from pre_arg8 (W0 m ρ c),
    show W3 m ρ c (Proc.devRef .tc main_arg10) = _ from pre_arg10 (W0 m ρ c),
    show W3 m ρ c (Proc.devRef .tc main_arg2) = _ from pre_arg2 (W0 m ρ c)]
  rfl

end Cert.KernelIdeal.HandV

end
-- ==== Proof.Spec.RSide.lean ====
/-
  The reference program as pure functions of its arguments, each spelt as the reference's host operations compute it,
  over the shared graph operators: a Chebyshev convolution is the sum over k = 0..4 of the basis vector T_k times the
  k-th slice of the filter bank, plus the bias row broadcast over the nodes; a layer is the forward convolution
  (gathered at the column node, summed at the row node) plus the backward one (the two ends exchanged), clamped below
  at zero; the readout sums the node rows of each graph and divides by the graph's node count floored at one.
-/
import proofs.«428271_j37306085933536_1_alg».proof.Proof.Spec.Common
import proofs.«428271_j37306085933536_1_alg».proof.ReferenceIdeal
import proofs.«428271_j37306085933536_1_alg».proof.Proof.Gen.ReferenceIdeal

noncomputable section

namespace Cert.Spec

open Idealize.ShloMosaic Cert.KernelIdeal

variable {F : FTy → Type} [FloatOps F]

/-- One Chebyshev convolution of the first layer (one input column, 128 output columns):
    ((((T_0 W_0 + T_1 W_1) + T_2 W_2) + T_3 W_3) + T_4 W_4) + b, the T_k the Chebyshev basis of x over the edges
    gathered at src and summed at dst, W_k the k-th 1 x 128 slice of the filter bank. -/
def conv1 (src dst : (⟨S400000, .i32⟩ : BufTy).Contents (Elt F)) (we : (⟨S400000, .f32⟩ : BufTy).Contents (Elt F))
    (x : (⟨S100000x1, .f32⟩ : BufTy).Contents (Elt F)) (W : (⟨S5x1x128, .f32⟩ : BufTy).Contents (Elt F))
    (b : (⟨S128, .f32⟩ : BufTy).Contents (Elt F)) : (⟨S100000x128, .f32⟩ : BufTy).Contents (Elt F) :=
  addf (addf (addf (addf (addf
    (Host.dotGeneral ReferenceIdeal.dot_S100000x1_S1x128_S100000x128_1_0_0_1_n_n none (t1 (F := F) src dst we x 0)
      (shapeCast S1x128 (extractStridedSlice ReferenceIdeal.S1x1x128 ![0, 0, 0] W ReferenceIdeal.Gen.slices_S5x1x128_S1x1x128_0_0_0) ReferenceIdeal.Gen.shapeCasts_S1x1x128_S1x128))
    (Host.dotGeneral ReferenceIdeal.dot_S100000x1_S1x128_S100000x128_1_0_0_1_n_n none (t1 (F := F) src dst we x 1)
      (shapeCast S1x128 (extractStridedSlice ReferenceIdeal.S1x1x128 ![1, 0, 0] W ReferenceIdeal.Gen.slices_S5x1x128_S1x1x128_1_0_0) ReferenceIdeal.Gen.shapeCasts_S1x1x128_S1x128)))
    (Host.dotGeneral ReferenceIdeal.dot_S100000x1_S1x128_S100000x128_1_0_0_1_n_n none (t1 (F := F) src dst we x 2)
      (shapeCast S1x128 (extractStridedSlice ReferenceIdeal.S1x1x128 ![2, 0, 0] W ReferenceIdeal.Gen.slices_S5x1x128_S1x1x128_2_0_0) ReferenceIdeal.Gen.shapeCasts_S1x1x128_S1x128)))
    (Host.dotGeneral ReferenceIdeal.dot_S100000x1_S1x128_S100000x128_1_0_0_1_n_n none (t1 (F := F) src dst we x 3)
      (shapeCast S1x128 (extractStridedSlice ReferenceIdeal.S1x1x128 ![3, 0, 0] W ReferenceIdeal.Gen.slices_S5x1x128_S1x1x128_3_0_0) ReferenceIdeal.Gen.shapeCasts_S1x1x128_S1x128)))
    (Host.dotGeneral ReferenceIdeal.dot_S100000x1_S1x128_S100000x128_1_0_0_1_n_n none (t1 (F := F) src dst we x 4)
      (shapeCast S1x128 (extractStridedSlice ReferenceIdeal.S1x1x128 ![4, 0, 0] W ReferenceIdeal.Gen.slices_S5x1x128_S1x1x128_4_0_0) ReferenceIdeal.Gen.shapeCasts_S1x1x128_S1x128)))
    (broadcastInDim S100000x128 ![0, 1] ReferenceIdeal.Gen.bcast_S1x128_S100000x128_0_1 (broadcastInDim S1x128 ![1] ReferenceIdeal.Gen.bcast_S128_S1x128_1 b))

/-- The first layer: the forward convolution (gathered at the column node, summed at the row node) plus the backward
    one, clamped below at zero. -/
def h1R (x : (⟨S100000x1, .f32⟩ : BufTy).Contents (Elt F)) (ei : (⟨S2x400000, .i32⟩ : BufTy).Contents (Elt F))
    (w1f : (⟨S5x1x128, .f32⟩ : BufTy).Contents (Elt F)) (b1f : (⟨S128, .f32⟩ : BufTy).Contents (Elt F))
    (w1b : (⟨S5x1x128, .f32⟩ : BufTy).Contents (Elt F)) (b1b : (⟨S128, .f32⟩ : BufTy).Contents (Elt F)) :
    (⟨S100000x128, .f32⟩ : BufTy).Contents (Elt F) :=
  maximumf
    (addf (conv1 (F := F) (colI (F := F) ei) (rowI (F := F) ei) (wEdge (F := F) ei) x w1f b1f)
      (conv1 (F := F) (rowI (F := F) ei) (colI (F := F) ei) (wEdge (F := F) ei) x w1b b1b))
    (broadcastInDim S100000x128 ![] ReferenceIdeal.Gen.bcast_S_S100000x128 (constant S_ .f32 0x00000000#32))

/-- One Chebyshev convolution of the second layer (128 input columns, 512 output columns), the same sum over the
    basis of a 128-column signal, W_k the k-th 128 x 512 slice of the filter bank. -/
def conv2 (src dst : (⟨S400000, .i32⟩ : BufTy).Contents (Elt F)) (we : (⟨S400000, .f32⟩ : BufTy).Contents (Elt F))
    (h : (⟨S100000x128, .f32⟩ : BufTy).Contents (Elt F)) (W : (⟨S5x128x512, .f32⟩ : BufTy).Contents (Elt F))
    (b : (⟨S512, .f32⟩ : BufTy).Contents (Elt F)) : (⟨ReferenceIdeal.S100000x512, .f32⟩ : BufTy).Contents (Elt F) :=
  addf (addf (addf (addf (addf
    (Host.dotGeneral ReferenceIdeal.dot_S100000x128_S128x512_S100000x512_1_0_0_1_n_n none (t128 (F := F) src dst we h 0)
      (shapeCast ReferenceIdeal.S128x512 (extractStridedSlice ReferenceIdeal.S1x128x512 ![0, 0, 0] W ReferenceIdeal.Gen.slices_S5x128x512_S1x128x512_0_0_0) ReferenceIdeal.Gen.shapeCasts_S1x128x512_S128x512))
    (Host.dotGeneral ReferenceIdeal.dot_S100000x128_S128x512_S100000x512_1_0_0_1_n_n none (t128 (F := F) src dst we h 1)
      (shapeCast ReferenceIdeal.S128x512 (extractStridedSlice ReferenceIdeal.S1x128x512 ![1, 0, 0] W ReferenceIdeal.Gen.slices_S5x128x512_S1x128x512_1_0_0) ReferenceIdeal.Gen.shapeCasts_S1x128x512_S128x512)))
    (Host.dotGeneral ReferenceIdeal.dot_S100000x128_S128x512_S100000x512_1_0_0_1_n_n none (t128 (F := F) src dst we h 2)
      (shapeCast ReferenceIdeal.S128x512 (extractStridedSlice ReferenceIdeal.S1x128x512 ![2, 0, 0] W ReferenceIdeal.Gen.slices_S5x128x512_S1x128x512_2_0_0) ReferenceIdeal.Gen.shapeCasts_S1x128x512_S128x512)))
    (Host.dotGeneral ReferenceIdeal.dot_S100000x128_S128x512_S100000x512_1_0_0_1_n_n none (t128 (F := F) src dst we h 3)
      (shapeCast ReferenceIdeal.S128x512 (extractStridedSlice ReferenceIdeal.S1x128x512 ![3, 0, 0] W ReferenceIdeal.Gen.slices_S5x128x512_S1x128x512_3_0_0) ReferenceIdeal.Gen.shapeCasts_S1x128x512_S128x512)))
    (Host.dotGeneral ReferenceIdeal.dot_S100000x128_S128x512_S100000x512_1_0_0_1_n_n none (t128 (F := F) src dst we h 4)
      (shapeCast ReferenceIdeal.S128x512 (extractStridedSlice ReferenceIdeal.S1x128x512 ![4, 0, 0] W ReferenceIdeal.Gen.slices_S5x128x512_S1x128x512_4_0_0) ReferenceIdeal.Gen.shapeCasts_S1x128x512_S128x512)))
    (broadcastInDim ReferenceIdeal.S100000x512 ![0, 1] ReferenceIdeal.Gen.bcast_S1x512_S100000x512_0_1 (broadcastInDim S1x512 ![1] ReferenceIdeal.Gen.bcast_S512_S1x512_1 b))

/-- The second layer: forward plus backward convolution of the first layer's output, clamped below at zero. -/
def h2R (h : (⟨S100000x128, .f32⟩ : BufTy).Contents (Elt F)) (ei : (⟨S2x400000, .i32⟩ : BufTy).Contents (Elt F))
    (w2f : (⟨S5x128x512, .f32⟩ : BufTy).Contents (Elt F)) (b2f : (⟨S512, .f32⟩ : BufTy).Contents (Elt F))
    (w2b : (⟨S5x128x512, .f32⟩ : BufTy).Contents (Elt F)) (b2b : (⟨S512, .f32⟩ : BufTy).Contents (Elt F)) :
    (⟨ReferenceIdeal.S100000x512, .f32⟩ : BufTy).Contents (Elt F) :=
  maximumf
    (addf (conv2 (F := F) (colI (F := F) ei) (rowI (F := F) ei) (wEdge (F := F) ei) h w2f b2f)
      (conv2 (F := F) (rowI (F := F) ei) (colI (F := F) ei) (wEdge (F := F) ei) h w2b b2b))
    (broadcastInDim ReferenceIdeal.S100000x512 ![] ReferenceIdeal.Gen.bcast_S_S100000x512 (constant S_ .f32 0x00000000#32))

/-- The readout's sums: row g is the sum of the node rows whose graph number is g. -/
def poolR (h2 : (⟨ReferenceIdeal.S100000x512, .f32⟩ : BufTy).Contents (Elt F)) (batch : (⟨S100000, .i32⟩ : BufTy).Contents (Elt F)) :
    (⟨S64x512, .f32⟩ : BufTy).Contents (Elt F) :=
  Host.scatterAdd ReferenceIdeal.scatter_S64x512_S100000x1_S100000x512_1_0_0_1
    (broadcastInDim S64x512 ![] ReferenceIdeal.Gen.bcast_S_S64x512 (constant S_ .f32 0x00000000#32))
    (broadcastInDim S100000x1 ![0] ReferenceIdeal.Gen.bcast_S100000_S100000x1_0 batch)
    h2

/-- The readout's divisors: the number of nodes of graph g floored at one, the same along a row. -/
def cntR (batch : (⟨S100000, .i32⟩ : BufTy).Contents (Elt F)) : (⟨S64x512, .f32⟩ : BufTy).Contents (Elt F) :=
  broadcastInDim S64x512 ![0, 1] ReferenceIdeal.Gen.bcast_S64x1_S64x512_0_1
    (broadcastInDim S64x1 ![0] ReferenceIdeal.Gen.bcast_S64_S64x1_0
      (maximumf
        (Host.scatterAdd ReferenceIdeal.scatter_S64_S100000x1_S100000_n_0_0_1
          (broadcastInDim S64 ![] ReferenceIdeal.Gen.bcast_S_S64 (constant S_ .f32 0x00000000#32))
          (broadcastInDim S100000x1 ![0] ReferenceIdeal.Gen.bcast_S100000_S100000x1_0 batch)
          (broadcastInDim S100000 ![] ReferenceIdeal.Gen.bcast_S_S100000 (constant S_ .f32 0x3F800000#32)))
        (broadcastInDim S64 ![] ReferenceIdeal.Gen.bcast_S_S64 (constant S_ .f32 0x3F800000#32))))

/-- The reference's result: the per-graph mean of the second layer's node rows. -/
def RRes (x : (⟨S100000x1, .f32⟩ : BufTy).Contents (Elt F)) (ei : (⟨S2x400000, .i32⟩ : BufTy).Contents (Elt F))
    (batch : (⟨S100000, .i32⟩ : BufTy).Contents (Elt F))
    (w1f : (⟨S5x1x128, .f32⟩ : BufTy).Contents (Elt F)) (b1f : (⟨S128, .f32⟩ : BufTy).Contents (Elt F))
    (w1b : (⟨S5x1x128, .f32⟩ : BufTy).Contents (Elt F)) (b1b : (⟨S128, .f32⟩ : BufTy).Contents (Elt F))
    (w2f : (⟨S5x128x512, .f32⟩ : BufTy).Contents (Elt F)) (b2f : (⟨S512, .f32⟩ : BufTy).Contents (Elt F))
    (w2b : (⟨S5x128x512, .f32⟩ : BufTy).Contents (Elt F)) (b2b : (⟨S512, .f32⟩ : BufTy).Contents (Elt F)) :
    (⟨S64x512, .f32⟩ : BufTy).Contents (Elt F) :=
  Host.divf (poolR (F := F) (h2R (F := F) (h1R (F := F) x ei w1f b1f w1b b1b) ei w2f b2f w2b b2b) batch) (cntR (F := F) batch)

end Cert.Spec

end
-- ==== Proof.RI.Val.lean ====
/-
  The reference program's buffers read out of the fold of its host operations: after the 664 operations, from any
  contents V of the device's buffers, the result buffer holds the reference's pure function of the eleven arguments'
  contents (the per-graph mean of the two Chebyshev layers' output), and every argument buffer holds what it held.
  Each equation is closed by unfolding: the fold is peeled one operation at a time down to the operations the buffer
  depends on, and the pure function unfolds to the same operations.
-/
import proofs.«428271_j37306085933536_1_alg».proof.Proof.RI.Run
import proofs.«428271_j37306085933536_1_alg».proof.Proof.Spec.RSide
import Idealize.ShloMosaic.Lib.Pipeline.Regions

noncomputable section

namespace Cert.ReferenceIdeal.Hand

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

variable (V : Valuation τ sig (Elt F))

set_option maxHeartbeats 400000000 in
/-- No operation writes argument 0: it holds what it held. -/
theorem ref_arg0 : after ops V (Proc.devRef .tc main_arg0) = V (Proc.devRef .tc main_arg0) := by
  chain_rfl

set_option maxHeartbeats 400000000 in
/-- No operation writes argument 1: it holds what it held. -/
theorem ref_arg1 : after ops V (Proc.devRef .tc main_arg1) = V (Proc.devRef .tc main_arg1) := by
  chain_rfl

set_option maxHeartbeats 400000000 in
/-- No operation writes argument 2: it holds what it held. -/
theorem ref_arg2 : after ops V (Proc.devRef .tc main_arg2) = V (Proc.devRef .tc main_arg2) := by
  chain_rfl

set_option maxHeartbeats 400000000 in
/-- No operation writes argument 3: it holds what it held. -/
theorem ref_arg3 : after ops V (Proc.devRef .tc main_arg3) = V (Proc.devRef .tc main_arg3) := by
  chain_rfl

set_option maxHeartbeats 400000000 in
/-- No operation writes argument 4: it holds what it held. -/
theorem ref_arg4 : after ops V (Proc.devRef .tc main_arg4) = V (Proc.devRef .tc main_arg4) := by
  chain_rfl

set_option maxHeartbeats 400000000 in
/-- No operation writes argument 5: it holds what it held. -/
theorem ref_arg5 : after ops V (Proc.devRef .tc main_arg5) = V (Proc.devRef .tc main_arg5) := by
  chain_rfl

set_option maxHeartbeats 400000000 in
/-- No operation writes argument 6: it holds what it held. -/
theorem ref_arg6 : after ops V (Proc.devRef .tc main_arg6) = V (Proc.devRef .tc main_arg6) := by
  chain_rfl

set_option maxHeartbeats 400000000 in
/-- No operation writes argument 7: it holds what it held. -/
theorem ref_arg7 : after ops V (Proc.devRef .tc main_arg7) = V (Proc.devRef .tc main_arg7) := by
  chain_rfl

set_option maxHeartbeats 400000000 in
/-- No operation writes argument 8: it holds what it held. -/
theorem ref_arg8 : after ops V (Proc.devRef .tc main_arg8) = V (Proc.devRef .tc main_arg8) := by
  chain_rfl

set_option maxHeartbeats 400000000 in
/-- No operation writes argument 9: it holds what it held. -/
theorem ref_arg9 : after ops V (Proc.devRef .tc main_arg9) = V (Proc.devRef .tc main_arg9) := by
  chain_rfl

set_option maxHeartbeats 400000000 in
/-- No operation writes argument 10: it holds what it held. -/
theorem ref_arg10 : after ops V (Proc.devRef .tc main_arg10) = V (Proc.devRef .tc main_arg10) := by
  chain_rfl

set_option maxHeartbeats 400000000 in
/-- The result buffer after the operations: the reference's pure function of the arguments' contents. -/
theorem ref_v531 :
    after ops V (Proc.devRef .tc main_v531)
      = Cert.Spec.RRes (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  chain_rfl

end Cert.ReferenceIdeal.Hand

end
-- ==== Proof.Math.Layer1.lean ====
/-
  Layer 1 of the network, at one node and one feature, over the extended reals. The kernel multiplies the ten
  Chebyshev basis columns (five of the forward direction, five of the backward one) laid side by side against the two
  weight stacks laid one above the other, and adds the sum of the two biases; the reference adds, per direction, the
  five products T_k * W[k] from left to right and then the direction's bias, and adds the two directions. Every
  product here contracts an axis of extent one or picks one column, so both sides are sums of the same ten products
  and the same two biases, and they agree because addition of extended reals is associative and commutative. The basis
  columns stay opaque throughout: the statements about them hold for any ten one-column arrays.
-/
import proofs.«428271_j37306085933536_1_alg».proof.Proof.Spec.Common
import proofs.«428271_j37306085933536_1_alg».proof.Proof.Spec.Closed
import proofs.«428271_j37306085933536_1_alg».proof.Proof.Spec.KSide
import proofs.«428271_j37306085933536_1_alg».proof.Proof.Spec.RSide
import Idealize.ShloMosaic.Lib.Pipeline.Value
import Idealize.ShloMosaic.Lib.ValueIdx
import Idealize.ShloMosaic.PureOps.Ideal.Laws
import Mathlib.Algebra.BigOperators.Fin

noncomputable section

namespace Cert.Math

open Idealize.ShloMosaic Idealize.ShloMosaic.ValueIdx Cert.KernelIdeal Cert.KernelIdeal.Gen
open scoped BigOperators

/-! ## A sum over ten indices, written out -/

theorem sum_fin10 (f : Fin 10 → EReal) :
    ∑ j, f j = f 0 + f 1 + f 2 + f 3 + f 4 + f 5 + f 6 + f 7 + f 8 + f 9 := by
  rw [Fin.sum_univ_castSucc, Fin.sum_univ_castSucc, Fin.sum_univ_eight]
  rfl

/-! ## The layout operations of the two operands, read at an index -/

/-- Columns laid side by side: column `j` of the concatenation along axis 1 of one-column arrays is the `j`-th
    array's only column (`hlen`: ten pieces; `hxk`: the `j`-th piece; `hpre`: the `j` pieces before it are one column wide each). -/
theorem cat_col_apply {α : Type} (xs : List ((s : Shape) × (s.Idx → α)))
    (hc : Shape.Concatenates (xs.map (·.1)) S100000x10 1) (n : Fin 100000) (j : Fin 10)
    (ck : S100000x1.Idx → α) (hlen : xs.length = 10) (hxk : xs[j.val]'(Nat.lt_of_lt_of_eq j.isLt hlen.symm) = ⟨S100000x1, ck⟩)
    (hpre : (((xs.take j.val).map (·.1)).map fun s => if h : s.rank = S100000x10.rank then s.size ((1 : Fin S100000x10.rank).cast h.symm) else 0).sum = j.val) :
    concatenate S100000x10 1 xs hc (ix2 n j) = ck (ix2 n (0 : Fin 1)) :=
  concatenate_apply_piece (1 : Fin S100000x10.rank) xs hc (ix2 n j) j.val (Nat.lt_of_lt_of_eq j.isLt hlen.symm) S100000x1 ck hxk rfl j.val hpre (ix2 n (0 : Fin 1))
    (fun b hb => match b, hb with
      | ⟨0, _⟩, _ => rfl
      | ⟨1, _⟩, hb => absurd rfl hb)
    rfl

/-- Two five-row stacks one above the other: a row of the upper half is the first stack's row, whose flattening
    from 5 x 1 x 128 keeps the row and the column. -/
theorem ww_top_apply {α : Type} (wf wb : S5x1x128.Idx → α) (hsc : S5x1x128.ShapeCasts S5x128)
    (hc : Shape.Concatenates [S5x128, S5x128] S10x128 0) (J : Fin 10) (j : Fin 5) (hJ : J.val = j.val) (h : Fin 128) :
    concatenate S10x128 0 [⟨S5x128, shapeCast S5x128 wf hsc⟩, ⟨S5x128, shapeCast S5x128 wb hsc⟩] hc (ix2 J h)
      = wf (ix3 j (0 : Fin 1) h) :=
  (concatenate_pair_apply_left (0 : Fin S10x128.rank) (shapeCast S5x128 wf hsc) (shapeCast S5x128 wb hsc) hc (ix2 J h) rfl (ix2 j h)
    (fun b => match b with
      | ⟨0, _⟩ => hJ.symm
      | ⟨1, _⟩ => rfl)).trans
  (shapeCast_apply wf hsc (ix2 j h) (ix3 j (0 : Fin 1) h)
    (by rw [Shape.rowMajor_val_three, Shape.rowMajor_val_two]
        show (j.val * 1 + 0) * 128 + h.val = j.val * 128 + h.val
        omega))

/-- A row of the lower half is the second stack's row, five rows up. -/
theorem ww_bot_apply {α : Type} (wf wb : S5x1x128.Idx → α) (hsc : S5x1x128.ShapeCasts S5x128)
    (hc : Shape.Concatenates [S5x128, S5x128] S10x128 0) (J : Fin 10) (j : Fin 5) (hJ : J.val = j.val + 5) (h : Fin 128) :
    concatenate S10x128 0 [⟨S5x128, shapeCast S5x128 wf hsc⟩, ⟨S5x128, shapeCast S5x128 wb hsc⟩] hc (ix2 J h)
      = wb (ix3 j (0 : Fin 1) h) :=
  (concatenate_pair_apply_right (0 : Fin S10x128.rank) (shapeCast S5x128 wf hsc) (shapeCast S5x128 wb hsc) hc (ix2 J h) rfl rfl (ix2 j h)
    (fun b hb => match b, hb with
      | ⟨0, _⟩, hb => absurd rfl hb
      | ⟨1, _⟩, _ => rfl)
    (by show j.val + 5 = J.val; omega)).trans
  (shapeCast_apply wb hsc (ix2 j h) (ix3 j (0 : Fin 1) h)
    (by rw [Shape.rowMajor_val_three, Shape.rowMajor_val_two]
        show (j.val * 1 + 0) * 128 + h.val = j.val * 128 + h.val
        omega))

/-- The summed bias as one row, at a column: the two biases' sum at that feature. -/
theorem bias_row_apply (bf bb : (⟨S128, .f32⟩ : BufTy).Contents (Elt Ideal)) (hsc : S128.ShapeCasts S1x128) (h : Fin 128) :
    shapeCast S1x128 (addf (F := Ideal) (φ := .f32) bf bb) hsc (ix2 (0 : Fin 1) h) = bf (ix1 h) + bb (ix1 h) :=
  shapeCast_apply (addf (F := Ideal) (φ := .f32) bf bb) hsc (ix2 (0 : Fin 1) h) (ix1 h)
    (by rw [Shape.rowMajor_val_one, Shape.rowMajor_val_two]
        show h.val = 0 * 128 + h.val
        omega)

/-- One weight row cut out of a stack (rows `k` to `k + 1`, then the unit axis dropped), at a column. -/
theorem wslice_apply {α : Type} (w : S5x1x128.Idx → α) (off : Fin S5x1x128.rank → Nat)
    (hs : S5x1x128.Slices off Cert.ReferenceIdeal.S1x1x128) (hsc : Cert.ReferenceIdeal.S1x1x128.ShapeCasts S1x128)
    (k : Fin 5) (h0 : off 0 = k.val) (h1 : off 1 = 0) (h2 : off 2 = 0) (h : Fin 128) :
    shapeCast S1x128 (extractStridedSlice Cert.ReferenceIdeal.S1x1x128 off w hs) hsc (ix2 (0 : Fin 1) h) = w (ix3 k (0 : Fin 1) h) :=
  (shapeCast_apply (extractStridedSlice Cert.ReferenceIdeal.S1x1x128 off w hs) hsc (ix2 (0 : Fin 1) h) (ix3 (0 : Fin 1) (0 : Fin 1) h)
    (by rw [Shape.rowMajor_val_three, Shape.rowMajor_val_two]
        show (0 * 1 + 0) * 128 + h.val = 0 * 128 + h.val
        omega)).trans
  (extractStridedSlice_apply off w hs (ix3 (0 : Fin 1) (0 : Fin 1) h) (ix3 k (0 : Fin 1) h) (fun a => match a with
    | ⟨0, _⟩ => by show k.val = off 0 + 0; omega
    | ⟨1, _⟩ => by show 0 = off 1 + 0; omega
    | ⟨2, _⟩ => by show h.val = off 2 + h.val; omega))

/-- A bias repeated down the rows, at a node and a feature: the bias at the feature. -/
theorem bias_bcast_apply {α : Type} (b : S128.Idx → α) (h1 : S128.BroadcastsInDim S1x128 (![1] : Fin 1 → Fin S1x128.rank))
    (h2 : S1x128.BroadcastsInDim S100000x128 (![0, 1] : Fin 2 → Fin S100000x128.rank)) (n : Fin 100000) (h : Fin 128) :
    broadcastInDim S100000x128 ![0, 1] h2 (broadcastInDim S1x128 ![1] h1 b) (ix2 n h) = b (ix1 h) :=
  (broadcastInDim_apply _ h2 (broadcastInDim S1x128 ![1] h1 b) (ix2 n h) (ix2 (0 : Fin 1) h) (fun a => match a with
    | ⟨0, _⟩ => by show 0 = if (1 : Nat) = 1 then 0 else n.val; rw [if_pos rfl]
    | ⟨1, _⟩ => by show h.val = if (128 : Nat) = 1 then 0 else h.val; rw [if_neg (by decide)])).trans
  (broadcastInDim_apply _ h1 b (ix2 (0 : Fin 1) h) (ix1 h) (fun a => match a with
    | ⟨0, _⟩ => by show h.val = if (128 : Nat) = 1 then 0 else h.val; rw [if_neg (by decide)]))

/-- The zero the activation is cut off at, everywhere. -/
theorem zero_bcast_apply (h0 : S_.BroadcastsInDim S100000x128 (![] : Fin 0 → Fin S100000x128.rank)) (i : S100000x128.Idx) :
    broadcastInDim S100000x128 ![] h0 (constant (F := Ideal) S_ .f32 0x00000000#32) i = (0 : EReal) :=
  (broadcastInDim_apply _ h0 (constant (F := Ideal) S_ .f32 0x00000000#32) i ix0 (fun a => a.elim0)).trans Ideal.ofBits_zero_f32

/-! ## A product contracting an axis of extent one -/

/-- The reference's dimension numbers of a [100000, 1] x [1, 128] product (the left operand's axis 1 against the right
    operand's axis 0). -/
abbrev D1 : DotDims S100000x1 S1x128 S100000x128 := Cert.ReferenceIdeal.dot_S100000x1_S1x128_S100000x128_1_0_0_1_n_n

/-- The left operand's row coordinate is the result's. -/
theorem dot1_lhs_row (i : S100000x128.Idx) (q : D1.contr.Idx) : (D1.lhsIdx i q 0).val = (i 0).val := by
  unfold DotDims.lhsIdx
  rw [dif_neg (show ¬(0 : Fin S100000x1.rank) ∈ D1.lhsBatch by decide),
    dif_pos (show (0 : Fin S100000x1.rank) ∈ D1.lhsNonContracting by decide)]
  rfl

/-- The right operand's column coordinate is the result's. -/
theorem dot1_rhs_col (i : S100000x128.Idx) (q : D1.contr.Idx) : (D1.rhsIdx i q 1).val = (i 1).val := by
  unfold DotDims.rhsIdx
  rw [dif_neg (show ¬(1 : Fin S1x128.rank) ∈ D1.rhsBatch by decide),
    dif_pos (show (1 : Fin S1x128.rank) ∈ D1.rhsNonContracting by decide)]
  rfl

/-- A one-column array times a one-row array: the one-term sum is the product of the two entries. -/
theorem dot1_apply (c : (⟨S100000x1, .f32⟩ : BufTy).Contents (Elt Ideal)) (W : (⟨S1x128, .f32⟩ : BufTy).Contents (Elt Ideal))
    (n : Fin 100000) (h : Fin 128) :
    Host.dotGeneral (F := Ideal) (φ₁ := .f32) (φ₂ := .f32) D1 none c W (ix2 n h) = c (ix2 n (0 : Fin 1)) * W (ix2 (0 : Fin 1) h) := by
  simp only [Host.dotGeneral]
  rw [Ideal.dotGeneral_apply, ← Equiv.sum_comp (contrEquiv1 D1 1 rfl rfl).symm, Fin.sum_univ_one]
  have hk := contrEquiv1_symm_val D1 1 rfl rfl (0 : Fin 1)
  have el : D1.lhsIdx (ix2 n h) ((contrEquiv1 D1 1 rfl rfl).symm 0) = ix2 n (0 : Fin 1) := funext fun a => Fin.ext (by
    match a with
    | ⟨0, _⟩ => exact dot1_lhs_row _ _
    | ⟨1, _⟩ => exact (D1.lhsIdx_val_of_single rfl _ _).trans hk)
  have er : D1.rhsIdx (ix2 n h) ((contrEquiv1 D1 1 rfl rfl).symm 0) = ix2 (0 : Fin 1) h := funext fun a => Fin.ext (by
    match a with
    | ⟨0, _⟩ => exact (D1.rhsIdx_val_of_single rfl _ _).trans hk
    | ⟨1, _⟩ => exact dot1_rhs_col _ _)
  rw [el, er]

/-! ## The identity of the two associations -/

/-- One matmul over the ten columns plus the summed bias is the two directions' left-to-right sums, each with its own
    bias, added: addition of extended reals is associative and commutative. -/
theorem layer1_alg (TX : S100000x10.Idx → EReal) (WW : S10x128.Idx → EReal) (B : S1x128.Idx → EReal)
    (c0 c1 c2 c3 c4 c5 c6 c7 c8 c9 w0 w1 w2 w3 w4 w5 w6 w7 w8 w9 bf bb : EReal) (n : Fin 100000) (h : Fin 128)
    (e0 : TX (ix2 n 0) = c0) (e1 : TX (ix2 n 1) = c1) (e2 : TX (ix2 n 2) = c2) (e3 : TX (ix2 n 3) = c3) (e4 : TX (ix2 n 4) = c4)
    (e5 : TX (ix2 n 5) = c5) (e6 : TX (ix2 n 6) = c6) (e7 : TX (ix2 n 7) = c7) (e8 : TX (ix2 n 8) = c8) (e9 : TX (ix2 n 9) = c9)
    (f0 : WW (ix2 0 h) = w0) (f1 : WW (ix2 1 h) = w1) (f2 : WW (ix2 2 h) = w2) (f3 : WW (ix2 3 h) = w3) (f4 : WW (ix2 4 h) = w4)
    (f5 : WW (ix2 5 h) = w5) (f6 : WW (ix2 6 h) = w6) (f7 : WW (ix2 7 h) = w7) (f8 : WW (ix2 8 h) = w8) (f9 : WW (ix2 9 h) = w9)
    (eb : B (ix2 (0 : Fin 1) h) = bf + bb) :
    max ((∑ j : Fin 10, TX (ix2 n j) * WW (ix2 j h)) + B (ix2 (0 : Fin 1) h)) 0
      = max ((((((c0 * w0 + c1 * w1) + c2 * w2) + c3 * w3) + c4 * w4) + bf)
           + (((((c5 * w5 + c6 * w6) + c7 * w7) + c8 * w8) + c9 * w9) + bb)) 0 := by
  rw [sum_fin10, e0, e1, e2, e3, e4, e5, e6, e7, e8, e9, f0, f1, f2, f3, f4, f5, f6, f7, f8, f9, eb]
  congr 1
  ac_rfl

/-! ## The reference's convolution over five arbitrary columns -/

/-- The reference's first-layer convolution with five arbitrary one-column arrays in place of the Chebyshev basis:
    ((((c_0 W_0 + c_1 W_1) + c_2 W_2) + c_3 W_3) + c_4 W_4) + b. -/
def convCols {F : FTy → Type} [FloatOps F] (c0 c1 c2 c3 c4 : (⟨S100000x1, .f32⟩ : BufTy).Contents (Elt F)) (W : (⟨S5x1x128, .f32⟩ : BufTy).Contents (Elt F))
    (b : (⟨S128, .f32⟩ : BufTy).Contents (Elt F)) : (⟨S100000x128, .f32⟩ : BufTy).Contents (Elt F) :=
  addf (addf (addf (addf (addf
    (Host.dotGeneral D1 none c0
      (shapeCast S1x128 (extractStridedSlice Cert.ReferenceIdeal.S1x1x128 ![0, 0, 0] W Cert.ReferenceIdeal.Gen.slices_S5x1x128_S1x1x128_0_0_0) Cert.ReferenceIdeal.Gen.shapeCasts_S1x1x128_S1x128))
    (Host.dotGeneral D1 none c1
      (shapeCast S1x128 (extractStridedSlice Cert.ReferenceIdeal.S1x1x128 ![1, 0, 0] W Cert.ReferenceIdeal.Gen.slices_S5x1x128_S1x1x128_1_0_0) Cert.ReferenceIdeal.Gen.shapeCasts_S1x1x128_S1x128)))
    (Host.dotGeneral D1 none c2
      (shapeCast S1x128 (extractStridedSlice Cert.ReferenceIdeal.S1x1x128 ![2, 0, 0] W Cert.ReferenceIdeal.Gen.slices_S5x1x128_S1x1x128_2_0_0) Cert.ReferenceIdeal.Gen.shapeCasts_S1x1x128_S1x128)))
    (Host.dotGeneral D1 none c3
      (shapeCast S1x128 (extractStridedSlice Cert.ReferenceIdeal.S1x1x128 ![3, 0, 0] W Cert.ReferenceIdeal.Gen.slices_S5x1x128_S1x1x128_3_0_0) Cert.ReferenceIdeal.Gen.shapeCasts_S1x1x128_S1x128)))
    (Host.dotGeneral D1 none c4
      (shapeCast S1x128 (extractStridedSlice Cert.ReferenceIdeal.S1x1x128 ![4, 0, 0] W Cert.ReferenceIdeal.Gen.slices_S5x1x128_S1x1x128_4_0_0) Cert.ReferenceIdeal.Gen.shapeCasts_S1x1x128_S1x128)))
    (broadcastInDim S100000x128 ![0, 1] Cert.ReferenceIdeal.Gen.bcast_S1x128_S100000x128_0_1 (broadcastInDim S1x128 ![1] Cert.ReferenceIdeal.Gen.bcast_S128_S1x128_1 b))

/-- At a node and a feature: the five products added left to right, then the bias. -/
theorem convCols_apply (c0 c1 c2 c3 c4 : (⟨S100000x1, .f32⟩ : BufTy).Contents (Elt Ideal)) (W : (⟨S5x1x128, .f32⟩ : BufTy).Contents (Elt Ideal))
    (b : (⟨S128, .f32⟩ : BufTy).Contents (Elt Ideal)) (n : Fin 100000) (h : Fin 128) :
    convCols (F := Ideal) c0 c1 c2 c3 c4 W b (ix2 n h)
      = ((((c0 (ix2 n (0 : Fin 1)) * W (ix3 (0 : Fin 5) (0 : Fin 1) h) + c1 (ix2 n (0 : Fin 1)) * W (ix3 (1 : Fin 5) (0 : Fin 1) h))
            + c2 (ix2 n (0 : Fin 1)) * W (ix3 (2 : Fin 5) (0 : Fin 1) h)) + c3 (ix2 n (0 : Fin 1)) * W (ix3 (3 : Fin 5) (0 : Fin 1) h))
            + c4 (ix2 n (0 : Fin 1)) * W (ix3 (4 : Fin 5) (0 : Fin 1) h)) + b (ix1 h) := by
  unfold convCols
  simp only [addf_apply]
  rw [dot1_apply, dot1_apply, dot1_apply, dot1_apply, dot1_apply,
    wslice_apply W ![0, 0, 0] _ _ 0 rfl rfl rfl h, wslice_apply W ![1, 0, 0] _ _ 1 rfl rfl rfl h,
    wslice_apply W ![2, 0, 0] _ _ 2 rfl rfl rfl h, wslice_apply W ![3, 0, 0] _ _ 3 rfl rfl rfl h,
    wslice_apply W ![4, 0, 0] _ _ 4 rfl rfl rfl h, bias_bcast_apply]

/-! ## Layer 1 -/

/-- The reference's convolution is the convolution over its five basis columns. -/
theorem conv1_eq (src dst : (⟨S400000, .i32⟩ : BufTy).Contents (Elt Ideal)) (we : (⟨S400000, .f32⟩ : BufTy).Contents (Elt Ideal))
    (x : (⟨S100000x1, .f32⟩ : BufTy).Contents (Elt Ideal)) (W : (⟨S5x1x128, .f32⟩ : BufTy).Contents (Elt Ideal))
    (b : (⟨S128, .f32⟩ : BufTy).Contents (Elt Ideal)) :
    Cert.Spec.conv1 (F := Ideal) src dst we x W b
      = convCols (F := Ideal) (Cert.Spec.t1 (F := Ideal) src dst we x 0) (Cert.Spec.t1 (F := Ideal) src dst we x 1) (Cert.Spec.t1 (F := Ideal) src dst we x 2)
          (Cert.Spec.t1 (F := Ideal) src dst we x 3) (Cert.Spec.t1 (F := Ideal) src dst we x 4) W b := rfl

/-- The kernel's left operand at node `n`: column `j` is the forward basis vector `j` for `j < 5`, the backward
    basis vector `j - 5` from there on. -/
theorem TX1g_cols (row col : (⟨S400000, .i32⟩ : BufTy).Contents (Elt Ideal)) (we : (⟨S400000, .f32⟩ : BufTy).Contents (Elt Ideal))
    (x : (⟨S100000x1, .f32⟩ : BufTy).Contents (Elt Ideal)) (n : Fin 100000) :
    (Cert.Spec.TX1g (F := Ideal) row col we x (ix2 n 0) = Cert.Spec.t1 (F := Ideal) col row we x 0 (ix2 n (0 : Fin 1))
      ∧ Cert.Spec.TX1g (F := Ideal) row col we x (ix2 n 1) = Cert.Spec.t1 (F := Ideal) col row we x 1 (ix2 n (0 : Fin 1))
      ∧ Cert.Spec.TX1g (F := Ideal) row col we x (ix2 n 2) = Cert.Spec.t1 (F := Ideal) col row we x 2 (ix2 n (0 : Fin 1))
      ∧ Cert.Spec.TX1g (F := Ideal) row col we x (ix2 n 3) = Cert.Spec.t1 (F := Ideal) col row we x 3 (ix2 n (0 : Fin 1))
      ∧ Cert.Spec.TX1g (F := Ideal) row col we x (ix2 n 4) = Cert.Spec.t1 (F := Ideal) col row we x 4 (ix2 n (0 : Fin 1)))
    ∧ (Cert.Spec.TX1g (F := Ideal) row col we x (ix2 n 5) = Cert.Spec.t1 (F := Ideal) row col we x 0 (ix2 n (0 : Fin 1))
      ∧ Cert.Spec.TX1g (F := Ideal) row col we x (ix2 n 6) = Cert.Spec.t1 (F := Ideal) row col we x 1 (ix2 n (0 : Fin 1))
      ∧ Cert.Spec.TX1g (F := Ideal) row col we x (ix2 n 7) = Cert.Spec.t1 (F := Ideal) row col we x 2 (ix2 n (0 : Fin 1))
      ∧ Cert.Spec.TX1g (F := Ideal) row col we x (ix2 n 8) = Cert.Spec.t1 (F := Ideal) row col we x 3 (ix2 n (0 : Fin 1))
      ∧ Cert.Spec.TX1g (F := Ideal) row col we x (ix2 n 9) = Cert.Spec.t1 (F := Ideal) row col we x 4 (ix2 n (0 : Fin 1))) := by
  unfold Cert.Spec.TX1g
  simp only [truncf_apply]
  exact ⟨⟨cat_col_apply _ _ n 0 _ rfl rfl rfl, cat_col_apply _ _ n 1 _ rfl rfl rfl,
      cat_col_apply _ _ n 2 _ rfl rfl rfl, cat_col_apply _ _ n 3 _ rfl rfl rfl,
      cat_col_apply _ _ n 4 _ rfl rfl rfl⟩,
    ⟨cat_col_apply _ _ n 5 _ rfl rfl rfl, cat_col_apply _ _ n 6 _ rfl rfl rfl,
      cat_col_apply _ _ n 7 _ rfl rfl rfl, cat_col_apply _ _ n 8 _ rfl rfl rfl,
      cat_col_apply _ _ n 9 _ rfl rfl rfl⟩⟩

/-- The kernel's right operand: row `J` is the forward stack's row `J` for `J < 5`. -/
theorem WW1_top (w1f w1b : (⟨S5x1x128, .f32⟩ : BufTy).Contents (Elt Ideal)) (J : Fin 10) (j : Fin 5) (hJ : J.val = j.val) (h : Fin 128) :
    Cert.Spec.WW1 (F := Ideal) w1f w1b (ix2 J h) = w1f (ix3 j (0 : Fin 1) h) := by
  unfold Cert.Spec.WW1
  rw [truncf_apply]
  exact ww_top_apply w1f w1b _ _ J j hJ h

/-- The kernel's right operand: row `J` is the backward stack's row `J - 5` for `J ≥ 5`. -/
theorem WW1_bot (w1f w1b : (⟨S5x1x128, .f32⟩ : BufTy).Contents (Elt Ideal)) (J : Fin 10) (j : Fin 5) (hJ : J.val = j.val + 5) (h : Fin 128) :
    Cert.Spec.WW1 (F := Ideal) w1f w1b (ix2 J h) = w1b (ix3 j (0 : Fin 1) h) := by
  unfold Cert.Spec.WW1
  rw [truncf_apply]
  exact ww_bot_apply w1f w1b _ _ J j hJ h

/-- The kernel's bias row at a feature: the two biases' sum. -/
theorem B1_apply (b1f b1b : (⟨S128, .f32⟩ : BufTy).Contents (Elt Ideal)) (h : Fin 128) :
    Cert.Spec.B1 (F := Ideal) b1f b1b (ix2 (0 : Fin 1) h) = b1f (ix1 h) + b1b (ix1 h) :=
  bias_row_apply b1f b1b _ h

/-- **Layer 1**: the kernel's activations (one matmul of the ten basis columns against the stacked weights, plus the
    summed bias, clamped at zero) are the reference's (the two directions' five-term sums, each with its bias, added
    and clamped at zero). -/
theorem layer1 (x : (⟨S100000x1, .f32⟩ : BufTy).Contents (Elt Ideal)) (ei : (⟨S2x400000, .i32⟩ : BufTy).Contents (Elt Ideal)) (w1f w1b : (⟨S5x1x128, .f32⟩ : BufTy).Contents (Elt Ideal)) (b1f b1b : (⟨S128, .f32⟩ : BufTy).Contents (Elt Ideal)) :
    Cert.Spec.H1c (Cert.Spec.TX1g (F := Ideal) (Cert.Spec.rowI ei) (Cert.Spec.colI ei) (Cert.Spec.wEdge (F := Ideal) ei) x) (Cert.Spec.WW1 (F := Ideal) w1f w1b) (Cert.Spec.B1 (F := Ideal) b1f b1b)
      = Cert.Spec.h1R (F := Ideal) x ei w1f b1f w1b b1b := by
  funext i
  obtain ⟨n, h, rfl⟩ : ∃ (n : Fin 100000) (h : Fin 128), i = ix2 n h := ⟨i 0, i 1, eq_ix2 i⟩
  rw [Cert.Spec.H1c_ix2]
  unfold Cert.Spec.H1e Cert.Spec.h1R
  rw [maximumf_apply, addf_apply, conv1_eq, conv1_eq, convCols_apply, convCols_apply, zero_bcast_apply]
  obtain ⟨⟨e0, e1, e2, e3, e4⟩, ⟨e5, e6, e7, e8, e9⟩⟩ :=
    TX1g_cols (Cert.Spec.rowI ei) (Cert.Spec.colI ei) (Cert.Spec.wEdge (F := Ideal) ei) x n
  exact layer1_alg _ _ _ _ _ _ _ _ _ _ _ _ _ _ _ _ _ _ _ _ _ _ _ _ _ n h e0 e1 e2 e3 e4 e5 e6 e7 e8 e9
    (WW1_top w1f w1b 0 0 rfl h) (WW1_top w1f w1b 1 1 rfl h) (WW1_top w1f w1b 2 2 rfl h) (WW1_top w1f w1b 3 3 rfl h)
    (WW1_top w1f w1b 4 4 rfl h) (WW1_bot w1f w1b 5 0 rfl h) (WW1_bot w1f w1b 6 1 rfl h) (WW1_bot w1f w1b 7 2 rfl h)
    (WW1_bot w1f w1b 8 3 rfl h) (WW1_bot w1f w1b 9 4 rfl h) (B1_apply b1f b1b h)

end Cert.Math

end
-- ==== Proof.Math.Layer2.lean ====
/-
  The second layer with its pooling, both ways, over the extended reals. The kernel multiplies the ten Chebyshev
  basis blocks laid side by side (1280 columns) by the two filter stacks laid one above the other and adds the sum
  of the two biases; the reference sums, per direction, the five products T_k W_k from the left and adds that
  direction's bias, then adds the two directions. Splitting the sum over 1280 positions into ten sums over 128 and
  regrouping the additions (addition of extended reals is associative and commutative; nothing else is used)
  identifies the two at every node and feature. The kernel pools by multiplying every node's activation with the
  indicator that the node's graph number is the word of g and summing over all nodes; the reference scatter-adds
  the node rows at their graph numbers read signed. An update element (n, c') lands on (g, c) exactly when c' = c
  and node n's number reads g, and a 32-bit word reads g < 64 signed exactly when it is the word of g, so the two
  sums have the same terms; a graph number outside [0, 64) contributes to no row on either side. The divisors are
  the same term on both sides.
-/
import proofs.«428271_j37306085933536_1_alg».proof.Proof.Spec.Common
import proofs.«428271_j37306085933536_1_alg».proof.Proof.Spec.Closed
import proofs.«428271_j37306085933536_1_alg».proof.Proof.Spec.KSide
import proofs.«428271_j37306085933536_1_alg».proof.Proof.Spec.RSide
import Idealize.ShloMosaic.Lib.ValueIdx
import Idealize.ShloMosaic.Lib.Pipeline.Value
import Idealize.ShloMosaic.PureOps.Ideal
import Idealize.ShloMosaic.PureOps.Ideal.Laws
import Mathlib.Algebra.BigOperators.Fin
import Mathlib.Logic.Equiv.Fin.Basic

noncomputable section

open scoped BigOperators

namespace Cert.Math

open Idealize.ShloMosaic Idealize.ShloMosaic.ValueIdx

/-! ## Words -/

/-- A 32-bit word read signed is a natural number below 64 exactly when it is that number's word. -/
theorem toInt_eq_natCast_iff (b : BitVec 32) (g : Nat) (hg : g < 64) : b.toInt = (g : Int) ↔ b = BitVec.ofNat 32 g := by
  have hgn : (BitVec.ofNat 32 g).toNat = g := by
    rw [BitVec.toNat_ofNat]; exact Nat.mod_eq_of_lt (by omega)
  constructor
  · intro h
    apply BitVec.eq_of_toNat_eq
    rw [hgn]
    have h2 := BitVec.toInt_eq_toNat_cond b
    have hb := b.isLt
    split at h2 <;> omega
  · rintro rfl
    rw [BitVec.toInt_eq_toNat_cond, hgn]
    split <;> omega

/-! ## The pooling scatter -/

/-- The pooling scatter's dimension numbers: row n of a 100000 x 512 update is added into the row of a 64 x 512
    operand that the n-th start index names. -/
abbrev poolDims (wf : ScatterDims.WF ⟨2, ![64, 512]⟩ ⟨2, ![100000, 1]⟩ ⟨2, ![100000, 512]⟩ [1] [0] [0] 1) :
    ScatterDims ⟨2, ![64, 512]⟩ ⟨2, ![100000, 1]⟩ ⟨2, ![100000, 512]⟩ where
  updateWindowDims := [1]
  insertedWindowDims := [0]
  scatterDimsToOperandDims := [0]
  indexVectorDim := 1
  wf := wf

section Pool
variable (wf : ScatterDims.WF ⟨2, ![64, 512]⟩ ⟨2, ![100000, 1]⟩ ⟨2, ![100000, 512]⟩ [1] [0] [0] 1)

theorem pool_start0 (idx : IVec ⟨2, ![100000, 1]⟩ 32) (n : Fin 100000) (c' : Fin 512) :
    (poolDims wf).start (ix2 n c') idx 0 = (idx (ix2 n (0 : Fin 1))).toInt := by
  unfold ScatterDims.start
  rw [dif_pos (show (0 : Fin 2) ∈ (poolDims wf).scatterDimsToOperandDims from List.mem_singleton.mpr rfl)]
  have hsi : (poolDims wf).siIdx (ix2 n c') ⟨List.idxOf (0 : Fin 2) (poolDims wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem pool_start1 (idx : IVec ⟨2, ![100000, 1]⟩ 32) (n : Fin 100000) (c' : Fin 512) :
    (poolDims wf).start (ix2 n c') idx 1 = 0 := by
  unfold ScatterDims.start
  rw [dif_neg (show (1 : Fin 2) ∉ ([0] : List (Fin 2)) by decide)]

theorem pool_window0 (n : Fin 100000) (c' : Fin 512) : (poolDims wf).window (ix2 n c') 0 = 0 := by
  unfold ScatterDims.window
  rw [dif_neg (show (0 : Fin 2) ∉ Shape.kept (⟨2, ![64, 512]⟩ : Shape) [0] by decide)]

theorem pool_window1 (n : Fin 100000) (c' : Fin 512) : (poolDims wf).window (ix2 n c') 1 = c'.val := by
  unfold ScatterDims.window
  rw [dif_pos (show (1 : Fin 2) ∈ Shape.kept (⟨2, ![64, 512]⟩ : Shape) [0] by decide)]
  rfl

/-- Update element (n, c') lands on (g, c) exactly when it is in column c and row n's start index reads g. -/
theorem pool_resultIdx_iff (idx : IVec ⟨2, ![100000, 1]⟩ 32) (n : Fin 100000) (c' : Fin 512) (g : Fin 64) (c : Fin 512) :
    (poolDims wf).resultIdx? (ix2 n c') idx = some (ix2 g c)
      ↔ (c' = c ∧ (idx (ix2 n (0 : Fin 1))).toInt = (g.val : Int)) := by
  have key0 : (poolDims wf).start (ix2 n c') idx 0 + ((poolDims wf).window (ix2 n c') 0 : Int)
      = (idx (ix2 n (0 : Fin 1))).toInt := by rw [pool_start0, pool_window0]; omega
  have key1 : (poolDims wf).start (ix2 n c') idx 1 + ((poolDims wf).window (ix2 n c') 1 : Int) = (c'.val : Int) := by
    rw [pool_start1, pool_window1]; omega
  have hg := g.isLt
  have hc' := c'.isLt
  unfold ScatterDims.resultIdx?
  split
  · rename_i h
    constructor
    · intro he
      have he' := Option.some.inj he
      have h0 : ((poolDims wf).start (ix2 n c') idx 0 + ((poolDims wf).window (ix2 n c') 0 : Int)).toNat = g.val :=
        congrArg (fun f => (f 0).val) he'
      have h1 : ((poolDims wf).start (ix2 n c') idx 1 + ((poolDims wf).window (ix2 n c') 1 : Int)).toNat = c.val :=
        congrArg (fun f => (f 1).val) he'
      have hh0 := (h 0).1
      rw [key0] at h0 hh0
      rw [key1] at h1
      exact ⟨Fin.ext (by omega), by omega⟩
    · rintro ⟨rfl, hv⟩
      refine congrArg some (funext fun a => Fin.ext ?_)
      match a with
      | ⟨0, _⟩ =>
        show ((poolDims wf).start (ix2 n c') idx 0 + ((poolDims wf).window (ix2 n c') 0 : Int)).toNat = g.val
        rw [key0, hv]; omega
      | ⟨1, _⟩ =>
        show ((poolDims wf).start (ix2 n c') idx 1 + ((poolDims wf).window (ix2 n c') 1 : Int)).toNat = c'.val
        rw [key1]; omega
  · rename_i h
    constructor
    · intro he; exact absurd he (by simp)
    · rintro ⟨rfl, hv⟩
      exfalso
      apply h
      intro a
      match a with
      | ⟨0, _⟩ =>
        show 0 ≤ (poolDims wf).start (ix2 n c') idx 0 + ((poolDims wf).window (ix2 n c') 0 : Int)
          ∧ (poolDims wf).start (ix2 n c') idx 0 + ((poolDims wf).window (ix2 n c') 0 : Int) < ((64 : Nat) : Int)
        rw [key0, hv]; omega
      | ⟨1, _⟩ =>
        show 0 ≤ (poolDims wf).start (ix2 n c') idx 1 + ((poolDims wf).window (ix2 n c') 1 : Int)
          ∧ (poolDims wf).start (ix2 n c') idx 1 + ((poolDims wf).window (ix2 n c') 1 : Int) < ((512 : Nat) : Int)
        rw [key1]; omega

/-- The pooling scatter read at (g, c): the operand there plus, over all nodes, the node's update in column c where
    the node's start index is the word of g. -/
theorem pool_scatter_apply (x : (⟨2, ![64, 512]⟩ : Shape).Idx → EReal) (idx : IVec ⟨2, ![100000, 1]⟩ 32)
    (a : (⟨2, ![100000, 512]⟩ : Shape).Idx → EReal) (g : Fin 64) (c : Fin 512) :
    Ideal.hostScatterAdd (poolDims wf) x idx a (ix2 g c)
      = x (ix2 g c) + ∑ n : Fin 100000,
          (if idx (ix2 n (0 : Fin 1)) = BitVec.ofNat 32 g.val then (1 : EReal) else 0) * a (ix2 n c) := by
  unfold Ideal.hostScatterAdd
  refine congrArg (x (ix2 g c) + ·) ?_
  rw [Finset.sum_filter, sum_idx2]
  refine Finset.sum_congr rfl fun n _ => ?_
  by_cases hq : idx (ix2 n (0 : Fin 1)) = BitVec.ofNat 32 g.val
  · rw [if_pos hq, one_mul, Finset.sum_eq_single c]
    · rw [if_pos ((pool_resultIdx_iff wf idx n c g c).2 ⟨rfl, (toInt_eq_natCast_iff _ _ g.isLt).2 hq⟩)]
    · intro c' _ hne
      rw [if_neg (fun hp => hne ((pool_resultIdx_iff wf idx n c' g c).1 hp).1)]
    · intro h; exact absurd (Finset.mem_univ c) h
  · rw [if_neg hq, zero_mul]
    refine Finset.sum_eq_zero fun c' _ => ?_
    rw [if_neg (fun hp => hq ((toInt_eq_natCast_iff _ _ g.isLt).1 ((pool_resultIdx_iff wf idx n c' g c).1 hp).2))]

end Pool

/-! ## Sums over blocks -/

/-- A sum over 1280 positions is the sum over ten blocks of 128. -/
theorem sum_blocks (f : Fin 1280 → EReal) :
    ∑ j : Fin 1280, f j = ∑ b : Fin 10, ∑ k : Fin 128, f ⟨128 * b.val + k.val, by omega⟩ := by
  have e := Equiv.sum_comp (finProdFinEquiv : Fin 10 × Fin 128 ≃ Fin (10 * 128)) (fun j : Fin (10 * 128) => f ⟨j.val, j.isLt⟩)
  rw [Fintype.sum_prod_type] at e
  refine Eq.trans ?_ (Eq.trans e.symm ?_)
  · rfl
  · refine Finset.sum_congr rfl fun b _ => Finset.sum_congr rfl fun k _ => ?_
    refine congrArg f (Fin.ext ?_)
    show k.val + 128 * b.val = 128 * b.val + k.val
    omega

/-- A sum over ten blocks is the sum over the first five plus the sum over the last five. -/
theorem sum_ten (F : Fin 10 → EReal) :
    ∑ b : Fin 10, F b = (F 0 + F 1 + F 2 + F 3 + F 4) + (F 5 + F 6 + F 7 + F 8 + F 9) := by
  have e := Fin.sum_univ_add (a := 5) (b := 5) (fun i : Fin (5 + 5) => F ⟨i.val, i.isLt⟩)
  rw [Fin.sum_univ_five, Fin.sum_univ_five] at e
  exact e

/-! ## The operands read at an index -/

/-- Ten arrays of 128 columns, as the list a concatenation takes. -/
abbrev tenList (T0 T1 T2 T3 T4 T5 T6 T7 T8 T9 : (⟨2, ![100000, 128]⟩ : Shape).Idx → EReal) :
    List ((s : Shape) × (s.Idx → EReal)) :=
  [⟨⟨2, ![100000, 128]⟩, T0⟩, ⟨⟨2, ![100000, 128]⟩, T1⟩, ⟨⟨2, ![100000, 128]⟩, T2⟩, ⟨⟨2, ![100000, 128]⟩, T3⟩,
   ⟨⟨2, ![100000, 128]⟩, T4⟩, ⟨⟨2, ![100000, 128]⟩, T5⟩, ⟨⟨2, ![100000, 128]⟩, T6⟩, ⟨⟨2, ![100000, 128]⟩, T7⟩,
   ⟨⟨2, ![100000, 128]⟩, T8⟩, ⟨⟨2, ![100000, 128]⟩, T9⟩]

/-- Ten arrays of 128 columns side by side, read at column 128 b + k: array b at column k. -/
theorem cat10_read (T0 T1 T2 T3 T4 T5 T6 T7 T8 T9 : (⟨2, ![100000, 128]⟩ : Shape).Idx → EReal)
    (hc : Shape.Concatenates ((tenList T0 T1 T2 T3 T4 T5 T6 T7 T8 T9).map (·.1)) ⟨2, ![100000, 1280]⟩ 1)
    (n : Fin 100000) (j : Fin 1280) (b : Fin 10) (k : Fin 128) (hj : j.val = 128 * b.val + k.val) :
    concatenate ⟨2, ![100000, 1280]⟩ 1 (tenList T0 T1 T2 T3 T4 T5 T6 T7 T8 T9) hc (ix2 n j)
      = (![T0, T1, T2, T3, T4, T5, T6, T7, T8, T9] b) (ix2 n k) := by
  have hk : b.val < (tenList T0 T1 T2 T3 T4 T5 T6 T7 T8 T9).length := b.isLt
  have hxk : (tenList T0 T1 T2 T3 T4 T5 T6 T7 T8 T9)[b.val]'hk
      = ⟨⟨2, ![100000, 128]⟩, ![T0, T1, T2, T3, T4, T5, T6, T7, T8, T9] b⟩ := by
    fin_cases b <;> rfl
  have hpre : ((((tenList T0 T1 T2 T3 T4 T5 T6 T7 T8 T9).take b.val).map (·.1)).map fun s : Shape =>
      if h : s.rank = (⟨2, ![100000, 1280]⟩ : Shape).rank then s.size ((1 : Fin 2).cast h.symm) else 0).sum = 128 * b.val := by
    fin_cases b <;> rfl
  refine concatenate_apply_piece 1 _ hc (ix2 n j) b.val hk ⟨2, ![100000, 128]⟩ _ hxk rfl (128 * b.val) hpre (ix2 n k) ?_ ?_
  · intro b' hb
    match b' with
    | ⟨0, _⟩ => rfl
    | ⟨1, _⟩ => exact absurd rfl hb
  · show 128 * b.val + k.val = j.val
    omega

/-- A 5 x 128 x 512 stack flattened to 640 rows, read at row 128 b + k: slice b, row k. -/
theorem flat_read (w : (⟨3, ![5, 128, 512]⟩ : Shape).Idx → EReal)
    (h1 : (⟨3, ![5, 128, 512]⟩ : Shape).ShapeCasts ⟨2, ![640, 512]⟩)
    (j : Fin 640) (b : Fin 5) (k : Fin 128) (hj : j.val = 128 * b.val + k.val) (c : Fin 512) :
    shapeCast ⟨2, ![640, 512]⟩ w h1 (ix2 j c) = w (ix3 b k c) := by
  refine shapeCast_apply w h1 (ix2 j c) (ix3 b k c) ?_
  rw [Shape.rowMajor_val_three, Shape.rowMajor_val_two]
  show (b.val * 128 + k.val) * 512 + c.val = j.val * 512 + c.val
  omega

/-- The two flattened stacks one above the other, read in the upper half. -/
theorem ww_read_f (w2f w2b : (⟨3, ![5, 128, 512]⟩ : Shape).Idx → EReal)
    (h1 h1' : (⟨3, ![5, 128, 512]⟩ : Shape).ShapeCasts ⟨2, ![640, 512]⟩)
    (hc : Shape.Concatenates [(⟨2, ![640, 512]⟩ : Shape), ⟨2, ![640, 512]⟩] ⟨2, ![1280, 512]⟩ 0)
    (j : Fin 1280) (b : Fin 5) (k : Fin 128) (hj : j.val = 128 * b.val + k.val) (c : Fin 512) :
    concatenate ⟨2, ![1280, 512]⟩ 0
        [⟨⟨2, ![640, 512]⟩, shapeCast ⟨2, ![640, 512]⟩ w2f h1⟩, ⟨⟨2, ![640, 512]⟩, shapeCast ⟨2, ![640, 512]⟩ w2b h1'⟩] hc (ix2 j c)
      = w2f (ix3 b k c) := by
  have hb := b.isLt
  have hk := k.isLt
  rw [concatenate_pair_apply_left 0 _ _ hc (ix2 j c) rfl (ix2 (⟨j.val, by omega⟩ : Fin 640) c) (fun b' => by
    match b' with
    | ⟨0, _⟩ => rfl
    | ⟨1, _⟩ => rfl)]
  exact flat_read w2f h1 _ b k hj c

/-- The two flattened stacks one above the other, read in the lower half. -/
theorem ww_read_b (w2f w2b : (⟨3, ![5, 128, 512]⟩ : Shape).Idx → EReal)
    (h1 h1' : (⟨3, ![5, 128, 512]⟩ : Shape).ShapeCasts ⟨2, ![640, 512]⟩)
    (hc : Shape.Concatenates [(⟨2, ![640, 512]⟩ : Shape), ⟨2, ![640, 512]⟩] ⟨2, ![1280, 512]⟩ 0)
    (j : Fin 1280) (b : Fin 5) (k : Fin 128) (hj : j.val = 640 + (128 * b.val + k.val)) (c : Fin 512) :
    concatenate ⟨2, ![1280, 512]⟩ 0
        [⟨⟨2, ![640, 512]⟩, shapeCast ⟨2, ![640, 512]⟩ w2f h1⟩, ⟨⟨2, ![640, 512]⟩, shapeCast ⟨2, ![640, 512]⟩ w2b h1'⟩] hc (ix2 j c)
      = w2b (ix3 b k c) := by
  have hb := b.isLt
  have hk := k.isLt
  rw [concatenate_pair_apply_right 0 _ _ hc (ix2 j c) rfl rfl (ix2 (⟨j.val - 640, by omega⟩ : Fin 640) c) (fun b' hb' => by
    match b' with
    | ⟨0, _⟩ => exact absurd rfl hb'
    | ⟨1, _⟩ => rfl) (by show j.val - 640 + 640 = j.val; omega)]
  exact flat_read w2b h1' _ b k (by show j.val - 640 = 128 * b.val + k.val; omega) c

/-- A 512-vector as one row, read at (0, c). -/
theorem row_read (v : (⟨1, ![512]⟩ : Shape).Idx → EReal) (h : (⟨1, ![512]⟩ : Shape).ShapeCasts ⟨2, ![1, 512]⟩) (c : Fin 512) :
    shapeCast ⟨2, ![1, 512]⟩ v h (ix2 (0 : Fin 1) c) = v (ix1 c) := by
  refine shapeCast_apply v h (ix2 (0 : Fin 1) c) (ix1 c) ?_
  rw [Shape.rowMajor_val_two, Shape.rowMajor_val_one]
  show c.val = 0 * 512 + c.val
  omega

/-- Slice b of a 5 x 128 x 512 stack as a 128 x 512 matrix, read at (k, c). -/
theorem slice_read (w : (⟨3, ![5, 128, 512]⟩ : Shape).Idx → EReal) (b : Fin 5)
    (hs : (⟨3, ![5, 128, 512]⟩ : Shape).Slices ![b.val, 0, 0] ⟨3, ![1, 128, 512]⟩)
    (h1 : (⟨3, ![1, 128, 512]⟩ : Shape).ShapeCasts ⟨2, ![128, 512]⟩) (k : Fin 128) (c : Fin 512) :
    shapeCast ⟨2, ![128, 512]⟩ (extractStridedSlice ⟨3, ![1, 128, 512]⟩ ![b.val, 0, 0] w hs) h1 (ix2 k c) = w (ix3 b k c) := by
  rw [shapeCast_apply _ h1 (ix2 k c) (ix3 (0 : Fin 1) k c) (by
    rw [Shape.rowMajor_val_three, Shape.rowMajor_val_two]
    show (0 * 128 + k.val) * 512 + c.val = k.val * 512 + c.val
    omega)]
  refine extractStridedSlice_apply _ w hs (ix3 (0 : Fin 1) k c) (ix3 b k c) ?_
  intro a
  match a with
  | ⟨0, _⟩ => show b.val = b.val + 0; omega
  | ⟨1, _⟩ => show k.val = 0 + k.val; omega
  | ⟨2, _⟩ => show c.val = 0 + c.val; omega

/-- A 512-vector broadcast to a row and then down the 100000 nodes, read at (n, c). -/
theorem bias_read (v : (⟨1, ![512]⟩ : Shape).Idx → EReal)
    (h1 : (⟨1, ![512]⟩ : Shape).BroadcastsInDim ⟨2, ![1, 512]⟩ ![1])
    (h2 : (⟨2, ![1, 512]⟩ : Shape).BroadcastsInDim ⟨2, ![100000, 512]⟩ ![0, 1]) (n : Fin 100000) (c : Fin 512) :
    broadcastInDim ⟨2, ![100000, 512]⟩ ![0, 1] h2 (broadcastInDim ⟨2, ![1, 512]⟩ ![1] h1 v) (ix2 n c) = v (ix1 c) := by
  rw [broadcastInDim_apply ![0, 1] h2 _ (ix2 n c) (ix2 (0 : Fin 1) c) (fun a => by
    match a with
    | ⟨0, _⟩ => show (0 : Nat) = if (1 : Nat) = 1 then 0 else n.val; rw [if_pos rfl]
    | ⟨1, _⟩ => show c.val = if (512 : Nat) = 1 then 0 else c.val; rw [if_neg (by decide)])]
  exact broadcastInDim_apply ![1] h1 v (ix2 (0 : Fin 1) c) (ix1 c) (fun a => by
    match a with
    | ⟨0, _⟩ => show c.val = if (512 : Nat) = 1 then 0 else c.val; rw [if_neg (by decide)])

/-- The zero scalar broadcast to any shape reads zero. -/
theorem zero_read {t : Shape} (h : (⟨0, ![]⟩ : Shape).BroadcastsInDim t ![]) (i : t.Idx) :
    broadcastInDim t ![] h (constant (F := Ideal) ⟨0, ![]⟩ .f32 0x00000000#32) i = (0 : EReal) := by
  rw [broadcastInDim_apply ![] h _ i ix0 (fun a => a.elim0)]
  exact Ideal.ofBits_zero_f32

/-- The graph numbers as a column (a reshape), read at (n, 0). -/
theorem col_read_cast (v : IVec ⟨1, ![100000]⟩ 32) (h : (⟨1, ![100000]⟩ : Shape).ShapeCasts ⟨2, ![100000, 1]⟩) (n : Fin 100000) :
    shapeCast ⟨2, ![100000, 1]⟩ v h (ix2 n (0 : Fin 1)) = v (ix1 n) := by
  refine shapeCast_apply v h (ix2 n (0 : Fin 1)) (ix1 n) ?_
  rw [Shape.rowMajor_val_two, Shape.rowMajor_val_one]
  show n.val = n.val * 1 + 0
  omega

/-- The graph numbers as a column (a broadcast), read at (n, 0). -/
theorem col_read_bcast (v : IVec ⟨1, ![100000]⟩ 32) (h : (⟨1, ![100000]⟩ : Shape).BroadcastsInDim ⟨2, ![100000, 1]⟩ ![0]) (n : Fin 100000) :
    broadcastInDim ⟨2, ![100000, 1]⟩ ![0] h v (ix2 n (0 : Fin 1)) = v (ix1 n) :=
  broadcastInDim_apply ![0] h v (ix2 n (0 : Fin 1)) (ix1 n) (fun a => by
    match a with
    | ⟨0, _⟩ => show n.val = if (100000 : Nat) = 1 then 0 else n.val; rw [if_neg (by decide)])

/-! ## The reference's matrix product -/

/-- The dimension numbers of a 100000 x 128 by 128 x 512 product. -/
abbrev dot2 (wf : DotDims.WF ⟨2, ![100000, 128]⟩ ⟨2, ![128, 512]⟩ ⟨2, ![100000, 512]⟩ [1] [0] [0] [1] [] []) :
    DotDims ⟨2, ![100000, 128]⟩ ⟨2, ![128, 512]⟩ ⟨2, ![100000, 512]⟩ where
  lhsContracting := [1]
  rhsContracting := [0]
  lhsNonContracting := [0]
  rhsNonContracting := [1]
  lhsBatch := []
  rhsBatch := []
  wf := wf

/-- The host's product read at (n, c): the sum over the 128 contracted positions. -/
theorem dot2_apply (wf : DotDims.WF ⟨2, ![100000, 128]⟩ ⟨2, ![128, 512]⟩ ⟨2, ![100000, 512]⟩ [1] [0] [0] [1] [] [])
    (l : FVec Ideal ⟨2, ![100000, 128]⟩ .f32) (r : FVec Ideal ⟨2, ![128, 512]⟩ .f32) (n : Fin 100000) (c : Fin 512) :
    Host.dotGeneral (dot2 wf) none l r (ix2 n c) = ∑ k : Fin 128, l (ix2 n k) * r (ix2 k c) := by
  simp only [Host.dotGeneral]
  rw [Ideal.dotGeneral_apply, ← Equiv.sum_comp (contrEquiv1 (dot2 wf) 128 rfl rfl).symm]
  refine Finset.sum_congr rfl fun k _ => ?_
  have hk := contrEquiv1_symm_val (dot2 wf) 128 rfl rfl k
  have el : (dot2 wf).lhsIdx (ix2 n c) ((contrEquiv1 (dot2 wf) 128 rfl rfl).symm k) = ix2 n k :=
    funext fun a => Fin.ext (by
      match a with
      | ⟨0, _⟩ =>
        show ((dot2 wf).lhsIdx (ix2 n c) ((contrEquiv1 (dot2 wf) 128 rfl rfl).symm k) 0).val = n.val
        unfold DotDims.lhsIdx
        rw [dif_neg (show ¬(0 : Fin 2) ∈ ([] : List (Fin 2)) by decide),
          dif_pos (show (0 : Fin 2) ∈ ([0] : List (Fin 2)) by decide)]
        rfl
      | ⟨1, _⟩ => exact ((dot2 wf).lhsIdx_val_of_single rfl (ix2 n c) _).trans hk)
  have er : (dot2 wf).rhsIdx (ix2 n c) ((contrEquiv1 (dot2 wf) 128 rfl rfl).symm k) = ix2 k c :=
    funext fun a => Fin.ext (by
      match a with
      | ⟨0, _⟩ => exact ((dot2 wf).rhsIdx_val_of_single rfl (ix2 n c) _).trans hk
      | ⟨1, _⟩ =>
        show ((dot2 wf).rhsIdx (ix2 n c) ((contrEquiv1 (dot2 wf) 128 rfl rfl).symm k) 1).val = c.val
        unfold DotDims.rhsIdx
        rw [dif_neg (show ¬(1 : Fin 2) ∈ ([] : List (Fin 2)) by decide),
          dif_pos (show (1 : Fin 2) ∈ ([1] : List (Fin 2)) by decide)]
        rfl)
  rw [el, er]

/-! ## One node's activation, both ways -/

/-- One block's contribution at (n, c): the basis array's row n against column c of slice b of the stack. -/
def blk (T : (⟨2, ![100000, 128]⟩ : Shape).Idx → EReal) (w : (⟨3, ![5, 128, 512]⟩ : Shape).Idx → EReal) (b : Fin 5)
    (n : Fin 100000) (c : Fin 512) : EReal :=
  ∑ k : Fin 128, T (ix2 n k) * w (ix3 b k c)

/-- The one product of the ten blocks side by side against the two stacks one above the other is the sum of the
    ten blocks' contributions. -/
theorem ksum (T0 T1 T2 T3 T4 T5 T6 T7 T8 T9 : (⟨2, ![100000, 128]⟩ : Shape).Idx → EReal)
    (w2f w2b : (⟨3, ![5, 128, 512]⟩ : Shape).Idx → EReal)
    (hcT : Shape.Concatenates ((tenList T0 T1 T2 T3 T4 T5 T6 T7 T8 T9).map (·.1)) ⟨2, ![100000, 1280]⟩ 1)
    (h1 h1' : (⟨3, ![5, 128, 512]⟩ : Shape).ShapeCasts ⟨2, ![640, 512]⟩)
    (hcW : Shape.Concatenates [(⟨2, ![640, 512]⟩ : Shape), ⟨2, ![640, 512]⟩] ⟨2, ![1280, 512]⟩ 0)
    (hlt : FTy.bf16.bits < FTy.f32.bits) (n : Fin 100000) (c : Fin 512) :
    ∑ j : Fin 1280,
        (truncf (F := Ideal) (φ := .f32) .bf16
          (concatenate ⟨2, ![100000, 1280]⟩ 1 (tenList T0 T1 T2 T3 T4 T5 T6 T7 T8 T9) hcT) hlt) (ix2 n j)
        * (truncf (F := Ideal) (φ := .f32) .bf16
          (concatenate ⟨2, ![1280, 512]⟩ 0
            [⟨⟨2, ![640, 512]⟩, shapeCast ⟨2, ![640, 512]⟩ w2f h1⟩, ⟨⟨2, ![640, 512]⟩, shapeCast ⟨2, ![640, 512]⟩ w2b h1'⟩] hcW) hlt) (ix2 j c)
      = (blk T0 w2f 0 n c + blk T1 w2f 1 n c + blk T2 w2f 2 n c + blk T3 w2f 3 n c + blk T4 w2f 4 n c)
        + (blk T5 w2b 0 n c + blk T6 w2b 1 n c + blk T7 w2b 2 n c + blk T8 w2b 3 n c + blk T9 w2b 4 n c) := by
  have hF : ∀ (b : Fin 10) (b5 : Fin 5), b.val = b5.val →
      (∑ k : Fin 128,
        (truncf (F := Ideal) (φ := .f32) .bf16
          (concatenate ⟨2, ![100000, 1280]⟩ 1 (tenList T0 T1 T2 T3 T4 T5 T6 T7 T8 T9) hcT) hlt)
            (ix2 n (⟨128 * b.val + k.val, by omega⟩ : Fin 1280))
        * (truncf (F := Ideal) (φ := .f32) .bf16
          (concatenate ⟨2, ![1280, 512]⟩ 0
            [⟨⟨2, ![640, 512]⟩, shapeCast ⟨2, ![640, 512]⟩ w2f h1⟩, ⟨⟨2, ![640, 512]⟩, shapeCast ⟨2, ![640, 512]⟩ w2b h1'⟩] hcW) hlt)
            (ix2 (⟨128 * b.val + k.val, by omega⟩ : Fin 1280) c))
        = blk (![T0, T1, T2, T3, T4, T5, T6, T7, T8, T9] b) w2f b5 n c := by
    intro b b5 hb
    refine Finset.sum_congr rfl fun k _ => ?_
    rw [truncf_apply, truncf_apply, cat10_read T0 T1 T2 T3 T4 T5 T6 T7 T8 T9 hcT n _ b k rfl,
      ww_read_f w2f w2b h1 h1' hcW _ b5 k (by show 128 * b.val + k.val = 128 * b5.val + k.val; omega) c]
  have hB : ∀ (b : Fin 10) (b5 : Fin 5), b.val = 5 + b5.val →
      (∑ k : Fin 128,
        (truncf (F := Ideal) (φ := .f32) .bf16
          (concatenate ⟨2, ![100000, 1280]⟩ 1 (tenList T0 T1 T2 T3 T4 T5 T6 T7 T8 T9) hcT) hlt)
            (ix2 n (⟨128 * b.val + k.val, by omega⟩ : Fin 1280))
        * (truncf (F := Ideal) (φ := .f32) .bf16
          (concatenate ⟨2, ![1280, 512]⟩ 0
            [⟨⟨2, ![640, 512]⟩, shapeCast ⟨2, ![640, 512]⟩ w2f h1⟩, ⟨⟨2, ![640, 512]⟩, shapeCast ⟨2, ![640, 512]⟩ w2b h1'⟩] hcW) hlt)
            (ix2 (⟨128 * b.val + k.val, by omega⟩ : Fin 1280) c))
        = blk (![T0, T1, T2, T3, T4, T5, T6, T7, T8, T9] b) w2b b5 n c := by
    intro b b5 hb
    refine Finset.sum_congr rfl fun k _ => ?_
    rw [truncf_apply, truncf_apply, cat10_read T0 T1 T2 T3 T4 T5 T6 T7 T8 T9 hcT n _ b k rfl,
      ww_read_b w2f w2b h1 h1' hcW _ b5 k (by show 128 * b.val + k.val = 640 + (128 * b5.val + k.val); omega) c]
  rw [sum_blocks, sum_ten, hF 0 0 rfl, hF 1 1 rfl, hF 2 2 rfl, hF 3 3 rfl, hF 4 4 rfl,
    hB 5 0 rfl, hB 6 1 rfl, hB 7 2 rfl, hB 8 3 rfl, hB 9 4 rfl]
  rfl

/-- The reference's product of a basis array with slice b of a stack, read at (n, c). -/
theorem dotslice_read (wf : DotDims.WF ⟨2, ![100000, 128]⟩ ⟨2, ![128, 512]⟩ ⟨2, ![100000, 512]⟩ [1] [0] [0] [1] [] [])
    (T : (⟨2, ![100000, 128]⟩ : Shape).Idx → EReal) (w : (⟨3, ![5, 128, 512]⟩ : Shape).Idx → EReal) (b : Nat) (hb : b < 5)
    (hs : (⟨3, ![5, 128, 512]⟩ : Shape).Slices ![b, 0, 0] ⟨3, ![1, 128, 512]⟩)
    (h1 : (⟨3, ![1, 128, 512]⟩ : Shape).ShapeCasts ⟨2, ![128, 512]⟩) (n : Fin 100000) (c : Fin 512) :
    Host.dotGeneral (F := Ideal) (φ₁ := .f32) (φ₂ := .f32) (dot2 wf) none T
        (shapeCast ⟨2, ![128, 512]⟩ (extractStridedSlice ⟨3, ![1, 128, 512]⟩ ![b, 0, 0] w hs) h1) (ix2 n c)
      = blk T w ⟨b, hb⟩ n c := by
  rw [dot2_apply]
  exact Finset.sum_congr rfl fun k _ => by rw [slice_read w ⟨b, hb⟩ hs h1 k c]

/-- One direction's convolution as the reference computes it, read at (n, c): the five blocks' contributions
    summed from the left, plus the bias. -/
theorem conv_read (wf : DotDims.WF ⟨2, ![100000, 128]⟩ ⟨2, ![128, 512]⟩ ⟨2, ![100000, 512]⟩ [1] [0] [0] [1] [] [])
    (T0 T1 T2 T3 T4 : (⟨2, ![100000, 128]⟩ : Shape).Idx → EReal) (w : (⟨3, ![5, 128, 512]⟩ : Shape).Idx → EReal)
    (hs0 : (⟨3, ![5, 128, 512]⟩ : Shape).Slices ![0, 0, 0] ⟨3, ![1, 128, 512]⟩)
    (hs1 : (⟨3, ![5, 128, 512]⟩ : Shape).Slices ![1, 0, 0] ⟨3, ![1, 128, 512]⟩)
    (hs2 : (⟨3, ![5, 128, 512]⟩ : Shape).Slices ![2, 0, 0] ⟨3, ![1, 128, 512]⟩)
    (hs3 : (⟨3, ![5, 128, 512]⟩ : Shape).Slices ![3, 0, 0] ⟨3, ![1, 128, 512]⟩)
    (hs4 : (⟨3, ![5, 128, 512]⟩ : Shape).Slices ![4, 0, 0] ⟨3, ![1, 128, 512]⟩)
    (h1 : (⟨3, ![1, 128, 512]⟩ : Shape).ShapeCasts ⟨2, ![128, 512]⟩)
    (v : (⟨1, ![512]⟩ : Shape).Idx → EReal)
    (hb1 : (⟨1, ![512]⟩ : Shape).BroadcastsInDim ⟨2, ![1, 512]⟩ ![1])
    (hb2 : (⟨2, ![1, 512]⟩ : Shape).BroadcastsInDim ⟨2, ![100000, 512]⟩ ![0, 1]) (n : Fin 100000) (c : Fin 512) :
    addf (F := Ideal) (φ := .f32) (addf (F := Ideal) (φ := .f32) (addf (F := Ideal) (φ := .f32) (addf (F := Ideal) (φ := .f32) (addf (F := Ideal) (φ := .f32)
      (Host.dotGeneral (F := Ideal) (φ₁ := .f32) (φ₂ := .f32) (dot2 wf) none T0
        (shapeCast ⟨2, ![128, 512]⟩ (extractStridedSlice ⟨3, ![1, 128, 512]⟩ ![0, 0, 0] w hs0) h1))
      (Host.dotGeneral (F := Ideal) (φ₁ := .f32) (φ₂ := .f32) (dot2 wf) none T1
        (shapeCast ⟨2, ![128, 512]⟩ (extractStridedSlice ⟨3, ![1, 128, 512]⟩ ![1, 0, 0] w hs1) h1)))
      (Host.dotGeneral (F := Ideal) (φ₁ := .f32) (φ₂ := .f32) (dot2 wf) none T2
        (shapeCast ⟨2, ![128, 512]⟩ (extractStridedSlice ⟨3, ![1, 128, 512]⟩ ![2, 0, 0] w hs2) h1)))
      (Host.dotGeneral (F := Ideal) (φ₁ := .f32) (φ₂ := .f32) (dot2 wf) none T3
        (shapeCast ⟨2, ![128, 512]⟩ (extractStridedSlice ⟨3, ![1, 128, 512]⟩ ![3, 0, 0] w hs3) h1)))
      (Host.dotGeneral (F := Ideal) (φ₁ := .f32) (φ₂ := .f32) (dot2 wf) none T4
        (shapeCast ⟨2, ![128, 512]⟩ (extractStridedSlice ⟨3, ![1, 128, 512]⟩ ![4, 0, 0] w hs4) h1)))
      (broadcastInDim ⟨2, ![100000, 512]⟩ ![0, 1] hb2 (broadcastInDim ⟨2, ![1, 512]⟩ ![1] hb1 v)) (ix2 n c)
      = (blk T0 w 0 n c + blk T1 w 1 n c + blk T2 w 2 n c + blk T3 w 3 n c + blk T4 w 4 n c) + v (ix1 c) := by
  simp only [addf_apply]
  rw [dotslice_read wf T0 w 0 (by decide) hs0 h1 n c, dotslice_read wf T1 w 1 (by decide) hs1 h1 n c,
    dotslice_read wf T2 w 2 (by decide) hs2 h1 n c, dotslice_read wf T3 w 3 (by decide) hs3 h1 n c,
    dotslice_read wf T4 w 4 (by decide) hs4 h1 n c, bias_read v hb1 hb2 n c]
  rfl

/-- The sum of all ten contributions plus the summed biases, against the two directions each with its bias. -/
theorem act_assoc (Ds Es bf bb : EReal) : max ((Ds + Es) + (bf + bb)) 0 = max ((Ds + bf) + (Es + bb)) 0 := by
  rw [add_add_add_comm]

/-! ## The two programs' terms -/

section Terms
open Cert.KernelIdeal Cert.KernelIdeal.Gen

/-- The divisors are one term. -/
theorem cnt_eq (batch : (⟨S100000, .i32⟩ : BufTy).Contents (Elt Ideal)) :
    Cert.Spec.cnt (F := Ideal) batch = Cert.Spec.cntR (F := Ideal) batch := rfl

/-- The activations agree at every node and feature. -/
theorem h2_eq (h : (⟨S100000x128, .f32⟩ : BufTy).Contents (Elt Ideal)) (ei : (⟨S2x400000, .i32⟩ : BufTy).Contents (Elt Ideal))
    (w2f w2b : (⟨S5x128x512, .f32⟩ : BufTy).Contents (Elt Ideal)) (b2f b2b : (⟨S512, .f32⟩ : BufTy).Contents (Elt Ideal))
    (n : Fin 100000) (c : Fin 512) :
    Cert.Spec.H2e (Cert.Spec.TX2g (F := Ideal) (Cert.Spec.rowI ei) (Cert.Spec.colI ei) (Cert.Spec.wEdge (F := Ideal) ei) h)
        (Cert.Spec.WW2 (F := Ideal) w2f w2b) (Cert.Spec.B2 (F := Ideal) b2f b2b) n c
      = Cert.Spec.h2R (F := Ideal) h ei w2f b2f w2b b2b (ix2 n c) := by
  have hk : ∑ j : Fin 1280,
        Cert.Spec.TX2g (F := Ideal) (Cert.Spec.rowI ei) (Cert.Spec.colI ei) (Cert.Spec.wEdge (F := Ideal) ei) h (ix2 n j)
          * Cert.Spec.WW2 (F := Ideal) w2f w2b (ix2 j c)
      = (blk (Cert.Spec.t128 (F := Ideal) (Cert.Spec.colI ei) (Cert.Spec.rowI ei) (Cert.Spec.wEdge (F := Ideal) ei) h 0) w2f 0 n c
          + blk (Cert.Spec.t128 (F := Ideal) (Cert.Spec.colI ei) (Cert.Spec.rowI ei) (Cert.Spec.wEdge (F := Ideal) ei) h 1) w2f 1 n c
          + blk (Cert.Spec.t128 (F := Ideal) (Cert.Spec.colI ei) (Cert.Spec.rowI ei) (Cert.Spec.wEdge (F := Ideal) ei) h 2) w2f 2 n c
          + blk (Cert.Spec.t128 (F := Ideal) (Cert.Spec.colI ei) (Cert.Spec.rowI ei) (Cert.Spec.wEdge (F := Ideal) ei) h 3) w2f 3 n c
          + blk (Cert.Spec.t128 (F := Ideal) (Cert.Spec.colI ei) (Cert.Spec.rowI ei) (Cert.Spec.wEdge (F := Ideal) ei) h 4) w2f 4 n c)
        + (blk (Cert.Spec.t128 (F := Ideal) (Cert.Spec.rowI ei) (Cert.Spec.colI ei) (Cert.Spec.wEdge (F := Ideal) ei) h 0) w2b 0 n c
          + blk (Cert.Spec.t128 (F := Ideal) (Cert.Spec.rowI ei) (Cert.Spec.colI ei) (Cert.Spec.wEdge (F := Ideal) ei) h 1) w2b 1 n c
          + blk (Cert.Spec.t128 (F := Ideal) (Cert.Spec.rowI ei) (Cert.Spec.colI ei) (Cert.Spec.wEdge (F := Ideal) ei) h 2) w2b 2 n c
          + blk (Cert.Spec.t128 (F := Ideal) (Cert.Spec.rowI ei) (Cert.Spec.colI ei) (Cert.Spec.wEdge (F := Ideal) ei) h 3) w2b 3 n c
          + blk (Cert.Spec.t128 (F := Ideal) (Cert.Spec.rowI ei) (Cert.Spec.colI ei) (Cert.Spec.wEdge (F := Ideal) ei) h 4) w2b 4 n c) :=
    ksum _ _ _ _ _ _ _ _ _ _ w2f w2b _ _ _ _ _ n c
  have hbias : Cert.Spec.B2 (F := Ideal) b2f b2b (ix2 (0 : Fin 1) c) = b2f (ix1 c) + b2b (ix1 c) :=
    row_read (addf (F := Ideal) (φ := .f32) b2f b2b) _ c
  have hf : Cert.Spec.conv2 (F := Ideal) (Cert.Spec.colI ei) (Cert.Spec.rowI ei) (Cert.Spec.wEdge (F := Ideal) ei) h w2f b2f (ix2 n c)
      = (blk (Cert.Spec.t128 (F := Ideal) (Cert.Spec.colI ei) (Cert.Spec.rowI ei) (Cert.Spec.wEdge (F := Ideal) ei) h 0) w2f 0 n c
          + blk (Cert.Spec.t128 (F := Ideal) (Cert.Spec.colI ei) (Cert.Spec.rowI ei) (Cert.Spec.wEdge (F := Ideal) ei) h 1) w2f 1 n c
          + blk (Cert.Spec.t128 (F := Ideal) (Cert.Spec.colI ei) (Cert.Spec.rowI ei) (Cert.Spec.wEdge (F := Ideal) ei) h 2) w2f 2 n c
          + blk (Cert.Spec.t128 (F := Ideal) (Cert.Spec.colI ei) (Cert.Spec.rowI ei) (Cert.Spec.wEdge (F := Ideal) ei) h 3) w2f 3 n c
          + blk (Cert.Spec.t128 (F := Ideal) (Cert.Spec.colI ei) (Cert.Spec.rowI ei) (Cert.Spec.wEdge (F := Ideal) ei) h 4) w2f 4 n c)
        + b2f (ix1 c) :=
    conv_read _ _ _ _ _ _ w2f _ _ _ _ _ _ b2f _ _ n c
  have hb : Cert.Spec.conv2 (F := Ideal) (Cert.Spec.rowI ei) (Cert.Spec.colI ei) (Cert.Spec.wEdge (F := Ideal) ei) h w2b b2b (ix2 n c)
      = (blk (Cert.Spec.t128 (F := Ideal) (Cert.Spec.rowI ei) (Cert.Spec.colI ei) (Cert.Spec.wEdge (F := Ideal) ei) h 0) w2b 0 n c
          + blk (Cert.Spec.t128 (F := Ideal) (Cert.Spec.rowI ei) (Cert.Spec.colI ei) (Cert.Spec.wEdge (F := Ideal) ei) h 1) w2b 1 n c
          + blk (Cert.Spec.t128 (F := Ideal) (Cert.Spec.rowI ei) (Cert.Spec.colI ei) (Cert.Spec.wEdge (F := Ideal) ei) h 2) w2b 2 n c
          + blk (Cert.Spec.t128 (F := Ideal) (Cert.Spec.rowI ei) (Cert.Spec.colI ei) (Cert.Spec.wEdge (F := Ideal) ei) h 3) w2b 3 n c
          + blk (Cert.Spec.t128 (F := Ideal) (Cert.Spec.rowI ei) (Cert.Spec.colI ei) (Cert.Spec.wEdge (F := Ideal) ei) h 4) w2b 4 n c)
        + b2b (ix1 c) :=
    conv_read _ _ _ _ _ _ w2b _ _ _ _ _ _ b2b _ _ n c
  unfold Cert.Spec.H2e Cert.Spec.h2R
  rw [maximumf_apply, addf_apply, hf, hb, zero_read, hk, hbias]
  exact act_assoc _ _ _ _

/-- The pooled sums agree, for any reference activations equal to the kernel's. -/
theorem pool_eq (tx2 : (⟨S100000x1280, .bf16⟩ : BufTy).Contents (Elt Ideal)) (ww2 : (⟨S1280x512, .bf16⟩ : BufTy).Contents (Elt Ideal))
    (b2 : (⟨S1x512, .f32⟩ : BufTy).Contents (Elt Ideal)) (a : (⟨Cert.ReferenceIdeal.S100000x512, .f32⟩ : BufTy).Contents (Elt Ideal))
    (hact : ∀ (n : Fin 100000) (c : Fin 512), Cert.Spec.H2e tx2 ww2 b2 n c = a (ix2 n c))
    (batch : (⟨S100000, .i32⟩ : BufTy).Contents (Elt Ideal)) (g : Fin 64) (c : Fin 512) :
    Cert.Spec.Poole tx2 ww2 b2 (Cert.Spec.B32 (F := Ideal) batch) g c = Cert.Spec.poolR (F := Ideal) a batch (ix2 g c) := by
  have hs : Cert.Spec.poolR (F := Ideal) a batch (ix2 g c)
      = broadcastInDim S64x512 ![] Cert.ReferenceIdeal.Gen.bcast_S_S64x512 (constant (F := Ideal) S_ .f32 0x00000000#32) (ix2 g c)
        + ∑ n : Fin 100000,
            (if broadcastInDim S100000x1 ![0] Cert.ReferenceIdeal.Gen.bcast_S100000_S100000x1_0 batch (ix2 n (0 : Fin 1))
                = BitVec.ofNat 32 g.val then (1 : EReal) else 0) * a (ix2 n c) :=
    pool_scatter_apply _ _ _ a g c
  rw [hs, zero_read, zero_add]
  unfold Cert.Spec.Poole
  refine Finset.sum_congr rfl fun n _ => ?_
  rw [hact n c]
  have e1 : Cert.Spec.B32 (F := Ideal) batch (ix2 n (0 : Fin 1)) = batch (ix1 n) := col_read_cast batch _ n
  have e2 : broadcastInDim S100000x1 ![0] Cert.ReferenceIdeal.Gen.bcast_S100000_S100000x1_0 batch (ix2 n (0 : Fin 1)) = batch (ix1 n) :=
    col_read_bcast batch _ n
  rw [e1, e2]

/-- The kernel's closed form of the pooled, count-normalised second layer is the reference's term. -/
theorem layer2 (h : (⟨S100000x128, .f32⟩ : BufTy).Contents (Elt Ideal)) (ei : (⟨S2x400000, .i32⟩ : BufTy).Contents (Elt Ideal)) (batch : (⟨S100000, .i32⟩ : BufTy).Contents (Elt Ideal)) (w2f w2b : (⟨S5x128x512, .f32⟩ : BufTy).Contents (Elt Ideal)) (b2f b2b : (⟨S512, .f32⟩ : BufTy).Contents (Elt Ideal)) :
    Cert.Spec.FinK (F := Ideal) (Cert.Spec.Poolc (Cert.Spec.TX2g (F := Ideal) (Cert.Spec.rowI ei) (Cert.Spec.colI ei) (Cert.Spec.wEdge (F := Ideal) ei) h) (Cert.Spec.WW2 (F := Ideal) w2f w2b) (Cert.Spec.B2 (F := Ideal) b2f b2b) (Cert.Spec.B32 (F := Ideal) batch)) batch
      = Host.divf (F := Ideal) (φ := .f32) (Cert.Spec.poolR (F := Ideal) (Cert.Spec.h2R (F := Ideal) h ei w2f b2f w2b b2b) batch) (Cert.Spec.cntR (F := Ideal) batch) := by
  have hp : Cert.Spec.Poolc (Cert.Spec.TX2g (F := Ideal) (Cert.Spec.rowI ei) (Cert.Spec.colI ei) (Cert.Spec.wEdge (F := Ideal) ei) h)
        (Cert.Spec.WW2 (F := Ideal) w2f w2b) (Cert.Spec.B2 (F := Ideal) b2f b2b) (Cert.Spec.B32 (F := Ideal) batch)
      = Cert.Spec.poolR (F := Ideal) (Cert.Spec.h2R (F := Ideal) h ei w2f b2f w2b b2b) batch := by
    funext i
    obtain ⟨g, c, rfl⟩ : ∃ (g : Fin 64) (c : Fin 512), i = ix2 g c := ⟨i 0, i 1, eq_ix2 i⟩
    rw [Cert.Spec.Poolc_ix2]
    exact pool_eq _ _ _ _ (fun n c => h2_eq h ei w2f w2b b2f b2b n c) batch g c
  unfold Cert.Spec.FinK
  rw [hp, cnt_eq]

end Terms

end Cert.Math

end
-- ==== Proof.Math.Bridge.lean ====
/-
  The kernel's result and the reference's are one function of the arguments, over the extended reals: layer 1's
  activations agree (the ten-block matmul against the two five-term sums), and from equal activations the pooled,
  count-normalised layer 2 agrees.
-/
import proofs.«428271_j37306085933536_1_alg».proof.Proof.Math.Layer1
import proofs.«428271_j37306085933536_1_alg».proof.Proof.Math.Layer2

noncomputable section

namespace Cert.Math

open Idealize.ShloMosaic Cert.KernelIdeal Cert.KernelIdeal.Gen

/-- The reference's result term is the kernel's closed form. -/
theorem result_eq (x : (⟨S100000x1, .f32⟩ : BufTy).Contents (Elt Ideal)) (ei : (⟨S2x400000, .i32⟩ : BufTy).Contents (Elt Ideal))
    (batch : (⟨S100000, .i32⟩ : BufTy).Contents (Elt Ideal))
    (w1f : (⟨S5x1x128, .f32⟩ : BufTy).Contents (Elt Ideal)) (b1f : (⟨S128, .f32⟩ : BufTy).Contents (Elt Ideal))
    (w1b : (⟨S5x1x128, .f32⟩ : BufTy).Contents (Elt Ideal)) (b1b : (⟨S128, .f32⟩ : BufTy).Contents (Elt Ideal))
    (w2f : (⟨S5x128x512, .f32⟩ : BufTy).Contents (Elt Ideal)) (b2f : (⟨S512, .f32⟩ : BufTy).Contents (Elt Ideal))
    (w2b : (⟨S5x128x512, .f32⟩ : BufTy).Contents (Elt Ideal)) (b2b : (⟨S512, .f32⟩ : BufTy).Contents (Elt Ideal)) :
    Cert.Spec.RRes (F := Ideal) x ei batch w1f b1f w1b b1b w2f b2f w2b b2b
      = Cert.Spec.FinK (F := Ideal)
          (Cert.Spec.Poolc
            (Cert.Spec.TX2g (F := Ideal) (Cert.Spec.rowI ei) (Cert.Spec.colI ei) (Cert.Spec.wEdge (F := Ideal) ei)
              (Cert.Spec.H1c (Cert.Spec.TX1g (F := Ideal) (Cert.Spec.rowI ei) (Cert.Spec.colI ei) (Cert.Spec.wEdge (F := Ideal) ei) x)
                (Cert.Spec.WW1 (F := Ideal) w1f w1b) (Cert.Spec.B1 (F := Ideal) b1f b1b)))
            (Cert.Spec.WW2 (F := Ideal) w2f w2b) (Cert.Spec.B2 (F := Ideal) b2f b2b) (Cert.Spec.B32 (F := Ideal) batch))
          batch := by
  rw [layer1 x ei w1f w1b b1f b1b, layer2 (Cert.Spec.h1R (F := Ideal) x ei w1f b1f w1b b1b) ei batch w2f w2b b2f b2b]
  rfl

end Cert.Math

end
-- ==== Proof.lean ====
/-
  The certificate: the two programs' frames from the runs of their items (the kernel's through its two regions, at the
  word level and over the extended reals; the reference's as the fold of its host operations), and the equality of
  their results over the extended reals — the kernel's result read off its last boundary's contents, the reference's
  off its fold, the two terms one function of arguments that agree.
-/
import proofs.«428271_j37306085933536_1_alg».proof.Defs
import proofs.«428271_j37306085933536_1_alg».proof.Proof.Gen.Kernel
import proofs.«428271_j37306085933536_1_alg».proof.Proof.Gen.KernelIdeal
import proofs.«428271_j37306085933536_1_alg».proof.Proof.Gen.ReferenceIdeal
import proofs.«428271_j37306085933536_1_alg».proof.Proof.Gen.Pre_finite_inputs
import proofs.«428271_j37306085933536_1_alg».proof.Proof.KB.Run
import proofs.«428271_j37306085933536_1_alg».proof.Proof.KI.Value
import proofs.«428271_j37306085933536_1_alg».proof.Proof.RI.Val
import proofs.«428271_j37306085933536_1_alg».proof.Proof.Math.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments. -/
theorem frame_k : Cert.frame_Kernel := fun m ρ _ => Cert.Kernel.Hand.frame (F := Bits) m ρ

/-- The idealized kernel runs and leaves its arguments. -/
theorem frame_ki : Cert.frame_KernelIdeal := fun m ρ _ => Cert.KernelIdeal.Hand.frame (F := Ideal) m ρ

/-- The reference runs and leaves its arguments: no operation of its fold writes one. -/
theorem frame_ri : Cert.frame_ReferenceIdeal := fun m ρ _ =>
  (θ_run Cert.ReferenceIdeal.defs _ _).mono (fun r h c => ⟨
    (h c Cert.ReferenceIdeal.main_arg0).trans (Cert.ReferenceIdeal.Hand.ref_arg0 (StableHlo.launchContents m c)),
    (h c Cert.ReferenceIdeal.main_arg1).trans (Cert.ReferenceIdeal.Hand.ref_arg1 (StableHlo.launchContents m c)),
    (h c Cert.ReferenceIdeal.main_arg2).trans (Cert.ReferenceIdeal.Hand.ref_arg2 (StableHlo.launchContents m c)),
    (h c Cert.ReferenceIdeal.main_arg3).trans (Cert.ReferenceIdeal.Hand.ref_arg3 (StableHlo.launchContents m c)),
    (h c Cert.ReferenceIdeal.main_arg4).trans (Cert.ReferenceIdeal.Hand.ref_arg4 (StableHlo.launchContents m c)),
    (h c Cert.ReferenceIdeal.main_arg5).trans (Cert.ReferenceIdeal.Hand.ref_arg5 (StableHlo.launchContents m c)),
    (h c Cert.ReferenceIdeal.main_arg6).trans (Cert.ReferenceIdeal.Hand.ref_arg6 (StableHlo.launchContents m c)),
    (h c Cert.ReferenceIdeal.main_arg7).trans (Cert.ReferenceIdeal.Hand.ref_arg7 (StableHlo.launchContents m c)),
    (h c Cert.ReferenceIdeal.main_arg8).trans (Cert.ReferenceIdeal.Hand.ref_arg8 (StableHlo.launchContents m c)),
    (h c Cert.ReferenceIdeal.main_arg9).trans (Cert.ReferenceIdeal.Hand.ref_arg9 (StableHlo.launchContents m c)),
    (h c Cert.ReferenceIdeal.main_arg10).trans (Cert.ReferenceIdeal.Hand.ref_arg10 (StableHlo.launchContents m c))⟩)
    (Cert.ReferenceIdeal.ValueP.run_fold (F := Ideal) m ρ)

/-- The ideal pass rewrote nothing. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => Cert.KernelIdeal.Hand.W7 m ρ c (Proc.devRef .tc Cert.KernelIdeal.main_v343), ?_, ?_⟩
  · exact (θ_run Cert.KernelIdeal.defs _ _).mono (fun r h c => ⟨
      h c _ (Cert.KernelIdeal.Hand.mem_uc Cert.KernelIdeal.main_v343 (by decide)),
      (h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c),
      (h c _ (Cert.KernelIdeal.Hand.mem_uc Cert.KernelIdeal.main_arg8 (by decide))).trans (Cert.KernelIdeal.Hand.W7_main_arg8 m ρ c),
      (h c _ (Cert.KernelIdeal.Hand.mem_uc Cert.KernelIdeal.main_arg9 (by decide))).trans (Cert.KernelIdeal.Hand.W7_main_arg9 m ρ c),
      (h c _ (Cert.KernelIdeal.Hand.mem_uc Cert.KernelIdeal.main_arg10 (by decide))).trans (Cert.KernelIdeal.Hand.W7_main_arg10 m ρ c)⟩)
      (Cert.KernelIdeal.Hand.run_all (F := Ideal) m ρ)
  · refine (θ_run Cert.ReferenceIdeal.defs _ _).mono (fun r h c => ⟨?_,
      (h c Cert.ReferenceIdeal.main_arg0).trans (Cert.ReferenceIdeal.Hand.ref_arg0 (StableHlo.launchContents m' c)),
      (h c Cert.ReferenceIdeal.main_arg1).trans (Cert.ReferenceIdeal.Hand.ref_arg1 (StableHlo.launchContents m' c)),
      (h c Cert.ReferenceIdeal.main_arg2).trans (Cert.ReferenceIdeal.Hand.ref_arg2 (StableHlo.launchContents m' c)),
      (h c Cert.ReferenceIdeal.main_arg3).trans (Cert.ReferenceIdeal.Hand.ref_arg3 (StableHlo.launchContents m' c)),
      (h c Cert.ReferenceIdeal.main_arg4).trans (Cert.ReferenceIdeal.Hand.ref_arg4 (StableHlo.launchContents m' c)),
      (h c Cert.ReferenceIdeal.main_arg5).trans (Cert.ReferenceIdeal.Hand.ref_arg5 (StableHlo.launchContents m' c)),
      (h c Cert.ReferenceIdeal.main_arg6).trans (Cert.ReferenceIdeal.Hand.ref_arg6 (StableHlo.launchContents m' c)),
      (h c Cert.ReferenceIdeal.main_arg7).trans (Cert.ReferenceIdeal.Hand.ref_arg7 (StableHlo.launchContents m' c)),
      (h c Cert.ReferenceIdeal.main_arg8).trans (Cert.ReferenceIdeal.Hand.ref_arg8 (StableHlo.launchContents m' c)),
      (h c Cert.ReferenceIdeal.main_arg9).trans (Cert.ReferenceIdeal.Hand.ref_arg9 (StableHlo.launchContents m' c)),
      (h c Cert.ReferenceIdeal.main_arg10).trans (Cert.ReferenceIdeal.Hand.ref_arg10 (StableHlo.launchContents m' c))⟩)
      (Cert.ReferenceIdeal.ValueP.run_fold (F := Ideal) m' ρ')
    refine (h c Cert.ReferenceIdeal.main_v531).trans ?_
    refine (Cert.ReferenceIdeal.Hand.ref_v531 (StableHlo.launchContents m' c)).trans ?_
    refine Eq.trans ?_ (Cert.KernelIdeal.HandV.W7_v343 m ρ c).symm
    obtain ⟨h0, h1, h2, h3, h4, h5, h6, h7, h8, h9, h10⟩ := hagree c
    have e0 : StableHlo.launchContents m' c (Proc.devRef .tc Cert.ReferenceIdeal.main_arg0) = m ((c.tc : Thread Cert.KernelIdeal.nD Cert.KernelIdeal.τ).loc Cert.KernelIdeal.main_arg0) := h0
    have e1 : StableHlo.launchContents m' c (Proc.devRef .tc Cert.ReferenceIdeal.main_arg1) = m ((c.tc : Thread Cert.KernelIdeal.nD Cert.KernelIdeal.τ).loc Cert.KernelIdeal.main_arg1) := h1
    have e2 : StableHlo.launchContents m' c (Proc.devRef .tc Cert.ReferenceIdeal.main_arg2) = m ((c.tc : Thread Cert.KernelIdeal.nD Cert.KernelIdeal.τ).loc Cert.KernelIdeal.main_arg2) := h2
    have e3 : StableHlo.launchContents m' c (Proc.devRef .tc Cert.ReferenceIdeal.main_arg3) = m ((c.tc : Thread Cert.KernelIdeal.nD Cert.KernelIdeal.τ).loc Cert.KernelIdeal.main_arg3) := h3
    have e4 : StableHlo.launchContents m' c (Proc.devRef .tc Cert.ReferenceIdeal.main_arg4) = m ((c.tc : Thread Cert.KernelIdeal.nD Cert.KernelIdeal.τ).loc Cert.KernelIdeal.main_arg4) := h4
    have e5 : StableHlo.launchContents m' c (Proc.devRef .tc Cert.ReferenceIdeal.main_arg5) = m ((c.tc : Thread Cert.KernelIdeal.nD Cert.KernelIdeal.τ).loc Cert.KernelIdeal.main_arg5) := h5
    have e6 : StableHlo.launchContents m' c (Proc.devRef .tc Cert.ReferenceIdeal.main_arg6) = m ((c.tc : Thread Cert.KernelIdeal.nD Cert.KernelIdeal.τ).loc Cert.KernelIdeal.main_arg6) := h6
    have e7 : StableHlo.launchContents m' c (Proc.devRef .tc Cert.ReferenceIdeal.main_arg7) = m ((c.tc : Thread Cert.KernelIdeal.nD Cert.KernelIdeal.τ).loc Cert.KernelIdeal.main_arg7) := h7
    have e8 : StableHlo.launchContents m' c (Proc.devRef .tc Cert.ReferenceIdeal.main_arg8) = m ((c.tc : Thread Cert.KernelIdeal.nD Cert.KernelIdeal.τ).loc Cert.KernelIdeal.main_arg8) := h8
    have e9 : StableHlo.launchContents m' c (Proc.devRef .tc Cert.ReferenceIdeal.main_arg9) = m ((c.tc : Thread Cert.KernelIdeal.nD Cert.KernelIdeal.τ).loc Cert.KernelIdeal.main_arg9) := h9
    have e10 : StableHlo.launchContents m' c (Proc.devRef .tc Cert.ReferenceIdeal.main_arg10) = m ((c.tc : Thread Cert.KernelIdeal.nD Cert.KernelIdeal.τ).loc Cert.KernelIdeal.main_arg10) := h10
    rw [e0, e1, e2, e3, e4, e5, e6, e7, e8, e9, e10]
    exact Cert.Math.result_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
